-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x32 .f32) (main_arg1 : IVec S1600000 32) (main_arg2 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_c_0 : IVec S_ 32 := constantI S_ 32 0#32
  let main_v4 : IVec S1600000 32 := broadcastInDim S1600000 ![] bcast_S_S1600000 main_c_0
  let main_v5 : IVec S1600000 1 := cmpi .sge main_arg1 main_v4
  let main_c_1 : IVec S_ 1 := constantI S_ 1 1#1
  let main_v6 : IVec S_ 1 := (fun x v => Host.reduce IntOp.andi x v reducesTo_S1600000_S_d0 h_S_) main_v5 main_c_1
  let main_v7 : IVec S_ 1 := andi main_v3 main_v6
  let main_c_2 : IVec S_ 32 := constantI S_ 32 100000#32
  let main_v8 : IVec S1600000 32 := broadcastInDim S1600000 ![] bcast_S_S1600000 main_c_2
  let main_v9 : IVec S1600000 1 := cmpi .slt main_arg1 main_v8
  let main_c_3 : IVec S_ 1 := constantI S_ 1 1#1
  let main_v10 : IVec S_ 1 := (fun x v => Host.reduce IntOp.andi x v reducesTo_S1600000_S_d0 h_S_) main_v9 main_c_3
  let main_v11 : IVec S_ 1 := andi main_v7 main_v10
  main_v11
-- ==== Kernel.lean ====
abbrev S100000x32 : Shape := ⟨2, ![100000, 32]⟩
abbrev S1600000 : Shape := ⟨1, ![1600000]⟩
abbrev S32x100000 : Shape := ⟨2, ![32, 100000]⟩
abbrev S_ : Shape := ⟨0, ![]⟩
abbrev S32x102400 : Shape := ⟨2, ![32, 102400]⟩
abbrev S1601536 : Shape := ⟨1, ![1601536]⟩
abbrev S1x1601536 : Shape := ⟨2, ![1, 1601536]⟩
abbrev S1601536x1 : Shape := ⟨2, ![1601536, 1]⟩
abbrev S32x1601536 : Shape := ⟨2, ![32, 1601536]⟩
abbrev S1x4096 : Shape := ⟨2, ![1, 4096]⟩
abbrev S32x1024 : Shape := ⟨2, ![32, 1024]⟩
abbrev S32x4096 : Shape := ⟨2, ![32, 4096]⟩
abbrev S1024x1 : Shape := ⟨2, ![1024, 1]⟩
abbrev S1024x4096 : Shape := ⟨2, ![1024, 4096]⟩
abbrev S102400x32 : Shape := ⟨2, ![102400, 32]⟩

abbrev nBuf : Space → Nat
  | .hbm => 20
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S100000x32, .bf16⟩
  | .hbm, ⟨4, _⟩ => ⟨S32x100000, .bf16⟩
  | .hbm, ⟨5, _⟩ => ⟨S_, .i32⟩
  | .hbm, ⟨6, _⟩ => ⟨S_, .bf16⟩
  | .hbm, ⟨7, _⟩ => ⟨S32x102400, .bf16⟩
  | .hbm, ⟨8, _⟩ => ⟨S_, .i32⟩
  | .hbm, ⟨9, _⟩ => ⟨S_, .i32⟩
  | .hbm, ⟨10, _⟩ => ⟨S1601536, .i32⟩
  | .hbm, ⟨11, _⟩ => ⟨S_, .i32⟩
  | .hbm, ⟨12, _⟩ => ⟨S_, .i32⟩
  | .hbm, ⟨13, _⟩ => ⟨S1601536, .i32⟩
  | .hbm, ⟨14, _⟩ => ⟨S1x1601536, .i32⟩
  | .hbm, ⟨15, _⟩ => ⟨S1601536x1, .i32⟩
  | .hbm, ⟨16, _⟩ => ⟨S32x1601536, .bf16⟩
  | .hbm, ⟨17, _⟩ => ⟨S32x102400, .f32⟩
  | .hbm, ⟨18, _⟩ => ⟨S102400x32, .f32⟩
  | .hbm, ⟨19, _⟩ => ⟨S100000x32, .f32⟩
  | .local _ .vmem, ⟨0, _⟩ => ⟨S1x4096, .i32⟩
  | .local _ .vmem, ⟨1, _⟩ => ⟨S1x4096, .i32⟩
  | .local _ .vmem, ⟨2, _⟩ => ⟨S32x1024, .bf16⟩
  | .local _ .vmem, ⟨3, _⟩ => ⟨S32x1024, .bf16⟩
  | .local _ .vmem, ⟨4, _⟩ => ⟨S32x4096, .bf16⟩
  | .local _ .vmem, ⟨5, _⟩ => ⟨S32x4096, .bf16⟩
  | .local _ .vmem, ⟨6, _⟩ => ⟨S32x4096, .f32⟩
  | .local _ .vmem, ⟨7, _⟩ => ⟨S1024x1, .i32⟩
  | .local _ .vmem, ⟨8, _⟩ => ⟨S1024x1, .i32⟩
  | .local _ .vmem, ⟨9, _⟩ => ⟨S32x1024, .bf16⟩
  | .local _ .vmem, ⟨10, _⟩ => ⟨S32x1024, .bf16⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![391, 100], ![false, false]⟩

def k0_cond2 (i : grid0.Coords) : BitVec 1 :=
  let arg1 : BitVec 32 := BitVec.ofNat 32 (i 1).val
  let c99_i32 : BitVec 32 := 99#32
  let v23 : BitVec 1 := Scalar.cmpi .eq arg1 c99_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![25, 1564], ![false, false]⟩

def k1_cond2 (i : grid1.Coords) : BitVec 1 :=
  let arg1 : BitVec 32 := BitVec.ofNat 32 (i 1).val
  let c1563_i32 : BitVec 32 := 1563#32
  let v23 : BitVec 1 := Scalar.cmpi .eq arg1 c1563_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S32x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  transposes_S100000x32_S32x100000_1_0 : S100000x32.Transposes [1, 0] S32x100000
  pads_S32x100000_S32x102400_000_024000 : S32x100000.Pads (![0, 0] : Fin 2 → Nat) ![0, 2400] ![0, 0] S32x102400
  h_S_ : 0 < S_.numel
  pads_S1600000_S1601536_015360 : S1600000.Pads (![0] : Fin 1 → Nat) ![1536] ![0] S1601536
  shapeCasts_S1601536_S1x1601536 : S1601536.ShapeCasts S1x1601536
  shapeCasts_S1601536_S1601536x1 : S1601536.ShapeCasts S1601536x1
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  iota_S1024x1_d0_w32 : S1024x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1024x1_S1024x4096 : S1024x1.Broadcasts S1024x4096
  broadcasts_S1x4096_S1024x4096 : S1x4096.Broadcasts S1024x4096
  natLt_1_32 : 1 < 32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  packedbf16_S32x4096_S32x4096_0_0 : (Rect.unit (s := S32x4096) ![0, 0] S32x4096.size inb_S32x4096_S32x4096_0_0).PackedRows (EltTy.packing .bf16)
  iota_S1x4096_d1_w32 : S1x4096.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S32x102400_S102400x32_1_0 : S32x102400.Transposes [1, 0] S102400x32
  slices_S102400x32_S100000x32_0_0 : S102400x32.Slices ![0, 0] S100000x32
  dot_S32x1024_S1024x4096_S32x4096_1_0_0_1_n_n_wf : DotDims.WF S32x1024 S1024x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x1601536.size a
  hwx0_0 : ∀ i : grid0.Coords, EltTy.bits .i32 = 32 ∨ (Rect.block (s := S1x1601536) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x102400.size a
  hwx0_1 : ∀ i : grid0.Coords, EltTy.bits .bf16 = 32 ∨ (Rect.block (s := S32x102400) S32x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x1601536.size a
  hwx0_2 : ∀ i : grid0.Coords, EltTy.bits .bf16 = 32 ∨ (Rect.block (s := S32x1601536) S32x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S1601536x1.size a
  hwx1_0 : ∀ i : grid1.Coords, EltTy.bits .i32 = 32 ∨ (Rect.block (s := S1601536x1) S1024x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S32x1601536.size a
  hwx1_1 : ∀ i : grid1.Coords, EltTy.bits .bf16 = 32 ∨ (Rect.block (s := S32x1601536) S32x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x4096.size a ≤ S32x102400.size a
  hwx1_2 : ∀ i : grid1.Coords, EltTy.bits .f32 = 32 ∨ (Rect.block (s := S32x102400) S32x4096.size (cc1_transform_2 i) (hinb1_2 i)).WholeWords (EltTy.packing .f32)

variable [Facts₀]

def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf

abbrev win0_0 : Pipeline.Window sig grid0 :=
  Pipeline.Window.ofSpec (Memref.whole main_v5) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S32x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S32x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x32 : Shape := ⟨2, ![100000, 32]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 16
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x32, .f32⟩
  | .hbm, ⟨12, _⟩ => ⟨S_, .f32⟩
  | .hbm, ⟨13, _⟩ => ⟨S100000x32, .f32⟩
  | .hbm, ⟨14, _⟩ => ⟨S1600000x1, .i32⟩
  | .hbm, ⟨15, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.K.Kit0.lean ====
/-
  The gather region's schedule in closed form, by arithmetic on the point's number: the grid is 391 edge tiles by
  100 node tiles, the node tile moving fastest, so point t is edge tile t / 100 and node tile t % 100.  The body's
  first conditional (reset the accumulator) holds exactly on node tile 0, its second (write the message block out)
  exactly on node tile 99, and the message window is written back exactly after node tile 99.
-/
import proofs.«415224_j21672404975784_2_alg».proof.Proof.Gen.Kernel.Launch
import proofs.«415224_j21672404975784_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Points and coordinates -/

theorem N0 : cfg0.N = 39100 := N_0

/-- The node-tile coordinate of point t is t % 100. -/
theorem coord0_n (t : Fin cfg0.N) : ((grid0.coords t) 1).val = t.val % 100 := by
  show t.val / grid0.stride 1 % grid0.bound 1 = _
  rw [show grid0.stride 1 = 1 from by decide, show grid0.bound 1 = 100 from rfl, Nat.div_one]

/-- The edge-tile coordinate of point t is t / 100. -/
theorem coord0_e (t : Fin cfg0.N) : ((grid0.coords t) 0).val = t.val / 100 := by
  show t.val / grid0.stride 0 % grid0.bound 0 = _
  rw [show grid0.stride 0 = 100 from by decide, show grid0.bound 0 = 391 from rfl]
  have ht : t.val < 39100 := lt_of_lt_of_eq t.isLt N0
  exact Nat.mod_eq_of_lt (by omega)

/-! ## The body's two conditions -/

/-- The reset's condition, from the grid coordinates. -/
abbrev first0 (i : grid0.Coords) : Prop :=
  (Scalar.cmpi .ne (Scalar.extui (Scalar.cmpi .eq (BitVec.ofNat 32 (i 1).val) 0#32)) 0#32) = 1#1
/-- The write-out's condition. -/
abbrev last0 (i : grid0.Coords) : Prop := k0_cond2 i = 1#1

theorem first0_word : ∀ n : Fin 100,
    ((Scalar.cmpi .ne (Scalar.extui (Scalar.cmpi .eq (BitVec.ofNat 32 n.val) 0#32)) 0#32) = 1#1) ↔ n.val = 0 := by decide
theorem last0_word : ∀ n : Fin 100,
    ((Scalar.cmpi .ne (Scalar.extui (Scalar.cmpi .eq (BitVec.ofNat 32 n.val) 99#32)) 0#32) = 1#1) ↔ n.val = 99 := by decide

theorem first0_iff (t : Fin cfg0.N) : first0 (grid0.coords t) ↔ t.val % 100 = 0 := by
  rw [← coord0_n t]; exact first0_word ((grid0.coords t) 1)
theorem last0_iff (t : Fin cfg0.N) : last0 (grid0.coords t) ↔ t.val % 100 = 99 := by
  rw [← coord0_n t]; exact last0_word ((grid0.coords t) 1)

/-! ## Where the windows are idle, and where the message window is written back -/

theorem live0_0 (i : grid0.Coords) : cfg0.idle 0 i = false := rfl
theorem live0_1 (i : grid0.Coords) : cfg0.idle 1 i = false := rfl
theorem idle0_2 (i : grid0.Coords) (h : ¬last0 i) : cfg0.idle 2 i = true := by
  show (!(k0_cond2 i == 1#1)) = true
  simp only [Bool.not_eq_true', beq_eq_false_iff_ne, ne_eq]; exact h
theorem live0_2 (i : grid0.Coords) (h : last0 i) : cfg0.idle 2 i = false := by
  show (!(k0_cond2 i == 1#1)) = false
  simp only [Bool.not_eq_false', beq_iff_eq]; exact h

/-- The message window's block index at point t: block column t / 100. -/
theorem index0_2 (t : Fin cfg0.N) : (cfg0.win 2).index t = ![0, t.val / 100] := by
  show cc0_transform_2 (grid0.coords t) = _
  unfold cc0_transform_2
  have h := coord0_e t
  have ht : t.val < 39100 := lt_of_lt_of_eq t.isLt N0
  have hlt : t.val / 100 < 2 ^ 32 := by omega
  funext a
  match a with
  | ⟨0, _⟩ => rfl
  | ⟨1, _⟩ => show (BitVec.ofNat 32 ((grid0.coords t) 0).val).toNat = t.val / 100
              rw [h, BitVec.toNat_ofNat, Nat.mod_eq_of_lt hlt]

/-- The message window is written back exactly after node tile 99. -/
theorem flush0_2 (t : Fin cfg0.N) : (cfg0.win 2).flush t = true ↔ t.val % 100 = 99 := by
  have hN : cfg0.grid.N = 39100 := N_0
  have ht : t.val < 39100 := lt_of_lt_of_eq t.isLt N0
  unfold Window.flush
  rw [show (cfg0.win 2).isOut = true from rfl, Bool.true_and, Bool.or_eq_true, decide_eq_true_eq, decide_eq_true_eq]
  constructor
  · rintro (h | ⟨h, hne⟩)
    · omega
    · by_contra h99
      apply hne
      rw [index0_2, index0_2]
      show ![0, (t.val + 1) / 100] = ![0, t.val / 100]
      rw [show (t.val + 1) / 100 = t.val / 100 from by omega]
  · intro h99
    by_cases hl : t.val + 1 = 39100
    · exact Or.inl (hl.trans hN.symm)
    · refine Or.inr ⟨by omega, fun heq => ?_⟩
      rw [index0_2, index0_2] at heq
      have := congrFun heq 1
      simp only [Matrix.cons_val_one, Matrix.head_cons, Matrix.cons_val_zero] at this
      omega

/-! ## The staging and scratch memrefs as the pipeline passes them -/

abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4096 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S32x4096 .f32 := Memref.whole cc0_scratch0
/-- One view through which the message block's contents are stated (the choice does not matter). -/
abbrev VO0 : View sig .tc .vmem S32x4096 .bf16 := (Memref.whole cc0_stg2_0 : Memref sig .tc .vmem S32x4096 .bf16).view
abbrev VS0 : View sig .tc .vmem S32x4096 .f32 := scM0.view

/-- The kernel body at point t, on what the pipeline calls it with. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) scM0 (Memref.isWhole_whole _)

end Cert.Kernel.Hand

end
-- ==== Proof.K.Run0A.lean ====
/-
  The gather kernel's body run once on node tile 0 (the accumulator is reset, then the tile's product is added; nothing is written out): from the four buffers held whole, it runs to its return with the two
  inputs as they were and the accumulator at the pieces its stores wrote, the message block untouched.
-/
import proofs.«415224_j21672404975784_2_alg».proof.Proof.K.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun0_A (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : first0 i) (hl : ¬last0 i)
    (x0 : Vec F S1x4096 .i32) (x1 : Vec F S32x1024 .bf16) :
    { LS : List (View.Piece (Elt F) S32x4096 .f32) //
      ∀ (xi : Vec F S32x4096 .bf16) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds, %fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run0B.lean ====
/-
  The gather kernel's body run once on a node tile that is neither the first nor the last (the tile's product is added to the accumulator; nothing is written out): from the four buffers held whole, it runs to its return with the two
  inputs as they were and the accumulator at the pieces its stores wrote, the message block untouched.
-/
import proofs.«415224_j21672404975784_2_alg».proof.Proof.K.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun0_B (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : ¬last0 i)
    (x0 : Vec F S1x4096 .i32) (x1 : Vec F S32x1024 .bf16) (xs : Vec F S32x4096 .f32) :
    { LS : List (View.Piece (Elt F) S32x4096 .f32) //
      ∀ (xi : Vec F S32x4096 .bf16) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run0C.lean ====
/-
  The gather kernel's body run once on node tile 99 (the tile's product is added, then the accumulator is written out into the message block): from the four buffers held whole, it runs to its return with the two
  inputs as they were and the accumulator at the pieces its stores wrote, the message block at the piece written out.
-/
import proofs.«415224_j21672404975784_2_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) :
    Σ' (L2 : List (View.Piece (Elt F) S32x4096 .bf16)), { LS : List (View.Piece (Elt F) S32x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Hand

end
-- ==== Proof.K.Def0.lean ====
/-
  The gather region's proof data.  The accumulator after point t is a recursion on the point: on node tile 0 the
  tile's product is added to the zero block, on every other node tile to what the point before left.  The message
  block the body writes out at a point is the accumulator there (narrowed to the message format); it is consulted
  only after node tile 99, where the window is written back.  The two input windows hold their blocks throughout.
  Between points the region holds the accumulator at that recursion's value and the other region's scoped buffers
  at anything.
-/
import proofs.«415224_j21672404975784_2_alg».proof.Proof.K.Kit0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (W : (b : Ref sig .tc) → Buf (Elt F) ((c : Thread nD τ).loc b))

/-- Window w's block at point t, read off its array as the region finds it. -/
def iblk0 (w : Fin cfg0.W) (t : Fin cfg0.N) : ((cfg0.win w).xblock (cfg0.grid.coords t)).Idx → Elt F (cfg0.win w).elt :=
  ((cfg0.win w).blk t).view.read (Elt F) (W (Pipeline.arrRef spec0 w))

/-- The accumulator after point n. -/
def acc0 : (n : ℕ) → n < cfg0.N → Vec F S32x4096 .f32
  | 0, hn => k0_pay2 (grid0.coords ⟨0, hn⟩) (iblk0 c W 0 ⟨0, hn⟩) (k0_pay1 (F := F)) (iblk0 c W 1 ⟨0, hn⟩)
  | n + 1, hn => k0_pay2 (grid0.coords ⟨n + 1, hn⟩) (iblk0 c W 0 ⟨n + 1, hn⟩)
      (if (n + 1) % 100 = 0 then k0_pay1 (F := F) else acc0 n (Nat.lt_of_succ_lt hn)) (iblk0 c W 1 ⟨n + 1, hn⟩)

/-- On node tile 0 the accumulator starts from the zero block. -/
theorem acc0_first (t : Fin cfg0.N) (h : t.val % 100 = 0) :
    acc0 c W t.val t.isLt = k0_pay2 (grid0.coords t) (iblk0 c W 0 t) (k0_pay1 (F := F)) (iblk0 c W 1 t) := by
  obtain ⟨n, hn⟩ := t
  cases n with
  | zero => rfl
  | succ n => show k0_pay2 _ _ (if (n + 1) % 100 = 0 then _ else _) _ = _; rw [if_pos h]

/-- On any other node tile it continues from what the point before left. -/
theorem acc0_next (t : Fin cfg0.N) (h : ¬t.val % 100 = 0) :
    acc0 c W t.val t.isLt = k0_pay2 (grid0.coords t) (iblk0 c W 0 t)
      (acc0 c W (t.val - 1) (Nat.lt_of_le_of_lt (Nat.sub_le _ _) t.isLt)) (iblk0 c W 1 t) := by
  obtain ⟨n, hn⟩ := t
  cases n with
  | zero => exact absurd (Nat.zero_mod _) h
  | succ n => show k0_pay2 _ _ (if (n + 1) % 100 = 0 then _ else _) _ = _; rw [if_neg h]; rfl

/-- The other region's scoped buffers, at anything: they ride along untouched. -/
abbrev others0 : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the region holds before point n: before the first point every scoped buffer it does not stage at anything;
    afterwards the accumulator at what the point before left, the rest at anything. -/
def PhiS0 : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (acc0 c W n hn) ∗ others0 c)

theorem PhiS0_zero (n : ℕ) (h : n ≤ cfg0.N) (hz : n = 0) :
    PhiS0 c W n h = Pipeline.scopedRest (Ix := Unit) (Name := ℕ) (U := UR sig nD τ) (Lvl := ℕ) (Val := Elt F) spec0 c := by
  subst hz; rfl
theorem PhiS0_succ (n : ℕ) (hn : n < cfg0.N) :
    PhiS0 c W (n + 1) hn = iprop(owns (c : Thread nD τ) scM0 fullShare (acc0 c W n hn) ∗ others0 c) := rfl
theorem PhiS0_pos (n : ℕ) (h : n ≤ cfg0.N) (hz : n ≠ 0) :
    PhiS0 c W n h = iprop(owns (c : Thread nD τ) scM0 fullShare (acc0 c W (n - 1) (by omega)) ∗ others0 c) := by
  cases n with
  | zero => exact absurd rfl hz
  | succ n => rfl

/-- Before the first point: the accumulator's buffer at anything beside the rest. -/
theorem rest0_eq :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  rw [scopedRest0_eq]; simp only [scM0, owns_whole]; rfl

/-- The region's proof data on core c, from the contents W it finds in the unscoped buffers. -/
def dat0 : Dat τ (Elt F) Unit ℕ (UR sig nD τ) ℕ cfg0 c where
  A w := W (Pipeline.arrRef spec0 w)
  after w t := match w with
    | ⟨0, _⟩ => iblk0 c W 0 t
    | ⟨1, _⟩ => iblk0 c W 1 t
    | ⟨2, _⟩ => k0_pay3 (acc0 c W t.val t.isLt)
  Φ t := PhiS0 c W t.val (Nat.le_of_lt_succ t.isLt)
  q _ := fullShare
  owed _ := 0

theorem A0_eq (w : Fin cfg0.W) : (dat0 c W).A w = W (Pipeline.arrRef spec0 w) := by dsimp only [dat0]
theorem PhiS0_castSucc (t : Fin cfg0.N) : (dat0 c W).Φ t.castSucc = PhiS0 c W t.val (Nat.le_of_lt t.isLt) := by
  dsimp only [dat0]; simp only [Fin.coe_castSucc]
theorem after0_0 (t : Fin cfg0.N) : (dat0 c W).after 0 t = iblk0 c W 0 t := by dsimp only [dat0]
theorem after0_1 (t : Fin cfg0.N) : (dat0 c W).after 1 t = iblk0 c W 1 t := by dsimp only [dat0]
theorem after0_2 (t : Fin cfg0.N) : (dat0 c W).after 2 t = k0_pay3 (acc0 c W t.val t.isLt) := by dsimp only [dat0]

/-- Each input's current staging buffer holds its block at every point, fetched there or not. -/
theorem before0_0 (t : Fin cfg0.N) (d) : (dat0 c W).before 0 t d = iblk0 c W 0 t :=
  ((dat0 c W).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (t : Fin cfg0.N) (d) : (dat0 c W).before 1 t d = iblk0 c W 1 t :=
  ((dat0 c W).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)

end Cert.Kernel.Hand

end
-- ==== Proof.K.Body0.lean ====
/-
  The gather region's body obligation.  Each case's run leaves the accumulator's buffer written by pieces; the last
  piece covers the whole buffer, so what is read back is that piece's payload: the tile's product added to what the
  accumulator held (the zero block on node tile 0, where the first piece is the reset read back by the sum's load).
  On node tile 99 the message block is covered by the one piece written out, the accumulator's final value narrowed.
  With these the run of each case is the step of the proof data's recursion, and the three cases exhaust the points.
-/
import proofs.«415224_j21672404975784_2_alg».proof.Proof.K.Run0C
import proofs.«415224_j21672404975784_2_alg».proof.Proof.K.Def0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case's pieces read back as -/

theorem scover0_A (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : first0 i) (hl : ¬last0 i)
    (x0 : Vec F S1x4096 .i32) (x1 : Vec F S32x1024 .bf16) (y : S32x4096.Idx) :
    ∃ pc ∈ (kernelRun0_A c i arg2 harg2 arg3 harg3 arg4 harg4 arg5 harg5 hf hl x0 x1).1, y ∈ pc.1.set :=
  View.cover_of_tiledL (kernelRun0_A c i arg2 harg2 arg3 harg3 arg4 harg4 arg5 harg5 hf hl x0 x1).1 S32x4096.size (by sl_kernel_rfl) y

/-- Node tile 0: the accumulator ends at the tile's product added to the zero block. -/
theorem sval0_A (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : first0 i) (hl : ¬last0 i)
    (x0 : Vec F S1x4096 .i32) (x1 : Vec F S32x1024 .bf16) (f : arg5.view.ty.Contents (Elt F)) :
    arg5.view.read (Elt F) (arg5.view.writes (Elt F) f (kernelRun0_A c i arg2 harg2 arg3 harg3 arg4 harg4 arg5 harg5 hf hl x0 x1).1)
      = k0_pay2 i x0 (k0_pay1 (F := F)) x1 := by
  rw [View.read_writes_eq_canon _ _ _ (scover0_A c i arg2 harg2 arg3 harg3 arg4 harg4 arg5 harg5 hf hl x0 x1)]
  unfold kernelRun0_A
  dsimp only
  sl_unfold_words
  rw [View.canon_cons_unit_zero (S := S32x4096) hz2, View.readCov_unit_zero (S := S32x4096) _ hz2]
  simp only [View.readAt_eq_ld, harg2.read_unread, harg3.read_unread, View.ld_unit_zero (S := S1x4096) hz2,
    View.ld_unit_zero (S := S32x1024) hz2]

theorem scover0_B (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : ¬last0 i)
    (x0 : Vec F S1x4096 .i32) (x1 : Vec F S32x1024 .bf16) (xs : Vec F S32x4096 .f32) (y : S32x4096.Idx) :
    ∃ pc ∈ (kernelRun0_B c i arg2 harg2 arg3 harg3 arg4 harg4 arg5 harg5 hf hl x0 x1 xs).1, y ∈ pc.1.set :=
  View.cover_of_tiledL (kernelRun0_B c i arg2 harg2 arg3 harg3 arg4 harg4 arg5 harg5 hf hl x0 x1 xs).1 S32x4096.size (by sl_kernel_rfl) y

/-- A middle node tile: the accumulator ends at the tile's product added to what it held. -/
theorem sval0_B (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : ¬last0 i)
    (x0 : Vec F S1x4096 .i32) (x1 : Vec F S32x1024 .bf16) (xs : Vec F S32x4096 .f32) (f : arg5.view.ty.Contents (Elt F)) :
    arg5.view.read (Elt F) (arg5.view.writes (Elt F) f (kernelRun0_B c i arg2 harg2 arg3 harg3 arg4 harg4 arg5 harg5 hf hl x0 x1 xs).1)
      = k0_pay2 i x0 xs x1 := by
  rw [View.read_writes_eq_canon _ _ _ (scover0_B c i arg2 harg2 arg3 harg3 arg4 harg4 arg5 harg5 hf hl x0 x1 xs)]
  unfold kernelRun0_B
  dsimp only
  rw [View.canon_unit_zero (S := S32x4096) hz2]
  simp only [View.readAt_eq_ld, harg2.read_unread, harg3.read_unread, harg5.read_unread, View.ld_unit_zero (S := S1x4096) hz2,
    View.ld_unit_zero (S := S32x1024) hz2, View.ld_unit_zero (S := S32x4096) hz2]

theorem scover0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (y : S32x4096.Idx) :
    ∃ pc ∈ (kernelRun0_C c i arg2 harg2 arg3 harg3 arg4 harg4 arg5 harg5 hf hl x0 x1 xs).2.1, y ∈ pc.1.set :=
  View.cover_of_tiledL (kernelRun0_C c i arg2 harg2 arg3 harg3 arg4 harg4 arg5 harg5 hf hl x0 x1 xs).2.1 S32x4096.size (by sl_kernel_rfl) y

theorem cover0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (y : S32x4096.Idx) :
    ∃ pc ∈ (kernelRun0_C c i arg2 harg2 arg3 harg3 arg4 harg4 arg5 harg5 hf hl x0 x1 xs).1, y ∈ pc.1.set :=
  View.cover_of_tiledL (kernelRun0_C c i arg2 harg2 arg3 harg3 arg4 harg4 arg5 harg5 hf hl x0 x1 xs).1 S32x4096.size (by sl_kernel_rfl) y

/-- Node tile 99: the accumulator ends at the tile's product added to what it held, -/
theorem sval0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (f : arg5.view.ty.Contents (Elt F)) :
    arg5.view.read (Elt F) (arg5.view.writes (Elt F) f (kernelRun0_C c i arg2 harg2 arg3 harg3 arg4 harg4 arg5 harg5 hf hl x0 x1 xs).2.1)
      = k0_pay2 i x0 xs x1 := by
  rw [View.read_writes_eq_canon _ _ _ (scover0_C c i arg2 harg2 arg3 harg3 arg4 harg4 arg5 harg5 hf hl x0 x1 xs)]
  unfold kernelRun0_C
  dsimp only
  sl_unfold_words
  rw [View.canon_unit_zero (S := S32x4096) hz2]
  simp only [View.readAt_eq_ld, harg2.read_unread, harg3.read_unread, harg5.read_unread, View.ld_unit_zero (S := S1x4096) hz2,
    View.ld_unit_zero (S := S32x1024) hz2, View.ld_unit_zero (S := S32x4096) hz2]

/-- and the message block at that value narrowed. -/
theorem oval0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (f : arg4.view.ty.Contents (Elt F)) :
    arg4.view.read (Elt F) (arg4.view.writes (Elt F) f (kernelRun0_C c i arg2 harg2 arg3 harg3 arg4 harg4 arg5 harg5 hf hl x0 x1 xs).1)
      = k0_pay3 (k0_pay2 i x0 xs x1) := by
  rw [View.read_writes_eq_canon _ _ _ (cover0_C c i arg2 harg2 arg3 harg3 arg4 harg4 arg5 harg5 hf hl x0 x1 xs)]
  unfold kernelRun0_C
  dsimp only
  sl_unfold_words
  rw [View.canon_unit_zero (S := S32x4096) hz2, View.readCov_unit_zero (S := S32x4096) _ hz2]
  simp only [View.readAt_eq_ld, harg2.read_unread, harg3.read_unread, harg5.read_unread, View.ld_unit_zero (S := S1x4096) hz2,
    View.ld_unit_zero (S := S32x1024) hz2, View.ld_unit_zero (S := S32x4096) hz2]

variable (c : Dev nD) (W : (b : Ref sig .tc) → Buf (Elt F) ((c : Thread nD τ).loc b))

/-! ## The body obligation, at a generic point -/

/-- What the body is called with at point t, the windows one by one, -/
def bodyPre0 (t : Fin cfg0.N) : sProp 𝕄 :=
  iprop((dat0 c W).Φ t.castSucc ∗ (dat0 c W).owesAt () t.castSucc
    ∗ (∃ d, owns (c : Thread nD τ) (ms0_0 t) fullShare ((dat0 c W).before 0 t d))
    ∗ (∃ d, owns (c : Thread nD τ) (ms0_1 t) fullShare ((dat0 c W).before 1 t d))
    ∗ (∃ d, owns (c : Thread nD τ) (ms0_2 t) fullShare ((dat0 c W).before 2 t d)))

/-- and what it returns. -/
def bodyPost0 (t : Fin cfg0.N) : sProp 𝕄 :=
  iprop((dat0 c W).Φ t.succ ∗ (dat0 c W).owesAt () t.succ
    ∗ (dat0 c W).leavesExact 0 t
    ∗ (dat0 c W).leavesExact 1 t
    ∗ (dat0 c W).leavesExact 2 t)

theorem noflush0_2 (t : Fin cfg0.N) (h : ¬t.val % 100 = 99) : (cfg0.win 2).flush t = false := by
  rw [← Bool.not_eq_true]; exact fun hf => h ((flush0_2 t).mp hf)

set_option maxHeartbeats 4800000 in
/-- The body at any point: the inputs' memrefs hold their blocks; the closed forms say which case the point is in; the
    region hands the body the accumulator at what the point before left (at anything on the very first point) and
    takes it back at this point's value; the core owes nothing throughout. -/
theorem sound_body0 (t : Fin cfg0.N) :
    bodyPre0 c W t ⊢ wp frame (wpE (defs₀ (F := F)) Variants.none c none) Set.univ (bodyAt0 t) (fun _ => bodyPost0 c W t) := by
  unfold bodyPre0 bodyPost0 bodyAt0
  simp only [before0_0, before0_1]
  rw [show (dat0 c W).owesAt () t.succ = (dat0 c W).owesAt () t.castSucc from rfl]
  rw [show (dat0 c W).Φ t.succ = PhiS0 c W (t.val + 1) t.isLt from rfl, PhiS0_succ]
  rw [show (dat0 c W).leavesExact 0 t = owns (c : Thread nD τ) (ms0_0 t) fullShare ((dat0 c W).after 0 t) from by
    unfold Dat.leavesExact; rw [live0_0], after0_0]
  rw [show (dat0 c W).leavesExact 1 t = owns (c : Thread nD τ) (ms0_1 t) fullShare ((dat0 c W).after 1 t) from by
    unfold Dat.leavesExact; rw [live0_1], after0_1]
  have hN : t.val < 39100 := lt_of_lt_of_eq t.isLt N0
  by_cases h0 : t.val % 100 = 0
  · -- node tile 0
    have hf : first0 (grid0.coords t) := (first0_iff t).mpr h0
    have hl : ¬last0 (grid0.coords t) := fun h => by have := (last0_iff t).mp h; omega
    rw [Dat.leavesExact_idle (dat0 c W) 2 t (idle0_2 _ hl) (noflush0_2 t (by omega))]
    rw [acc0_first c W t h0]
    by_cases hz : t.val = 0
    · rw [PhiS0_castSucc c W t, PhiS0_zero c W _ _ hz, rest0_eq]
      iintro ⟨⟨HS, Hoth⟩, Ho, ⟨%d0, H0⟩, ⟨%d1, H1⟩, ⟨%d2, H2⟩⟩
      iapply ((kernelRun0_A c (grid0.coords t) _ _ _ _ _ _ _ _ hf hl (iblk0 c W 0 t) (iblk0 c W 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth]
      · isplitl [HS]
        · unfold owns; iexists _; isplitr
          swap; · iexact HS
          ipureintro; exact sval0_A c _ _ _ _ _ _ _ _ _ hf hl _ _ _
        iexact Hoth
      isplitl [Ho]; · iexact Ho
      isplitl [H0]; · iexact H0
      isplitl [H1]; · iexact H1
      iexists _; iexact H2
    · rw [PhiS0_castSucc c W t, PhiS0_pos c W _ _ hz]
      iintro ⟨⟨HS, Hoth⟩, Ho, ⟨%d0, H0⟩, ⟨%d1, H1⟩, ⟨%d2, H2⟩⟩
      iapply ((kernelRun0_A c (grid0.coords t) _ _ _ _ _ _ _ _ hf hl (iblk0 c W 0 t) (iblk0 c W 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth]
      · isplitl [HS]
        · unfold owns; iexists _; isplitr
          swap; · iexact HS
          ipureintro; exact sval0_A c _ _ _ _ _ _ _ _ _ hf hl _ _ _
        iexact Hoth
      isplitl [Ho]; · iexact Ho
      isplitl [H0]; · iexact H0
      isplitl [H1]; · iexact H1
      iexists _; iexact H2
  · have hf : ¬first0 (grid0.coords t) := fun h => h0 ((first0_iff t).mp h)
    have hz : t.val ≠ 0 := fun h => h0 (by rw [h])
    rw [acc0_next c W t h0]
    rw [PhiS0_castSucc c W t, PhiS0_pos c W _ _ hz]
    by_cases h1 : t.val % 100 = 99
    · -- node tile 99
      have hl : last0 (grid0.coords t) := (last0_iff t).mpr h1
      rw [show (dat0 c W).leavesExact 2 t = owns (c : Thread nD τ) (ms0_2 t) fullShare ((dat0 c W).after 2 t) from by
        unfold Dat.leavesExact; rw [live0_2 _ hl], after0_2, acc0_next c W t h0]
      iintro ⟨⟨HS, Hoth⟩, Ho, ⟨%d0, H0⟩, ⟨%d1, H1⟩, ⟨%d2, H2⟩⟩
      iapply ((kernelRun0_C c (grid0.coords t) _ _ _ _ _ _ _ _ hf hl (iblk0 c W 0 t) (iblk0 c W 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth]
      · isplitl [HS]
        · unfold owns; iexists _; isplitr
          swap; · iexact HS
          ipureintro; exact sval0_C c _ _ _ _ _ _ _ _ _ hf hl _ _ _ _
        iexact Hoth
      isplitl [Ho]; · iexact Ho
      isplitl [H0]; · iexact H0
      isplitl [H1]; · iexact H1
      unfold owns; iexists _; isplitr
      swap; · iexact H2
      ipureintro; exact oval0_C c _ _ _ _ _ _ _ _ _ hf hl _ _ _ _
    · -- a middle node tile
      have hl : ¬last0 (grid0.coords t) := fun h => h1 ((last0_iff t).mp h)
      rw [Dat.leavesExact_idle (dat0 c W) 2 t (idle0_2 _ hl) (noflush0_2 t h1)]
      iintro ⟨⟨HS, Hoth⟩, Ho, ⟨%d0, H0⟩, ⟨%d1, H1⟩, ⟨%d2, H2⟩⟩
      iapply ((kernelRun0_B c (grid0.coords t) _ _ _ _ _ _ _ _ hf hl (iblk0 c W 0 t) (iblk0 c W 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth]
      · isplitl [HS]
        · unfold owns; iexists _; isplitr
          swap; · iexact HS
          ipureintro; exact sval0_B c _ _ _ _ _ _ _ _ _ hf hl _ _ _ _
        iexact Hoth
      isplitl [Ho]; · iexact Ho
      isplitl [H0]; · iexact H0
      isplitl [H1]; · iexact H1
      iexists _; iexact H2

/-- The body obligation, at every point. -/
theorem body_obligation0 : BodyObligation (dat0 (F := F) c W) (defs₀ (F := F)) Variants.none () Set.univ := fun t => by
  rw [bigSep_W0, bigSep_W0]
  exact sound_body0 c W t

/-- What the region's entry hands over is the invariant before the first point. -/
theorem hin0 : (Pipeline.scopedRest (Ix := Unit) (Name := ℕ) (U := UR sig nD τ) (Lvl := ℕ) (Val := Elt F) spec0 c : sProp 𝕄)
    ⊢ (dat0 c W).Φ 0 := by
  rw [show (dat0 c W).Φ 0 = PhiS0 c W 0 (Nat.zero_le _) from rfl, PhiS0_zero c W 0 _ rfl]
  try exact Idealize.SL.BI.Entails.refl _

/-- After the last point the invariant gives the scoped buffers back, the accumulator's named contents forgotten. -/
theorem hout0 : (dat0 c W).Φ (Fin.last cfg0.N)
    ⊢ (Pipeline.scopedRest (Ix := Unit) (Name := ℕ) (U := UR sig nD τ) (Lvl := ℕ) (Val := Elt F) spec0 c : sProp 𝕄) := by
  have hne : (Fin.last cfg0.N).val ≠ 0 := by rw [Fin.val_last, N0]; decide
  rw [show (dat0 c W).Φ (Fin.last cfg0.N) = PhiS0 c W (Fin.last cfg0.N).val (Nat.le_of_lt_succ (Fin.last cfg0.N).isLt) from rfl,
    PhiS0_pos c W _ _ hne, rest0_eq]
  iintro ⟨HS, Hoth⟩
  isplitl [HS]
  · iexists _; iexact HS
  iexact Hoth

end Cert.Kernel.Hand

end
-- ==== Proof.K.Kit1.lean ====
/-
  The scatter region's schedule in closed form, by arithmetic on the point's number: the grid is 25 node tiles by
  1564 edge tiles, the edge tile moving fastest, so point t is node tile t / 1564 and edge tile t % 1564.  The body's
  first conditional (reset the accumulator) holds exactly on edge tile 0, its second (write the node block out)
  exactly on edge tile 1563, and the result window is written back exactly after edge tile 1563.
-/
import proofs.«415224_j21672404975784_2_alg».proof.Proof.Gen.Kernel.Launch
import proofs.«415224_j21672404975784_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Points and coordinates -/

theorem N1 : cfg1.N = 39100 := N_1

/-- The edge-tile coordinate of point t is t % 1564. -/
theorem coord1_e (t : Fin cfg1.N) : ((grid1.coords t) 1).val = t.val % 1564 := by
  show t.val / grid1.stride 1 % grid1.bound 1 = _
  rw [show grid1.stride 1 = 1 from by decide, show grid1.bound 1 = 1564 from rfl, Nat.div_one]

/-- The node-tile coordinate of point t is t / 1564. -/
theorem coord1_v (t : Fin cfg1.N) : ((grid1.coords t) 0).val = t.val / 1564 := by
  show t.val / grid1.stride 0 % grid1.bound 0 = _
  rw [show grid1.stride 0 = 1564 from by decide, show grid1.bound 0 = 25 from rfl]
  have ht : t.val < 39100 := lt_of_lt_of_eq t.isLt N1
  exact Nat.mod_eq_of_lt (by omega)

/-! ## The body's two conditions -/

/-- The reset's condition, from the grid coordinates. -/
abbrev first1 (i : grid1.Coords) : Prop :=
  (Scalar.cmpi .ne (Scalar.extui (Scalar.cmpi .eq (BitVec.ofNat 32 (i 1).val) 0#32)) 0#32) = 1#1
/-- The write-out's condition. -/
abbrev last1 (i : grid1.Coords) : Prop := k1_cond2 i = 1#1

theorem first1_word : ∀ n : Fin 1564,
    ((Scalar.cmpi .ne (Scalar.extui (Scalar.cmpi .eq (BitVec.ofNat 32 n.val) 0#32)) 0#32) = 1#1) ↔ n.val = 0 := by decide +kernel
theorem last1_word : ∀ n : Fin 1564,
    ((Scalar.cmpi .ne (Scalar.extui (Scalar.cmpi .eq (BitVec.ofNat 32 n.val) 1563#32)) 0#32) = 1#1) ↔ n.val = 1563 := by decide +kernel

theorem first1_iff (t : Fin cfg1.N) : first1 (grid1.coords t) ↔ t.val % 1564 = 0 := by
  rw [← coord1_e t]; exact first1_word ((grid1.coords t) 1)
theorem last1_iff (t : Fin cfg1.N) : last1 (grid1.coords t) ↔ t.val % 1564 = 1563 := by
  rw [← coord1_e t]; exact last1_word ((grid1.coords t) 1)

/-! ## Where the windows are idle, and where the result window is written back -/

theorem live1_0 (i : grid1.Coords) : cfg1.idle 0 i = false := rfl
theorem live1_1 (i : grid1.Coords) : cfg1.idle 1 i = false := rfl
theorem idle1_2 (i : grid1.Coords) (h : ¬last1 i) : cfg1.idle 2 i = true := by
  show (!(k1_cond2 i == 1#1)) = true
  simp only [Bool.not_eq_true', beq_eq_false_iff_ne, ne_eq]; exact h
theorem live1_2 (i : grid1.Coords) (h : last1 i) : cfg1.idle 2 i = false := by
  show (!(k1_cond2 i == 1#1)) = false
  simp only [Bool.not_eq_false', beq_iff_eq]; exact h

/-- The result window's block index at point t: block column t / 1564. -/
theorem index1_2 (t : Fin cfg1.N) : (cfg1.win 2).index t = ![0, t.val / 1564] := by
  show cc1_transform_2 (grid1.coords t) = _
  unfold cc1_transform_2
  have h := coord1_v t
  have ht : t.val < 39100 := lt_of_lt_of_eq t.isLt N1
  have hlt : t.val / 1564 < 2 ^ 32 := by omega
  funext a
  match a with
  | ⟨0, _⟩ => rfl
  | ⟨1, _⟩ => show (BitVec.ofNat 32 ((grid1.coords t) 0).val).toNat = t.val / 1564
              rw [h, BitVec.toNat_ofNat, Nat.mod_eq_of_lt hlt]

/-- The result window is written back exactly after edge tile 1563. -/
theorem flush1_2 (t : Fin cfg1.N) : (cfg1.win 2).flush t = true ↔ t.val % 1564 = 1563 := by
  have hN : cfg1.grid.N = 39100 := N_1
  have ht : t.val < 39100 := lt_of_lt_of_eq t.isLt N1
  unfold Window.flush
  rw [show (cfg1.win 2).isOut = true from rfl, Bool.true_and, Bool.or_eq_true, decide_eq_true_eq, decide_eq_true_eq]
  constructor
  · rintro (h | ⟨h, hne⟩)
    · omega
    · by_contra h99
      apply hne
      rw [index1_2, index1_2]
      show ![0, (t.val + 1) / 1564] = ![0, t.val / 1564]
      rw [show (t.val + 1) / 1564 = t.val / 1564 from by omega]
  · intro h99
    by_cases hl : t.val + 1 = 39100
    · exact Or.inl (hl.trans hN.symm)
    · refine Or.inr ⟨by omega, fun heq => ?_⟩
      rw [index1_2, index1_2] at heq
      have := congrFun heq 1
      simp only [Matrix.cons_val_one, Matrix.head_cons, Matrix.cons_val_zero] at this
      omega

/-! ## The staging and scratch memrefs as the pipeline passes them -/

abbrev ms1_0 (t : Fin cfg1.N) : Memref sig .tc .vmem S1024x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x4096 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S32x4096 .f32 := Memref.whole cc1_scratch0

/-- The kernel body at point t, on what the pipeline calls it with. -/
abbrev bodyAt1 (t : Fin cfg1.N) : Prog (TpuEff nD τ sig (Elt F) Λ₀ .tc) PUnit :=
  cc1__scatter_kernel (grid1.coords t) (ms1_0 t) (hs1_0 t) (ms1_1 t) (hs1_1 t) (ms1_2 t) (hs1_2 t) scM1 (Memref.isWhole_whole _)

end Cert.Kernel.Hand

end
-- ==== Proof.K.Run1A.lean ====
/-
  The scatter kernel's body run once on edge tile 0 (the accumulator is reset, then the tile's product is added; nothing is written out): from the four buffers held whole, it runs to its return with the two
  inputs as they were and the accumulator at the pieces its stores wrote, the node block untouched.
-/
import proofs.«415224_j21672404975784_2_alg».proof.Proof.K.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun1_A (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : first1 i) (hl : ¬last1 i)
    (x0 : Vec F S1024x1 .i32) (x1 : Vec F S32x1024 .bf16) :
    { LS : List (View.Piece (Elt F) S32x4096 .f32) //
      ∀ (xi : Vec F S32x4096 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds, %fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run1B.lean ====
/-
  The scatter kernel's body run once on an edge tile that is neither the first nor the last (the tile's product is added to the accumulator; nothing is written out): from the four buffers held whole, it runs to its return with the two
  inputs as they were and the accumulator at the pieces its stores wrote, the node block untouched.
-/
import proofs.«415224_j21672404975784_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun1_B (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : ¬last1 i)
    (x0 : Vec F S1024x1 .i32) (x1 : Vec F S32x1024 .bf16) (xs : Vec F S32x4096 .f32) :
    { LS : List (View.Piece (Elt F) S32x4096 .f32) //
      ∀ (xi : Vec F S32x4096 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run1C.lean ====
/-
  The scatter kernel's body run once on edge tile 1563 (the tile's product is added, then the accumulator is written out into the node block): from the four buffers held whole, it runs to its return with the two
  inputs as they were and the accumulator at the pieces its stores wrote, the node block at the piece written out.
-/
import proofs.«415224_j21672404975784_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) :
    Σ' (L2 : List (View.Piece (Elt F) S32x4096 .f32)), { LS : List (View.Piece (Elt F) S32x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Hand

end
-- ==== Proof.K.Def1.lean ====
/-
  The scatter region's proof data.  The accumulator after point t is a recursion on the point: on edge tile 0 the
  tile's product is added to the zero block, on every other edge tile to what the point before left.  The node block
  the body writes out at a point is the accumulator there; it is consulted only after edge tile 1563, where the
  window is written back.  The two input windows hold their blocks throughout.  Between points the region holds the
  accumulator at that recursion's value and the other region's scoped buffers at anything.
-/
import proofs.«415224_j21672404975784_2_alg».proof.Proof.K.Kit1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (W : (b : Ref sig .tc) → Buf (Elt F) ((c : Thread nD τ).loc b))

/-- Window w's block at point t, read off its array as the region finds it. -/
def iblk1 (w : Fin cfg1.W) (t : Fin cfg1.N) : ((cfg1.win w).xblock (cfg1.grid.coords t)).Idx → Elt F (cfg1.win w).elt :=
  ((cfg1.win w).blk t).view.read (Elt F) (W (Pipeline.arrRef spec1 w))

/-- The accumulator after point n. -/
def acc1 : (n : ℕ) → n < cfg1.N → Vec F S32x4096 .f32
  | 0, hn => k1_pay2 (grid1.coords ⟨0, hn⟩) (iblk1 c W 0 ⟨0, hn⟩) (k1_pay1 (F := F)) (iblk1 c W 1 ⟨0, hn⟩)
  | n + 1, hn => k1_pay2 (grid1.coords ⟨n + 1, hn⟩) (iblk1 c W 0 ⟨n + 1, hn⟩)
      (if (n + 1) % 1564 = 0 then k1_pay1 (F := F) else acc1 n (Nat.lt_of_succ_lt hn)) (iblk1 c W 1 ⟨n + 1, hn⟩)

/-- On edge tile 0 the accumulator starts from the zero block. -/
theorem acc1_first (t : Fin cfg1.N) (h : t.val % 1564 = 0) :
    acc1 c W t.val t.isLt = k1_pay2 (grid1.coords t) (iblk1 c W 0 t) (k1_pay1 (F := F)) (iblk1 c W 1 t) := by
  obtain ⟨n, hn⟩ := t
  cases n with
  | zero => rfl
  | succ n => show k1_pay2 _ _ (if (n + 1) % 1564 = 0 then _ else _) _ = _; rw [if_pos h]

/-- On any other edge tile it continues from what the point before left. -/
theorem acc1_next (t : Fin cfg1.N) (h : ¬t.val % 1564 = 0) :
    acc1 c W t.val t.isLt = k1_pay2 (grid1.coords t) (iblk1 c W 0 t)
      (acc1 c W (t.val - 1) (Nat.lt_of_le_of_lt (Nat.sub_le _ _) t.isLt)) (iblk1 c W 1 t) := by
  obtain ⟨n, hn⟩ := t
  cases n with
  | zero => exact absurd (Nat.zero_mod _) h
  | succ n => show k1_pay2 _ _ (if (n + 1) % 1564 = 0 then _ else _) _ = _; rw [if_neg h]; rfl

/-- The region's scoped buffers it does not stage, with the accumulator's at contents X: the other region's buffers
    ride along at anything. -/
abbrev held1 (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- What the region holds before point n: before the first point every scoped buffer it does not stage at anything;
    afterwards the accumulator at what the point before left, the rest at anything. -/
def PhiS1 : (n : ℕ) → n ≤ cfg1.N → sProp 𝕄
  | 0, _ => Pipeline.scopedRest (Ix := Unit) (Name := ℕ) (U := UR sig nD τ) (Lvl := ℕ) (Val := Elt F) spec1 c
  | n + 1, hn => held1 c (owns (c : Thread nD τ) scM1 fullShare (acc1 c W n hn))

theorem PhiS1_zero (n : ℕ) (h : n ≤ cfg1.N) (hz : n = 0) :
    PhiS1 c W n h = Pipeline.scopedRest (Ix := Unit) (Name := ℕ) (U := UR sig nD τ) (Lvl := ℕ) (Val := Elt F) spec1 c := by
  subst hz; rfl
theorem PhiS1_succ (n : ℕ) (hn : n < cfg1.N) :
    PhiS1 c W (n + 1) hn = held1 c (owns (c : Thread nD τ) scM1 fullShare (acc1 c W n hn)) := rfl
theorem PhiS1_pos (n : ℕ) (h : n ≤ cfg1.N) (hz : n ≠ 0) :
    PhiS1 c W n h = held1 c (owns (c : Thread nD τ) scM1 fullShare (acc1 c W (n - 1) (by omega))) := by
  cases n with
  | zero => exact absurd rfl hz
  | succ n => rfl

/-- Before the first point: the accumulator's buffer at anything beside the rest. -/
theorem rest1_eq :
    (Pipeline.scopedRest (Ix := Unit) (Name := ℕ) (U := UR sig nD τ) (Lvl := ℕ) (Val := Elt F) spec1 c : sProp 𝕄)
      = held1 c (iprop(∃ d, owns (c : Thread nD τ) scM1 fullShare d)) := by
  rw [scopedRest1_eq]; simp only [scM1, owns_whole]; rfl

/-- The region's proof data on core c, from the contents W it finds in the unscoped buffers. -/
def dat1 : Dat τ (Elt F) Unit ℕ (UR sig nD τ) ℕ cfg1 c where
  A w := W (Pipeline.arrRef spec1 w)
  after w t := match w with
    | ⟨0, _⟩ => iblk1 c W 0 t
    | ⟨1, _⟩ => iblk1 c W 1 t
    | ⟨2, _⟩ => acc1 c W t.val t.isLt
  Φ t := PhiS1 c W t.val (Nat.le_of_lt_succ t.isLt)
  q _ := fullShare
  owed _ := 0

theorem A1_eq (w : Fin cfg1.W) : (dat1 c W).A w = W (Pipeline.arrRef spec1 w) := by dsimp only [dat1]
theorem PhiS1_castSucc (t : Fin cfg1.N) : (dat1 c W).Φ t.castSucc = PhiS1 c W t.val (Nat.le_of_lt t.isLt) := by
  dsimp only [dat1]; simp only [Fin.coe_castSucc]
theorem after1_0 (t : Fin cfg1.N) : (dat1 c W).after 0 t = iblk1 c W 0 t := by dsimp only [dat1]
theorem after1_1 (t : Fin cfg1.N) : (dat1 c W).after 1 t = iblk1 c W 1 t := by dsimp only [dat1]
theorem after1_2 (t : Fin cfg1.N) : (dat1 c W).after 2 t = acc1 c W t.val t.isLt := by dsimp only [dat1]

/-- Each input's current staging buffer holds its block at every point, fetched there or not. -/
theorem before1_0 (t : Fin cfg1.N) (d) : (dat1 c W).before 0 t d = iblk1 c W 0 t :=
  ((dat1 c W).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (t : Fin cfg1.N) (d) : (dat1 c W).before 1 t d = iblk1 c W 1 t :=
  ((dat1 c W).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)

end Cert.Kernel.Hand

end
-- ==== Proof.K.Body1.lean ====
/-
  The scatter region's body obligation.  Each case's run leaves the accumulator's buffer written by pieces; the last
  piece covers the whole buffer, so what is read back is that piece's payload: the tile's product added to what the
  accumulator held (the zero block on edge tile 0, where the first piece is the reset read back by the sum's load).
  On edge tile 1563 the node block is covered by the one piece written out, the accumulator's final value.
  With these the run of each case is the step of the proof data's recursion, and the three cases exhaust the points.
-/
import proofs.«415224_j21672404975784_2_alg».proof.Proof.K.Run1C
import proofs.«415224_j21672404975784_2_alg».proof.Proof.K.Def1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

/-! ## What each case's pieces read back as -/

theorem scover1_A (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : first1 i) (hl : ¬last1 i)
    (x0 : Vec F S1024x1 .i32) (x1 : Vec F S32x1024 .bf16) (y : S32x4096.Idx) :
    ∃ pc ∈ (kernelRun1_A c i arg2 harg2 arg3 harg3 arg4 harg4 arg5 harg5 hf hl x0 x1).1, y ∈ pc.1.set :=
  View.cover_of_tiledL (kernelRun1_A c i arg2 harg2 arg3 harg3 arg4 harg4 arg5 harg5 hf hl x0 x1).1 S32x4096.size (by sl_kernel_rfl) y

/-- Edge tile 0: the accumulator ends at the tile's product added to the zero block. -/
theorem sval1_A (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : first1 i) (hl : ¬last1 i)
    (x0 : Vec F S1024x1 .i32) (x1 : Vec F S32x1024 .bf16) (f : arg5.view.ty.Contents (Elt F)) :
    arg5.view.read (Elt F) (arg5.view.writes (Elt F) f (kernelRun1_A c i arg2 harg2 arg3 harg3 arg4 harg4 arg5 harg5 hf hl x0 x1).1)
      = k1_pay2 i x0 (k1_pay1 (F := F)) x1 := by
  rw [View.read_writes_eq_canon _ _ _ (scover1_A c i arg2 harg2 arg3 harg3 arg4 harg4 arg5 harg5 hf hl x0 x1)]
  unfold kernelRun1_A
  dsimp only
  sl_unfold_words
  rw [View.canon_cons_unit_zero (S := S32x4096) hz2', View.readCov_unit_zero (S := S32x4096) _ hz2']
  simp only [View.readAt_eq_ld, harg2.read_unread, harg3.read_unread, View.ld_unit_zero (S := S1024x1) hz2',
    View.ld_unit_zero (S := S32x1024) hz2']

theorem scover1_B (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : ¬last1 i)
    (x0 : Vec F S1024x1 .i32) (x1 : Vec F S32x1024 .bf16) (xs : Vec F S32x4096 .f32) (y : S32x4096.Idx) :
    ∃ pc ∈ (kernelRun1_B c i arg2 harg2 arg3 harg3 arg4 harg4 arg5 harg5 hf hl x0 x1 xs).1, y ∈ pc.1.set :=
  View.cover_of_tiledL (kernelRun1_B c i arg2 harg2 arg3 harg3 arg4 harg4 arg5 harg5 hf hl x0 x1 xs).1 S32x4096.size (by sl_kernel_rfl) y

/-- A middle edge tile: the accumulator ends at the tile's product added to what it held. -/
theorem sval1_B (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : ¬last1 i)
    (x0 : Vec F S1024x1 .i32) (x1 : Vec F S32x1024 .bf16) (xs : Vec F S32x4096 .f32) (f : arg5.view.ty.Contents (Elt F)) :
    arg5.view.read (Elt F) (arg5.view.writes (Elt F) f (kernelRun1_B c i arg2 harg2 arg3 harg3 arg4 harg4 arg5 harg5 hf hl x0 x1 xs).1)
      = k1_pay2 i x0 xs x1 := by
  rw [View.read_writes_eq_canon _ _ _ (scover1_B c i arg2 harg2 arg3 harg3 arg4 harg4 arg5 harg5 hf hl x0 x1 xs)]
  unfold kernelRun1_B
  dsimp only
  rw [View.canon_unit_zero (S := S32x4096) hz2']
  simp only [View.readAt_eq_ld, harg2.read_unread, harg3.read_unread, harg5.read_unread, View.ld_unit_zero (S := S1024x1) hz2',
    View.ld_unit_zero (S := S32x1024) hz2', View.ld_unit_zero (S := S32x4096) hz2']

theorem scover1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (y : S32x4096.Idx) :
    ∃ pc ∈ (kernelRun1_C c i arg2 harg2 arg3 harg3 arg4 harg4 arg5 harg5 hf hl x0 x1 xs).2.1, y ∈ pc.1.set :=
  View.cover_of_tiledL (kernelRun1_C c i arg2 harg2 arg3 harg3 arg4 harg4 arg5 harg5 hf hl x0 x1 xs).2.1 S32x4096.size (by sl_kernel_rfl) y

theorem cover1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (y : S32x4096.Idx) :
    ∃ pc ∈ (kernelRun1_C c i arg2 harg2 arg3 harg3 arg4 harg4 arg5 harg5 hf hl x0 x1 xs).1, y ∈ pc.1.set :=
  View.cover_of_tiledL (kernelRun1_C c i arg2 harg2 arg3 harg3 arg4 harg4 arg5 harg5 hf hl x0 x1 xs).1 S32x4096.size (by sl_kernel_rfl) y

/-- Edge tile 1563: the accumulator ends at the tile's product added to what it held, -/
theorem sval1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (f : arg5.view.ty.Contents (Elt F)) :
    arg5.view.read (Elt F) (arg5.view.writes (Elt F) f (kernelRun1_C c i arg2 harg2 arg3 harg3 arg4 harg4 arg5 harg5 hf hl x0 x1 xs).2.1)
      = k1_pay2 i x0 xs x1 := by
  rw [View.read_writes_eq_canon _ _ _ (scover1_C c i arg2 harg2 arg3 harg3 arg4 harg4 arg5 harg5 hf hl x0 x1 xs)]
  unfold kernelRun1_C
  dsimp only
  sl_unfold_words
  rw [View.canon_unit_zero (S := S32x4096) hz2']
  simp only [View.readAt_eq_ld, harg2.read_unread, harg3.read_unread, harg5.read_unread, View.ld_unit_zero (S := S1024x1) hz2',
    View.ld_unit_zero (S := S32x1024) hz2', View.ld_unit_zero (S := S32x4096) hz2']

/-- and the node block at that value. -/
theorem oval1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (f : arg4.view.ty.Contents (Elt F)) :
    arg4.view.read (Elt F) (arg4.view.writes (Elt F) f (kernelRun1_C c i arg2 harg2 arg3 harg3 arg4 harg4 arg5 harg5 hf hl x0 x1 xs).1)
      = k1_pay2 i x0 xs x1 := by
  rw [View.read_writes_eq_canon _ _ _ (cover1_C c i arg2 harg2 arg3 harg3 arg4 harg4 arg5 harg5 hf hl x0 x1 xs)]
  unfold kernelRun1_C
  dsimp only
  sl_unfold_words
  rw [View.canon_unit_zero (S := S32x4096) hz2', View.readCov_unit_zero (S := S32x4096) _ hz2']
  simp only [View.readAt_eq_ld, harg2.read_unread, harg3.read_unread, harg5.read_unread, View.ld_unit_zero (S := S1024x1) hz2',
    View.ld_unit_zero (S := S32x1024) hz2', View.ld_unit_zero (S := S32x4096) hz2']

variable (c : Dev nD) (W : (b : Ref sig .tc) → Buf (Elt F) ((c : Thread nD τ).loc b))

/-! ## The body obligation, at a generic point -/

/-- What the body is called with at point t, the windows one by one, -/
def bodyPre1 (t : Fin cfg1.N) : sProp 𝕄 :=
  iprop((dat1 c W).Φ t.castSucc ∗ (dat1 c W).owesAt () t.castSucc
    ∗ (∃ d, owns (c : Thread nD τ) (ms1_0 t) fullShare ((dat1 c W).before 0 t d))
    ∗ (∃ d, owns (c : Thread nD τ) (ms1_1 t) fullShare ((dat1 c W).before 1 t d))
    ∗ (∃ d, owns (c : Thread nD τ) (ms1_2 t) fullShare ((dat1 c W).before 2 t d)))

/-- and what it returns. -/
def bodyPost1 (t : Fin cfg1.N) : sProp 𝕄 :=
  iprop((dat1 c W).Φ t.succ ∗ (dat1 c W).owesAt () t.succ
    ∗ (dat1 c W).leavesExact 0 t
    ∗ (dat1 c W).leavesExact 1 t
    ∗ (dat1 c W).leavesExact 2 t)

theorem noflush1_2 (t : Fin cfg1.N) (h : ¬t.val % 1564 = 1563) : (cfg1.win 2).flush t = false := by
  rw [← Bool.not_eq_true]; exact fun hf => h ((flush1_2 t).mp hf)

set_option maxHeartbeats 4800000 in
/-- The body at any point: the inputs' memrefs hold their blocks; the closed forms say which case the point is in; the
    region hands the body the accumulator at what the point before left (at anything on the very first point) and
    takes it back at this point's value; the core owes nothing throughout. -/
theorem sound_body1 (t : Fin cfg1.N) :
    bodyPre1 c W t ⊢ wp frame (wpE (defs₀ (F := F)) Variants.none c none) Set.univ (bodyAt1 t) (fun _ => bodyPost1 c W t) := by
  unfold bodyPre1 bodyPost1 bodyAt1
  simp only [before1_0, before1_1]
  rw [show (dat1 c W).owesAt () t.succ = (dat1 c W).owesAt () t.castSucc from rfl]
  rw [show (dat1 c W).Φ t.succ = PhiS1 c W (t.val + 1) t.isLt from rfl, PhiS1_succ]
  rw [show (dat1 c W).leavesExact 0 t = owns (c : Thread nD τ) (ms1_0 t) fullShare ((dat1 c W).after 0 t) from by
    unfold Dat.leavesExact; rw [live1_0], after1_0]
  rw [show (dat1 c W).leavesExact 1 t = owns (c : Thread nD τ) (ms1_1 t) fullShare ((dat1 c W).after 1 t) from by
    unfold Dat.leavesExact; rw [live1_1], after1_1]
  have hN : t.val < 39100 := lt_of_lt_of_eq t.isLt N1
  by_cases h0 : t.val % 1564 = 0
  · -- edge tile 0
    have hf : first1 (grid1.coords t) := (first1_iff t).mpr h0
    have hl : ¬last1 (grid1.coords t) := fun h => by have := (last1_iff t).mp h; omega
    rw [Dat.leavesExact_idle (dat1 c W) 2 t (idle1_2 _ hl) (noflush1_2 t (by omega))]
    rw [acc1_first c W t h0]
    by_cases hz : t.val = 0
    · rw [PhiS1_castSucc c W t, PhiS1_zero c W _ _ hz, rest1_eq]
      iintro ⟨⟨Ha1, Ha2, Ha3, Ha4, Ha5, Ha6, Ha7, HS⟩, Ho, ⟨%d0, H0⟩, ⟨%d1, H1⟩, ⟨%d2, H2⟩⟩
      iapply ((kernelRun1_A c (grid1.coords t) _ _ _ _ _ _ _ _ hf hl (iblk1 c W 0 t) (iblk1 c W 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_A c _ _ _ _ _ _ _ _ _ hf hl _ _ _
      isplitl [Ho]; · iexact Ho
      isplitl [H0]; · iexact H0
      isplitl [H1]; · iexact H1
      iexists _; iexact H2
    · rw [PhiS1_castSucc c W t, PhiS1_pos c W _ _ hz]
      iintro ⟨⟨Ha1, Ha2, Ha3, Ha4, Ha5, Ha6, Ha7, HS⟩, Ho, ⟨%d0, H0⟩, ⟨%d1, H1⟩, ⟨%d2, H2⟩⟩
      iapply ((kernelRun1_A c (grid1.coords t) _ _ _ _ _ _ _ _ hf hl (iblk1 c W 0 t) (iblk1 c W 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_A c _ _ _ _ _ _ _ _ _ hf hl _ _ _
      isplitl [Ho]; · iexact Ho
      isplitl [H0]; · iexact H0
      isplitl [H1]; · iexact H1
      iexists _; iexact H2
  · have hf : ¬first1 (grid1.coords t) := fun h => h0 ((first1_iff t).mp h)
    have hz : t.val ≠ 0 := fun h => h0 (by rw [h])
    rw [acc1_next c W t h0]
    rw [PhiS1_castSucc c W t, PhiS1_pos c W _ _ hz]
    by_cases h1 : t.val % 1564 = 1563
    · -- edge tile 1563
      have hl : last1 (grid1.coords t) := (last1_iff t).mpr h1
      rw [show (dat1 c W).leavesExact 2 t = owns (c : Thread nD τ) (ms1_2 t) fullShare ((dat1 c W).after 2 t) from by
        unfold Dat.leavesExact; rw [live1_2 _ hl], after1_2, acc1_next c W t h0]
      iintro ⟨⟨Ha1, Ha2, Ha3, Ha4, Ha5, Ha6, Ha7, HS⟩, Ho, ⟨%d0, H0⟩, ⟨%d1, H1⟩, ⟨%d2, H2⟩⟩
      iapply ((kernelRun1_C c (grid1.coords t) _ _ _ _ _ _ _ _ hf hl (iblk1 c W 0 t) (iblk1 c W 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_C c _ _ _ _ _ _ _ _ _ hf hl _ _ _ _
      isplitl [Ho]; · iexact Ho
      isplitl [H0]; · iexact H0
      isplitl [H1]; · iexact H1
      unfold owns; iexists _; isplitr
      swap; · iexact H2
      ipureintro; exact oval1_C c _ _ _ _ _ _ _ _ _ hf hl _ _ _ _
    · -- a middle edge tile
      have hl : ¬last1 (grid1.coords t) := fun h => h1 ((last1_iff t).mp h)
      rw [Dat.leavesExact_idle (dat1 c W) 2 t (idle1_2 _ hl) (noflush1_2 t h1)]
      iintro ⟨⟨Ha1, Ha2, Ha3, Ha4, Ha5, Ha6, Ha7, HS⟩, Ho, ⟨%d0, H0⟩, ⟨%d1, H1⟩, ⟨%d2, H2⟩⟩
      iapply ((kernelRun1_B c (grid1.coords t) _ _ _ _ _ _ _ _ hf hl (iblk1 c W 0 t) (iblk1 c W 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_B c _ _ _ _ _ _ _ _ _ hf hl _ _ _ _
      isplitl [Ho]; · iexact Ho
      isplitl [H0]; · iexact H0
      isplitl [H1]; · iexact H1
      iexists _; iexact H2

/-- The body obligation, at every point. -/
theorem body_obligation1 : BodyObligation (dat1 (F := F) c W) (defs₀ (F := F)) Variants.none () Set.univ := fun t => by
  rw [bigSep_W1, bigSep_W1]
  exact sound_body1 c W t

/-- What the region's entry hands over is the invariant before the first point. -/
theorem hin1 : (Pipeline.scopedRest (Ix := Unit) (Name := ℕ) (U := UR sig nD τ) (Lvl := ℕ) (Val := Elt F) spec1 c : sProp 𝕄)
    ⊢ (dat1 c W).Φ 0 := by
  rw [show (dat1 c W).Φ 0 = PhiS1 c W 0 (Nat.zero_le _) from rfl, PhiS1_zero c W 0 _ rfl]
  try exact Idealize.SL.BI.Entails.refl _

/-- After the last point the invariant gives the scoped buffers back, the accumulator's named contents forgotten. -/
theorem hout1 : (dat1 c W).Φ (Fin.last cfg1.N)
    ⊢ (Pipeline.scopedRest (Ix := Unit) (Name := ℕ) (U := UR sig nD τ) (Lvl := ℕ) (Val := Elt F) spec1 c : sProp 𝕄) := by
  have hne : (Fin.last cfg1.N).val ≠ 0 := by rw [Fin.val_last, N1]; decide
  rw [show (dat1 c W).Φ (Fin.last cfg1.N) = PhiS1 c W (Fin.last cfg1.N).val (Nat.le_of_lt_succ (Fin.last cfg1.N).isLt) from rfl,
    PhiS1_pos c W _ _ hne, rest1_eq]
  iintro ⟨Ha1, Ha2, Ha3, Ha4, Ha5, Ha6, Ha7, HS⟩
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  iexists _; iexact HS

end Cert.Kernel.Hand

end
-- ==== Proof.K.Run.lean ====
/-
  The program's run from launch to return.  Between two items of @main the core holds every unscoped buffer at a
  named valuation: the launch contents, then each host stretch applied in order, then the first region's result array
  at what its write-backs leave, then the second's, then the two host lines that follow.  Each region is entered by
  sorting its three windows' arrays out of those buffers, run by its body obligation, and left by putting the arrays
  back, the result array at the folded write-backs; the accumulator and the other scoped buffers go into the region's
  invariant and come back forgotten; the core owes nothing throughout.  Read against the final state, the last
  valuation gives the result array its name and every argument its launch contents.
-/
import proofs.«415224_j21672404975784_2_alg».proof.Proof.K.Body0
import proofs.«415224_j21672404975784_2_alg».proof.Proof.K.Body1
import proofs.«415224_j21672404975784_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' ends -/

/-- Core c's unscoped buffers when the first region is entered, read at a reference. -/
abbrev U7 (c : Dev nD) (b : Ref sig .tc) : Buf (Elt F) ((c : Thread nD τ).loc b) := V7 m c b

/-- What the first region leaves in its result array: its write-backs folded over the entry contents. -/
def out0 (c : Dev nD) : Buf (Elt F) ((c : Thread nD τ).loc main_v7) := (dat0 c (U7 m c)).arrAt 2 cfg0.N

/-- The buffers when the second region is entered: the first region's result array replaced. -/
abbrev W8 (c : Dev nD) : Valuation τ sig (Elt F) := Function.update (V7 m c) main_v7 (out0 m c)
abbrev U8 (c : Dev nD) (b : Ref sig .tc) : Buf (Elt F) ((c : Thread nD τ).loc b) := W8 m c b

/-- What the second region leaves in its result array. -/
def out1 (c : Dev nD) : Buf (Elt F) ((c : Thread nD τ).loc main_v8) := (dat1 c (U8 m c)).arrAt 2 cfg1.N

/-- What the regions leave, as the family the valuations after them are written over. -/
def outsK : Outs (F := F) := fun _ r c =>
  if h7 : r = main_v7 then h7 ▸ out0 m c else if h8 : r = main_v8 then h8 ▸ out1 m c else V7 m c r

theorem outsK_v7 (j : ℕ) (c : Dev nD) : outsK m j main_v7 c = out0 m c := by
  unfold outsK; rw [dif_pos rfl]
theorem outsK_v8 (j : ℕ) (c : Dev nD) : outsK m j main_v8 c = out1 m c := by
  unfold outsK; rw [dif_neg (by decide), dif_pos rfl]

theorem V8_eq (c : Dev nD) : V8 m (outsK m) c = W8 m c := by
  show Function.update _ _ _ = Function.update _ _ _; rw [outsK_v7]
abbrev U9 (c : Dev nD) (b : Ref sig .tc) : Buf (Elt F) ((c : Thread nD τ).loc b) := V9 m (outsK m) c b

/-! ## Each region's arrays at its exit, and the buffers it leaves alone -/

theorem ne_v7_of_not_arr0 (b : Ref sig .tc) (hb : b ∉ Finset.univ.image (Pipeline.arrRef spec0)) : b ≠ main_v7 := fun h =>
  hb (Finset.mem_image.mpr ⟨2, Finset.mem_univ _, h.symm⟩)
theorem ne_v8_of_not_arr1 (b : Ref sig .tc) (hb : b ∉ Finset.univ.image (Pipeline.arrRef spec1)) : b ≠ main_v8 := fun h =>
  hb (Finset.mem_image.mpr ⟨2, Finset.mem_univ _, h.symm⟩)

theorem hF0 (c : Dev nD) : ∀ w : Fin cfg0.W, (dat0 c (U7 m c)).arrAt w cfg0.N = U8 m c (Pipeline.arrRef spec0 w)
  | ⟨0, _⟩ => ((dat0 c (U7 m c)).arrAt_in 0 rfl _).trans ((A0_eq c (U7 m c) 0).trans
      (Function.update_of_ne (StableHlo.devRef_ne_of_ne (by decide)) _ _).symm)
  | ⟨1, _⟩ => ((dat0 c (U7 m c)).arrAt_in 1 rfl _).trans ((A0_eq c (U7 m c) 1).trans
      (Function.update_of_ne (StableHlo.devRef_ne_of_ne (by decide)) _ _).symm)
  | ⟨2, _⟩ => (Function.update_self (β := fun b => Buf (Elt F) ((c : Thread nD τ).1, b)) _ _ _).symm
theorem hrest0 (c : Dev nD) : ∀ b, b ∉ Finset.univ.image (Pipeline.arrRef spec0) → U8 m c b = U7 m c b := fun b hb =>
  Function.update_of_ne (StableHlo.devRef_ne_of_ne (ne_v7_of_not_arr0 b hb)) _ _

theorem hF1 (c : Dev nD) : ∀ w : Fin cfg1.W, (dat1 c (U8 m c)).arrAt w cfg1.N = U9 m c (Pipeline.arrRef spec1 w)
  | ⟨0, _⟩ => ((dat1 c (U8 m c)).arrAt_in 0 rfl _).trans ((A1_eq c (U8 m c) 0).trans
      ((V9_of m (outsK m) c main_v6 (by decide)).trans (congrFun (V8_eq m c) _)).symm)
  | ⟨1, _⟩ => ((dat1 c (U8 m c)).arrAt_in 1 rfl _).trans ((A1_eq c (U8 m c) 1).trans
      ((V9_of m (outsK m) c main_v7 (by decide)).trans (congrFun (V8_eq m c) _)).symm)
  | ⟨2, _⟩ => by
    have h : V9 m (outsK m) c main_v8 = out1 m c :=
      (Function.update_self (β := fun b => Buf (Elt F) ((c : Thread nD τ).1, b)) _ _ _).trans (outsK_v8 m 9 c)
    exact h.symm
theorem hrest1 (c : Dev nD) : ∀ b, b ∉ Finset.univ.image (Pipeline.arrRef spec1) → U9 m c b = U8 m c b := fun b hb =>
  (V9_of m (outsK m) c b (by simp only [List.mem_singleton]; exact ne_v8_of_not_arr1 b hb)).trans (congrFun (V8_eq m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 c (U7 m c)
  | ⟨1, _⟩ => fun c => dat1 c (U8 m c)
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's owing nothing. -/
abbrev R (c : Dev nD) : sProp 𝕄 := iprop(∃ W, owes (c : Thread nD τ) (0 : CellTallies nD τ sig Unit) W)

/-! ## The regions as segments -/

set_option backward.isDefEq.respectTransparency.types false in
/-- The gather region over the thread state: entered from every unscoped buffer at the contents the host prefix
    leaves, left with its result array at the folded write-backs. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 c (U7 m c)).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outsK m) c) ∗ R c)
  X c := iprop(emp)
  Y c := iprop(emp)
  Z c := Pipeline.unscopedRest (Ix := Unit) (Name := ℕ) (U := UR sig nD τ) (Lvl := ℕ) spec0 c (U7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U7 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (dat0 c (U7 m c)).Φ 0 from rfl]
    iintro ⟨-, -, Hr⟩
    iapply (hin0 c (U7 m c))
    iexact Hr
  hout c := by
    rw [Pipeline.ownSems0_none, show (pdats m 0 c).Φ (Fin.last _) = (dat0 c (U7 m c)).Φ (Fin.last cfg0.N) from rfl]
    have hh := hout0 c (U7 m c)
    iintro H
    ihave Hr := hh $$ H
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U7 m c) (U8 m c) ((pdats m 0 c).arrAt · cfg0.N) (hF0 m c) (hrest0 m c)
    rw [Pipeline.unscopedBufs_held] at hjoin
    rw [V8_eq]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The scatter region over the thread state: entered from what the gather region left, left with its own result
    array at the folded write-backs. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 c (U8 m c)).loose
  hwaits := Pipeline.hwaits_of_owed_zero _ _ _ _ L lv 1 fun _ _ => rfl
  pre c := iprop(StableHlo.held (c : Thread nD τ) (Pipeline.ucRefs τ sig) (V8 m (outsK m) c) ∗ R c)
  post c := iprop(StableHlo.held (c : Thread nD τ) (Pipeline.ucRefs τ sig) (V9 m (outsK m) c) ∗ R c)
  X c := iprop(emp)
  Y c := iprop(emp)
  Z c := Pipeline.unscopedRest (Ix := Unit) (Name := ℕ) (U := UR sig nD τ) (Lvl := ℕ) spec1 c (U8 m c)
  hentry c := by
    rw [Pipeline.ownSems0_none, V8_eq]
    have hsplit := Pipeline.arrays_of_unscopedBufs (p := 1) (pcfgs (F := F)) adm (pdats m) launch1.win launch1.arr_whole c
      ((pdats m 1 c).share_full fun _ => rfl) (U8 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 c (U8 m c)).Φ 0 from rfl]
    iintro ⟨-, -, Hr⟩
    iapply (hin1 c (U8 m c))
    iexact Hr
  hout c := by
    rw [Pipeline.ownSems0_none, show (pdats m 1 c).Φ (Fin.last _) = (dat1 c (U8 m c)).Φ (Fin.last cfg1.N) from rfl]
    have hh := hout1 c (U8 m c)
    iintro H
    ihave Hr := hh $$ H
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U8 m c) (U9 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- At the compiled mesh, from any memory with zero counters: every weakly fair execution of @main terminates, nothing
    faulting, and every final state holds the result array at the last valuation's contents and every argument as
    launched. -/
theorem run_named : θ_run defs (onTc (τ := τ) (main (F := F))) ⟨m, fun _ => 0, ρ⟩ (fun r => ∀ c : Dev nD,
      r.2.mem ((c.tc : Thread nD τ).loc main_v10) = V10 m (outsK m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ 𝒱₀ L lv m ρ main
    (segs m (outsK m) 𝒱₀ L lv (fun _ => R) () (pdats m) (reg0 m) (reg1 m))
    (fun c Q => by
      rewrite [main_chain c, Pipeline.Seg.run_eq_chain,
        show (segs m (outsK m) 𝒱₀ L lv (fun _ => R) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outsK m) c))
    (hch := fun c => ⟨.rfl, .rfl, .rfl, .rfl, .rfl, .rfl, .rfl, .rfl, .rfl, .rfl, .rfl⟩)
    (hinit := ?_)
    (QY := fun c s => ∀ b ∈ Pipeline.ucRefs τ sig, s.mem (((c : Thread nD τ)).1, b) = V10 m (outsK m) c b)
    (hfin := fun c s' => ?_)
    (hQ := fun s h c =>
      ⟨h c _ (mem_uc main_v10 (by decide)),
       (h c _ (mem_uc main_arg0 (by decide))).trans (V10_main_arg0 m (outsK m) c),
       (h c _ (mem_uc main_arg1 (by decide))).trans (V10_main_arg1 m (outsK m) c),
       (h c _ (mem_uc main_arg2 (by decide))).trans (V10_main_arg2 m (outsK m) c)⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · iintro ⟨Hh, HSI⟩
    unfold StableHlo.held
    imodintro
    iapply (pointsTo_read_all (Pipeline.ucRefs τ sig) (fun b => (((c : Thread nD τ)).1, b)) (V10 m (outsK m) c) s')
    isplitl [Hh] <;> iassumption

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Hand

end
-- ==== Proof.KI.Kit0.lean ====
/-
  The gather region's schedule in closed form, by arithmetic on the point's number: the grid is 391 edge tiles by
  100 node tiles, the node tile moving fastest, so point t is edge tile t / 100 and node tile t % 100.  The body's
  first conditional (reset the accumulator) holds exactly on node tile 0, its second (write the message block out)
  exactly on node tile 99, and the message window is written back exactly after node tile 99.
-/
import proofs.«415224_j21672404975784_2_alg».proof.Proof.Gen.KernelIdeal.Launch
import proofs.«415224_j21672404975784_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Points and coordinates -/

theorem N0 : cfg0.N = 39100 := N_0

/-- The node-tile coordinate of point t is t % 100. -/
theorem coord0_n (t : Fin cfg0.N) : ((grid0.coords t) 1).val = t.val % 100 := by
  show t.val / grid0.stride 1 % grid0.bound 1 = _
  rw [show grid0.stride 1 = 1 from by decide, show grid0.bound 1 = 100 from rfl, Nat.div_one]

/-- The edge-tile coordinate of point t is t / 100. -/
theorem coord0_e (t : Fin cfg0.N) : ((grid0.coords t) 0).val = t.val / 100 := by
  show t.val / grid0.stride 0 % grid0.bound 0 = _
  rw [show grid0.stride 0 = 100 from by decide, show grid0.bound 0 = 391 from rfl]
  have ht : t.val < 39100 := lt_of_lt_of_eq t.isLt N0
  exact Nat.mod_eq_of_lt (by omega)

/-! ## The body's two conditions -/

/-- The reset's condition, from the grid coordinates. -/
abbrev first0 (i : grid0.Coords) : Prop :=
  (Scalar.cmpi .ne (Scalar.extui (Scalar.cmpi .eq (BitVec.ofNat 32 (i 1).val) 0#32)) 0#32) = 1#1
/-- The write-out's condition. -/
abbrev last0 (i : grid0.Coords) : Prop := k0_cond2 i = 1#1

theorem first0_word : ∀ n : Fin 100,
    ((Scalar.cmpi .ne (Scalar.extui (Scalar.cmpi .eq (BitVec.ofNat 32 n.val) 0#32)) 0#32) = 1#1) ↔ n.val = 0 := by decide
theorem last0_word : ∀ n : Fin 100,
    ((Scalar.cmpi .ne (Scalar.extui (Scalar.cmpi .eq (BitVec.ofNat 32 n.val) 99#32)) 0#32) = 1#1) ↔ n.val = 99 := by decide

theorem first0_iff (t : Fin cfg0.N) : first0 (grid0.coords t) ↔ t.val % 100 = 0 := by
  rw [← coord0_n t]; exact first0_word ((grid0.coords t) 1)
theorem last0_iff (t : Fin cfg0.N) : last0 (grid0.coords t) ↔ t.val % 100 = 99 := by
  rw [← coord0_n t]; exact last0_word ((grid0.coords t) 1)

/-! ## Where the windows are idle, and where the message window is written back -/

theorem live0_0 (i : grid0.Coords) : cfg0.idle 0 i = false := rfl
theorem live0_1 (i : grid0.Coords) : cfg0.idle 1 i = false := rfl
theorem idle0_2 (i : grid0.Coords) (h : ¬last0 i) : cfg0.idle 2 i = true := by
  show (!(k0_cond2 i == 1#1)) = true
  simp only [Bool.not_eq_true', beq_eq_false_iff_ne, ne_eq]; exact h
theorem live0_2 (i : grid0.Coords) (h : last0 i) : cfg0.idle 2 i = false := by
  show (!(k0_cond2 i == 1#1)) = false
  simp only [Bool.not_eq_false', beq_iff_eq]; exact h

/-- The message window's block index at point t: block column t / 100. -/
theorem index0_2 (t : Fin cfg0.N) : (cfg0.win 2).index t = ![0, t.val / 100] := by
  show cc0_transform_2 (grid0.coords t) = _
  unfold cc0_transform_2
  have h := coord0_e t
  have ht : t.val < 39100 := lt_of_lt_of_eq t.isLt N0
  have hlt : t.val / 100 < 2 ^ 32 := by omega
  funext a
  match a with
  | ⟨0, _⟩ => rfl
  | ⟨1, _⟩ => show (BitVec.ofNat 32 ((grid0.coords t) 0).val).toNat = t.val / 100
              rw [h, BitVec.toNat_ofNat, Nat.mod_eq_of_lt hlt]

/-- The message window is written back exactly after node tile 99. -/
theorem flush0_2 (t : Fin cfg0.N) : (cfg0.win 2).flush t = true ↔ t.val % 100 = 99 := by
  have hN : cfg0.grid.N = 39100 := N_0
  have ht : t.val < 39100 := lt_of_lt_of_eq t.isLt N0
  unfold Window.flush
  rw [show (cfg0.win 2).isOut = true from rfl, Bool.true_and, Bool.or_eq_true, decide_eq_true_eq, decide_eq_true_eq]
  constructor
  · rintro (h | ⟨h, hne⟩)
    · omega
    · by_contra h99
      apply hne
      rw [index0_2, index0_2]
      show ![0, (t.val + 1) / 100] = ![0, t.val / 100]
      rw [show (t.val + 1) / 100 = t.val / 100 from by omega]
  · intro h99
    by_cases hl : t.val + 1 = 39100
    · exact Or.inl (hl.trans hN.symm)
    · refine Or.inr ⟨by omega, fun heq => ?_⟩
      rw [index0_2, index0_2] at heq
      have := congrFun heq 1
      simp only [Matrix.cons_val_one, Matrix.head_cons, Matrix.cons_val_zero] at this
      omega

/-! ## The staging and scratch memrefs as the pipeline passes them -/

abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4096 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S32x4096 .f32 := Memref.whole cc0_scratch0
/-- One view through which the message block's contents are stated (the choice does not matter). -/
abbrev VO0 : View sig .tc .vmem S32x4096 .bf16 := (Memref.whole cc0_stg2_0 : Memref sig .tc .vmem S32x4096 .bf16).view
abbrev VS0 : View sig .tc .vmem S32x4096 .f32 := scM0.view

/-- The kernel body at point t, on what the pipeline calls it with. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) scM0 (Memref.isWhole_whole _)

end Cert.KernelIdeal.Hand

end
-- ==== Proof.KI.Run0A.lean ====
/-
  The gather kernel's body run once on node tile 0 (the accumulator is reset, then the tile's product is added; nothing is written out): from the four buffers held whole, it runs to its return with the two
  inputs as they were and the accumulator at the pieces its stores wrote, the message block untouched.
-/
import proofs.«415224_j21672404975784_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun0_A (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : first0 i) (hl : ¬last0 i)
    (x0 : Vec F S1x4096 .i32) (x1 : Vec F S32x1024 .bf16) :
    { LS : List (View.Piece (Elt F) S32x4096 .f32) //
      ∀ (xi : Vec F S32x4096 .bf16) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds, %fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run0B.lean ====
/-
  The gather kernel's body run once on a node tile that is neither the first nor the last (the tile's product is added to the accumulator; nothing is written out): from the four buffers held whole, it runs to its return with the two
  inputs as they were and the accumulator at the pieces its stores wrote, the message block untouched.
-/
import proofs.«415224_j21672404975784_2_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun0_B (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : ¬last0 i)
    (x0 : Vec F S1x4096 .i32) (x1 : Vec F S32x1024 .bf16) (xs : Vec F S32x4096 .f32) :
    { LS : List (View.Piece (Elt F) S32x4096 .f32) //
      ∀ (xi : Vec F S32x4096 .bf16) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run0C.lean ====
/-
  The gather kernel's body run once on node tile 99 (the tile's product is added, then the accumulator is written out into the message block): from the four buffers held whole, it runs to its return with the two
  inputs as they were and the accumulator at the pieces its stores wrote, the message block at the piece written out.
-/
import proofs.«415224_j21672404975784_2_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) :
    Σ' (L2 : List (View.Piece (Elt F) S32x4096 .bf16)), { LS : List (View.Piece (Elt F) S32x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Hand

end
-- ==== Proof.KI.Def0.lean ====
/-
  The gather region's proof data.  The accumulator after point t is a recursion on the point: on node tile 0 the
  tile's product is added to the zero block, on every other node tile to what the point before left.  The message
  block the body writes out at a point is the accumulator there (narrowed to the message format); it is consulted
  only after node tile 99, where the window is written back.  The two input windows hold their blocks throughout.
  Between points the region holds the accumulator at that recursion's value and the other region's scoped buffers
  at anything.
-/
import proofs.«415224_j21672404975784_2_alg».proof.Proof.KI.Kit0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (W : (b : Ref sig .tc) → Buf (Elt F) ((c : Thread nD τ).loc b))

/-- Window w's block at point t, read off its array as the region finds it. -/
def iblk0 (w : Fin cfg0.W) (t : Fin cfg0.N) : ((cfg0.win w).xblock (cfg0.grid.coords t)).Idx → Elt F (cfg0.win w).elt :=
  ((cfg0.win w).blk t).view.read (Elt F) (W (Pipeline.arrRef spec0 w))

/-- The accumulator after point n. -/
def acc0 : (n : ℕ) → n < cfg0.N → Vec F S32x4096 .f32
  | 0, hn => k0_pay2 (grid0.coords ⟨0, hn⟩) (iblk0 c W 0 ⟨0, hn⟩) (k0_pay1 (F := F)) (iblk0 c W 1 ⟨0, hn⟩)
  | n + 1, hn => k0_pay2 (grid0.coords ⟨n + 1, hn⟩) (iblk0 c W 0 ⟨n + 1, hn⟩)
      (if (n + 1) % 100 = 0 then k0_pay1 (F := F) else acc0 n (Nat.lt_of_succ_lt hn)) (iblk0 c W 1 ⟨n + 1, hn⟩)

/-- On node tile 0 the accumulator starts from the zero block. -/
theorem acc0_first (t : Fin cfg0.N) (h : t.val % 100 = 0) :
    acc0 c W t.val t.isLt = k0_pay2 (grid0.coords t) (iblk0 c W 0 t) (k0_pay1 (F := F)) (iblk0 c W 1 t) := by
  obtain ⟨n, hn⟩ := t
  cases n with
  | zero => rfl
  | succ n => show k0_pay2 _ _ (if (n + 1) % 100 = 0 then _ else _) _ = _; rw [if_pos h]

/-- On any other node tile it continues from what the point before left. -/
theorem acc0_next (t : Fin cfg0.N) (h : ¬t.val % 100 = 0) :
    acc0 c W t.val t.isLt = k0_pay2 (grid0.coords t) (iblk0 c W 0 t)
      (acc0 c W (t.val - 1) (Nat.lt_of_le_of_lt (Nat.sub_le _ _) t.isLt)) (iblk0 c W 1 t) := by
  obtain ⟨n, hn⟩ := t
  cases n with
  | zero => exact absurd (Nat.zero_mod _) h
  | succ n => show k0_pay2 _ _ (if (n + 1) % 100 = 0 then _ else _) _ = _; rw [if_neg h]; rfl

/-- The other region's scoped buffers, at anything: they ride along untouched. -/
abbrev others0 : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the region holds before point n: before the first point every scoped buffer it does not stage at anything;
    afterwards the accumulator at what the point before left, the rest at anything. -/
def PhiS0 : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (acc0 c W n hn) ∗ others0 c)

theorem PhiS0_zero (n : ℕ) (h : n ≤ cfg0.N) (hz : n = 0) :
    PhiS0 c W n h = Pipeline.scopedRest (Ix := Unit) (Name := ℕ) (U := UR sig nD τ) (Lvl := ℕ) (Val := Elt F) spec0 c := by
  subst hz; rfl
theorem PhiS0_succ (n : ℕ) (hn : n < cfg0.N) :
    PhiS0 c W (n + 1) hn = iprop(owns (c : Thread nD τ) scM0 fullShare (acc0 c W n hn) ∗ others0 c) := rfl
theorem PhiS0_pos (n : ℕ) (h : n ≤ cfg0.N) (hz : n ≠ 0) :
    PhiS0 c W n h = iprop(owns (c : Thread nD τ) scM0 fullShare (acc0 c W (n - 1) (by omega)) ∗ others0 c) := by
  cases n with
  | zero => exact absurd rfl hz
  | succ n => rfl

/-- Before the first point: the accumulator's buffer at anything beside the rest. -/
theorem rest0_eq :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  rw [scopedRest0_eq]; simp only [scM0, owns_whole]; rfl

/-- The region's proof data on core c, from the contents W it finds in the unscoped buffers. -/
def dat0 : Dat τ (Elt F) Unit ℕ (UR sig nD τ) ℕ cfg0 c where
  A w := W (Pipeline.arrRef spec0 w)
  after w t := match w with
    | ⟨0, _⟩ => iblk0 c W 0 t
    | ⟨1, _⟩ => iblk0 c W 1 t
    | ⟨2, _⟩ => k0_pay3 (acc0 c W t.val t.isLt)
  Φ t := PhiS0 c W t.val (Nat.le_of_lt_succ t.isLt)
  q _ := fullShare
  owed _ := 0

theorem A0_eq (w : Fin cfg0.W) : (dat0 c W).A w = W (Pipeline.arrRef spec0 w) := by dsimp only [dat0]
theorem PhiS0_castSucc (t : Fin cfg0.N) : (dat0 c W).Φ t.castSucc = PhiS0 c W t.val (Nat.le_of_lt t.isLt) := by
  dsimp only [dat0]; simp only [Fin.coe_castSucc]
theorem after0_0 (t : Fin cfg0.N) : (dat0 c W).after 0 t = iblk0 c W 0 t := by dsimp only [dat0]
theorem after0_1 (t : Fin cfg0.N) : (dat0 c W).after 1 t = iblk0 c W 1 t := by dsimp only [dat0]
theorem after0_2 (t : Fin cfg0.N) : (dat0 c W).after 2 t = k0_pay3 (acc0 c W t.val t.isLt) := by dsimp only [dat0]

/-- Each input's current staging buffer holds its block at every point, fetched there or not. -/
theorem before0_0 (t : Fin cfg0.N) (d) : (dat0 c W).before 0 t d = iblk0 c W 0 t :=
  ((dat0 c W).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (t : Fin cfg0.N) (d) : (dat0 c W).before 1 t d = iblk0 c W 1 t :=
  ((dat0 c W).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)

end Cert.KernelIdeal.Hand

end
-- ==== Proof.KI.Body0.lean ====
/-
  The gather region's body obligation.  Each case's run leaves the accumulator's buffer written by pieces; the last
  piece covers the whole buffer, so what is read back is that piece's payload: the tile's product added to what the
  accumulator held (the zero block on node tile 0, where the first piece is the reset read back by the sum's load).
  On node tile 99 the message block is covered by the one piece written out, the accumulator's final value narrowed.
  With these the run of each case is the step of the proof data's recursion, and the three cases exhaust the points.
-/
import proofs.«415224_j21672404975784_2_alg».proof.Proof.KI.Run0C
import proofs.«415224_j21672404975784_2_alg».proof.Proof.KI.Def0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case's pieces read back as -/

theorem scover0_A (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : first0 i) (hl : ¬last0 i)
    (x0 : Vec F S1x4096 .i32) (x1 : Vec F S32x1024 .bf16) (y : S32x4096.Idx) :
    ∃ pc ∈ (kernelRun0_A c i arg2 harg2 arg3 harg3 arg4 harg4 arg5 harg5 hf hl x0 x1).1, y ∈ pc.1.set :=
  View.cover_of_tiledL (kernelRun0_A c i arg2 harg2 arg3 harg3 arg4 harg4 arg5 harg5 hf hl x0 x1).1 S32x4096.size (by sl_kernel_rfl) y

/-- Node tile 0: the accumulator ends at the tile's product added to the zero block. -/
theorem sval0_A (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : first0 i) (hl : ¬last0 i)
    (x0 : Vec F S1x4096 .i32) (x1 : Vec F S32x1024 .bf16) (f : arg5.view.ty.Contents (Elt F)) :
    arg5.view.read (Elt F) (arg5.view.writes (Elt F) f (kernelRun0_A c i arg2 harg2 arg3 harg3 arg4 harg4 arg5 harg5 hf hl x0 x1).1)
      = k0_pay2 i x0 (k0_pay1 (F := F)) x1 := by
  rw [View.read_writes_eq_canon _ _ _ (scover0_A c i arg2 harg2 arg3 harg3 arg4 harg4 arg5 harg5 hf hl x0 x1)]
  unfold kernelRun0_A
  dsimp only
  sl_unfold_words
  rw [View.canon_cons_unit_zero (S := S32x4096) hz2, View.readCov_unit_zero (S := S32x4096) _ hz2]
  simp only [View.readAt_eq_ld, harg2.read_unread, harg3.read_unread, View.ld_unit_zero (S := S1x4096) hz2,
    View.ld_unit_zero (S := S32x1024) hz2]

theorem scover0_B (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : ¬last0 i)
    (x0 : Vec F S1x4096 .i32) (x1 : Vec F S32x1024 .bf16) (xs : Vec F S32x4096 .f32) (y : S32x4096.Idx) :
    ∃ pc ∈ (kernelRun0_B c i arg2 harg2 arg3 harg3 arg4 harg4 arg5 harg5 hf hl x0 x1 xs).1, y ∈ pc.1.set :=
  View.cover_of_tiledL (kernelRun0_B c i arg2 harg2 arg3 harg3 arg4 harg4 arg5 harg5 hf hl x0 x1 xs).1 S32x4096.size (by sl_kernel_rfl) y

/-- A middle node tile: the accumulator ends at the tile's product added to what it held. -/
theorem sval0_B (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : ¬last0 i)
    (x0 : Vec F S1x4096 .i32) (x1 : Vec F S32x1024 .bf16) (xs : Vec F S32x4096 .f32) (f : arg5.view.ty.Contents (Elt F)) :
    arg5.view.read (Elt F) (arg5.view.writes (Elt F) f (kernelRun0_B c i arg2 harg2 arg3 harg3 arg4 harg4 arg5 harg5 hf hl x0 x1 xs).1)
      = k0_pay2 i x0 xs x1 := by
  rw [View.read_writes_eq_canon _ _ _ (scover0_B c i arg2 harg2 arg3 harg3 arg4 harg4 arg5 harg5 hf hl x0 x1 xs)]
  unfold kernelRun0_B
  dsimp only
  rw [View.canon_unit_zero (S := S32x4096) hz2]
  simp only [View.readAt_eq_ld, harg2.read_unread, harg3.read_unread, harg5.read_unread, View.ld_unit_zero (S := S1x4096) hz2,
    View.ld_unit_zero (S := S32x1024) hz2, View.ld_unit_zero (S := S32x4096) hz2]

theorem scover0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (y : S32x4096.Idx) :
    ∃ pc ∈ (kernelRun0_C c i arg2 harg2 arg3 harg3 arg4 harg4 arg5 harg5 hf hl x0 x1 xs).2.1, y ∈ pc.1.set :=
  View.cover_of_tiledL (kernelRun0_C c i arg2 harg2 arg3 harg3 arg4 harg4 arg5 harg5 hf hl x0 x1 xs).2.1 S32x4096.size (by sl_kernel_rfl) y

theorem cover0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (y : S32x4096.Idx) :
    ∃ pc ∈ (kernelRun0_C c i arg2 harg2 arg3 harg3 arg4 harg4 arg5 harg5 hf hl x0 x1 xs).1, y ∈ pc.1.set :=
  View.cover_of_tiledL (kernelRun0_C c i arg2 harg2 arg3 harg3 arg4 harg4 arg5 harg5 hf hl x0 x1 xs).1 S32x4096.size (by sl_kernel_rfl) y

/-- Node tile 99: the accumulator ends at the tile's product added to what it held, -/
theorem sval0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (f : arg5.view.ty.Contents (Elt F)) :
    arg5.view.read (Elt F) (arg5.view.writes (Elt F) f (kernelRun0_C c i arg2 harg2 arg3 harg3 arg4 harg4 arg5 harg5 hf hl x0 x1 xs).2.1)
      = k0_pay2 i x0 xs x1 := by
  rw [View.read_writes_eq_canon _ _ _ (scover0_C c i arg2 harg2 arg3 harg3 arg4 harg4 arg5 harg5 hf hl x0 x1 xs)]
  unfold kernelRun0_C
  dsimp only
  sl_unfold_words
  rw [View.canon_unit_zero (S := S32x4096) hz2]
  simp only [View.readAt_eq_ld, harg2.read_unread, harg3.read_unread, harg5.read_unread, View.ld_unit_zero (S := S1x4096) hz2,
    View.ld_unit_zero (S := S32x1024) hz2, View.ld_unit_zero (S := S32x4096) hz2]

/-- and the message block at that value narrowed. -/
theorem oval0_C (c : Dev nD) (i : grid0.Coords) (arg2 : Memref sig .tc .vmem S1x4096 .i32) (harg2 : arg2.IsWhole)
    (arg3 : Memref sig .tc .vmem S32x1024 .bf16) (harg3 : arg3.IsWhole) (arg4 : Memref sig .tc .vmem S32x4096 .bf16) (harg4 : arg4.IsWhole)
    (arg5 : Memref sig .tc .vmem S32x4096 .f32) (harg5 : arg5.IsWhole) (hf : ¬first0 i) (hl : last0 i)
    (x0 : Vec F S1x4096 .i32) (x1 : Vec F S32x1024 .bf16) (xs : Vec F S32x4096 .f32) (f : arg4.view.ty.Contents (Elt F)) :
    arg4.view.read (Elt F) (arg4.view.writes (Elt F) f (kernelRun0_C c i arg2 harg2 arg3 harg3 arg4 harg4 arg5 harg5 hf hl x0 x1 xs).1)
      = k0_pay3 (k0_pay2 i x0 xs x1) := by
  rw [View.read_writes_eq_canon _ _ _ (cover0_C c i arg2 harg2 arg3 harg3 arg4 harg4 arg5 harg5 hf hl x0 x1 xs)]
  unfold kernelRun0_C
  dsimp only
  sl_unfold_words
  rw [View.canon_unit_zero (S := S32x4096) hz2, View.readCov_unit_zero (S := S32x4096) _ hz2]
  simp only [View.readAt_eq_ld, harg2.read_unread, harg3.read_unread, harg5.read_unread, View.ld_unit_zero (S := S1x4096) hz2,
    View.ld_unit_zero (S := S32x1024) hz2, View.ld_unit_zero (S := S32x4096) hz2]

variable (c : Dev nD) (W : (b : Ref sig .tc) → Buf (Elt F) ((c : Thread nD τ).loc b))

/-! ## The body obligation, at a generic point -/

/-- What the body is called with at point t, the windows one by one, -/
def bodyPre0 (t : Fin cfg0.N) : sProp 𝕄 :=
  iprop((dat0 c W).Φ t.castSucc ∗ (dat0 c W).owesAt () t.castSucc
    ∗ (∃ d, owns (c : Thread nD τ) (ms0_0 t) fullShare ((dat0 c W).before 0 t d))
    ∗ (∃ d, owns (c : Thread nD τ) (ms0_1 t) fullShare ((dat0 c W).before 1 t d))
    ∗ (∃ d, owns (c : Thread nD τ) (ms0_2 t) fullShare ((dat0 c W).before 2 t d)))

/-- and what it returns. -/
def bodyPost0 (t : Fin cfg0.N) : sProp 𝕄 :=
  iprop((dat0 c W).Φ t.succ ∗ (dat0 c W).owesAt () t.succ
    ∗ (dat0 c W).leavesExact 0 t
    ∗ (dat0 c W).leavesExact 1 t
    ∗ (dat0 c W).leavesExact 2 t)

theorem noflush0_2 (t : Fin cfg0.N) (h : ¬t.val % 100 = 99) : (cfg0.win 2).flush t = false := by
  rw [← Bool.not_eq_true]; exact fun hf => h ((flush0_2 t).mp hf)

set_option maxHeartbeats 4800000 in
/-- The body at any point: the inputs' memrefs hold their blocks; the closed forms say which case the point is in; the
    region hands the body the accumulator at what the point before left (at anything on the very first point) and
    takes it back at this point's value; the core owes nothing throughout. -/
theorem sound_body0 (t : Fin cfg0.N) :
    bodyPre0 c W t ⊢ wp frame (wpE (defs₀ (F := F)) Variants.none c none) Set.univ (bodyAt0 t) (fun _ => bodyPost0 c W t) := by
  unfold bodyPre0 bodyPost0 bodyAt0
  simp only [before0_0, before0_1]
  rw [show (dat0 c W).owesAt () t.succ = (dat0 c W).owesAt () t.castSucc from rfl]
  rw [show (dat0 c W).Φ t.succ = PhiS0 c W (t.val + 1) t.isLt from rfl, PhiS0_succ]
  rw [show (dat0 c W).leavesExact 0 t = owns (c : Thread nD τ) (ms0_0 t) fullShare ((dat0 c W).after 0 t) from by
    unfold Dat.leavesExact; rw [live0_0], after0_0]
  rw [show (dat0 c W).leavesExact 1 t = owns (c : Thread nD τ) (ms0_1 t) fullShare ((dat0 c W).after 1 t) from by
    unfold Dat.leavesExact; rw [live0_1], after0_1]
  have hN : t.val < 39100 := lt_of_lt_of_eq t.isLt N0
  by_cases h0 : t.val % 100 = 0
  · -- node tile 0
    have hf : first0 (grid0.coords t) := (first0_iff t).mpr h0
    have hl : ¬last0 (grid0.coords t) := fun h => by have := (last0_iff t).mp h; omega
    rw [Dat.leavesExact_idle (dat0 c W) 2 t (idle0_2 _ hl) (noflush0_2 t (by omega))]
    rw [acc0_first c W t h0]
    by_cases hz : t.val = 0
    · rw [PhiS0_castSucc c W t, PhiS0_zero c W _ _ hz, rest0_eq]
      iintro ⟨⟨HS, Hoth⟩, Ho, ⟨%d0, H0⟩, ⟨%d1, H1⟩, ⟨%d2, H2⟩⟩
      iapply ((kernelRun0_A c (grid0.coords t) _ _ _ _ _ _ _ _ hf hl (iblk0 c W 0 t) (iblk0 c W 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth]
      · isplitl [HS]
        · unfold owns; iexists _; isplitr
          swap; · iexact HS
          ipureintro; exact sval0_A c _ _ _ _ _ _ _ _ _ hf hl _ _ _
        iexact Hoth
      isplitl [Ho]; · iexact Ho
      isplitl [H0]; · iexact H0
      isplitl [H1]; · iexact H1
      iexists _; iexact H2
    · rw [PhiS0_castSucc c W t, PhiS0_pos c W _ _ hz]
      iintro ⟨⟨HS, Hoth⟩, Ho, ⟨%d0, H0⟩, ⟨%d1, H1⟩, ⟨%d2, H2⟩⟩
      iapply ((kernelRun0_A c (grid0.coords t) _ _ _ _ _ _ _ _ hf hl (iblk0 c W 0 t) (iblk0 c W 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth]
      · isplitl [HS]
        · unfold owns; iexists _; isplitr
          swap; · iexact HS
          ipureintro; exact sval0_A c _ _ _ _ _ _ _ _ _ hf hl _ _ _
        iexact Hoth
      isplitl [Ho]; · iexact Ho
      isplitl [H0]; · iexact H0
      isplitl [H1]; · iexact H1
      iexists _; iexact H2
  · have hf : ¬first0 (grid0.coords t) := fun h => h0 ((first0_iff t).mp h)
    have hz : t.val ≠ 0 := fun h => h0 (by rw [h])
    rw [acc0_next c W t h0]
    rw [PhiS0_castSucc c W t, PhiS0_pos c W _ _ hz]
    by_cases h1 : t.val % 100 = 99
    · -- node tile 99
      have hl : last0 (grid0.coords t) := (last0_iff t).mpr h1
      rw [show (dat0 c W).leavesExact 2 t = owns (c : Thread nD τ) (ms0_2 t) fullShare ((dat0 c W).after 2 t) from by
        unfold Dat.leavesExact; rw [live0_2 _ hl], after0_2, acc0_next c W t h0]
      iintro ⟨⟨HS, Hoth⟩, Ho, ⟨%d0, H0⟩, ⟨%d1, H1⟩, ⟨%d2, H2⟩⟩
      iapply ((kernelRun0_C c (grid0.coords t) _ _ _ _ _ _ _ _ hf hl (iblk0 c W 0 t) (iblk0 c W 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth]
      · isplitl [HS]
        · unfold owns; iexists _; isplitr
          swap; · iexact HS
          ipureintro; exact sval0_C c _ _ _ _ _ _ _ _ _ hf hl _ _ _ _
        iexact Hoth
      isplitl [Ho]; · iexact Ho
      isplitl [H0]; · iexact H0
      isplitl [H1]; · iexact H1
      unfold owns; iexists _; isplitr
      swap; · iexact H2
      ipureintro; exact oval0_C c _ _ _ _ _ _ _ _ _ hf hl _ _ _ _
    · -- a middle node tile
      have hl : ¬last0 (grid0.coords t) := fun h => h1 ((last0_iff t).mp h)
      rw [Dat.leavesExact_idle (dat0 c W) 2 t (idle0_2 _ hl) (noflush0_2 t h1)]
      iintro ⟨⟨HS, Hoth⟩, Ho, ⟨%d0, H0⟩, ⟨%d1, H1⟩, ⟨%d2, H2⟩⟩
      iapply ((kernelRun0_B c (grid0.coords t) _ _ _ _ _ _ _ _ hf hl (iblk0 c W 0 t) (iblk0 c W 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth]
      · isplitl [HS]
        · unfold owns; iexists _; isplitr
          swap; · iexact HS
          ipureintro; exact sval0_B c _ _ _ _ _ _ _ _ _ hf hl _ _ _ _
        iexact Hoth
      isplitl [Ho]; · iexact Ho
      isplitl [H0]; · iexact H0
      isplitl [H1]; · iexact H1
      iexists _; iexact H2

/-- The body obligation, at every point. -/
theorem body_obligation0 : BodyObligation (dat0 (F := F) c W) (defs₀ (F := F)) Variants.none () Set.univ := fun t => by
  rw [bigSep_W0, bigSep_W0]
  exact sound_body0 c W t

/-- What the region's entry hands over is the invariant before the first point. -/
theorem hin0 : (Pipeline.scopedRest (Ix := Unit) (Name := ℕ) (U := UR sig nD τ) (Lvl := ℕ) (Val := Elt F) spec0 c : sProp 𝕄)
    ⊢ (dat0 c W).Φ 0 := by
  rw [show (dat0 c W).Φ 0 = PhiS0 c W 0 (Nat.zero_le _) from rfl, PhiS0_zero c W 0 _ rfl]
  try exact Idealize.SL.BI.Entails.refl _

/-- After the last point the invariant gives the scoped buffers back, the accumulator's named contents forgotten. -/
theorem hout0 : (dat0 c W).Φ (Fin.last cfg0.N)
    ⊢ (Pipeline.scopedRest (Ix := Unit) (Name := ℕ) (U := UR sig nD τ) (Lvl := ℕ) (Val := Elt F) spec0 c : sProp 𝕄) := by
  have hne : (Fin.last cfg0.N).val ≠ 0 := by rw [Fin.val_last, N0]; decide
  rw [show (dat0 c W).Φ (Fin.last cfg0.N) = PhiS0 c W (Fin.last cfg0.N).val (Nat.le_of_lt_succ (Fin.last cfg0.N).isLt) from rfl,
    PhiS0_pos c W _ _ hne, rest0_eq]
  iintro ⟨HS, Hoth⟩
  isplitl [HS]
  · iexists _; iexact HS
  iexact Hoth

end Cert.KernelIdeal.Hand

end
-- ==== Proof.KI.Kit1.lean ====
/-
  The scatter region's schedule in closed form, by arithmetic on the point's number: the grid is 25 node tiles by
  1564 edge tiles, the edge tile moving fastest, so point t is node tile t / 1564 and edge tile t % 1564.  The body's
  first conditional (reset the accumulator) holds exactly on edge tile 0, its second (write the node block out)
  exactly on edge tile 1563, and the result window is written back exactly after edge tile 1563.
-/
import proofs.«415224_j21672404975784_2_alg».proof.Proof.Gen.KernelIdeal.Launch
import proofs.«415224_j21672404975784_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Points and coordinates -/

theorem N1 : cfg1.N = 39100 := N_1

/-- The edge-tile coordinate of point t is t % 1564. -/
theorem coord1_e (t : Fin cfg1.N) : ((grid1.coords t) 1).val = t.val % 1564 := by
  show t.val / grid1.stride 1 % grid1.bound 1 = _
  rw [show grid1.stride 1 = 1 from by decide, show grid1.bound 1 = 1564 from rfl, Nat.div_one]

/-- The node-tile coordinate of point t is t / 1564. -/
theorem coord1_v (t : Fin cfg1.N) : ((grid1.coords t) 0).val = t.val / 1564 := by
  show t.val / grid1.stride 0 % grid1.bound 0 = _
  rw [show grid1.stride 0 = 1564 from by decide, show grid1.bound 0 = 25 from rfl]
  have ht : t.val < 39100 := lt_of_lt_of_eq t.isLt N1
  exact Nat.mod_eq_of_lt (by omega)

/-! ## The body's two conditions -/

/-- The reset's condition, from the grid coordinates. -/
abbrev first1 (i : grid1.Coords) : Prop :=
  (Scalar.cmpi .ne (Scalar.extui (Scalar.cmpi .eq (BitVec.ofNat 32 (i 1).val) 0#32)) 0#32) = 1#1
/-- The write-out's condition. -/
abbrev last1 (i : grid1.Coords) : Prop := k1_cond2 i = 1#1

theorem first1_word : ∀ n : Fin 1564,
    ((Scalar.cmpi .ne (Scalar.extui (Scalar.cmpi .eq (BitVec.ofNat 32 n.val) 0#32)) 0#32) = 1#1) ↔ n.val = 0 := by decide +kernel
theorem last1_word : ∀ n : Fin 1564,
    ((Scalar.cmpi .ne (Scalar.extui (Scalar.cmpi .eq (BitVec.ofNat 32 n.val) 1563#32)) 0#32) = 1#1) ↔ n.val = 1563 := by decide +kernel

theorem first1_iff (t : Fin cfg1.N) : first1 (grid1.coords t) ↔ t.val % 1564 = 0 := by
  rw [← coord1_e t]; exact first1_word ((grid1.coords t) 1)
theorem last1_iff (t : Fin cfg1.N) : last1 (grid1.coords t) ↔ t.val % 1564 = 1563 := by
  rw [← coord1_e t]; exact last1_word ((grid1.coords t) 1)

/-! ## Where the windows are idle, and where the result window is written back -/

theorem live1_0 (i : grid1.Coords) : cfg1.idle 0 i = false := rfl
theorem live1_1 (i : grid1.Coords) : cfg1.idle 1 i = false := rfl
theorem idle1_2 (i : grid1.Coords) (h : ¬last1 i) : cfg1.idle 2 i = true := by
  show (!(k1_cond2 i == 1#1)) = true
  simp only [Bool.not_eq_true', beq_eq_false_iff_ne, ne_eq]; exact h
theorem live1_2 (i : grid1.Coords) (h : last1 i) : cfg1.idle 2 i = false := by
  show (!(k1_cond2 i == 1#1)) = false
  simp only [Bool.not_eq_false', beq_iff_eq]; exact h

/-- The result window's block index at point t: block column t / 1564. -/
theorem index1_2 (t : Fin cfg1.N) : (cfg1.win 2).index t = ![0, t.val / 1564] := by
  show cc1_transform_2 (grid1.coords t) = _
  unfold cc1_transform_2
  have h := coord1_v t
  have ht : t.val < 39100 := lt_of_lt_of_eq t.isLt N1
  have hlt : t.val / 1564 < 2 ^ 32 := by omega
  funext a
  match a with
  | ⟨0, _⟩ => rfl
  | ⟨1, _⟩ => show (BitVec.ofNat 32 ((grid1.coords t) 0).val).toNat = t.val / 1564
              rw [h, BitVec.toNat_ofNat, Nat.mod_eq_of_lt hlt]

/-- The result window is written back exactly after edge tile 1563. -/
theorem flush1_2 (t : Fin cfg1.N) : (cfg1.win 2).flush t = true ↔ t.val % 1564 = 1563 := by
  have hN : cfg1.grid.N = 39100 := N_1
  have ht : t.val < 39100 := lt_of_lt_of_eq t.isLt N1
  unfold Window.flush
  rw [show (cfg1.win 2).isOut = true from rfl, Bool.true_and, Bool.or_eq_true, decide_eq_true_eq, decide_eq_true_eq]
  constructor
  · rintro (h | ⟨h, hne⟩)
    · omega
    · by_contra h99
      apply hne
      rw [index1_2, index1_2]
      show ![0, (t.val + 1) / 1564] = ![0, t.val / 1564]
      rw [show (t.val + 1) / 1564 = t.val / 1564 from by omega]
  · intro h99
    by_cases hl : t.val + 1 = 39100
    · exact Or.inl (hl.trans hN.symm)
    · refine Or.inr ⟨by omega, fun heq => ?_⟩
      rw [index1_2, index1_2] at heq
      have := congrFun heq 1
      simp only [Matrix.cons_val_one, Matrix.head_cons, Matrix.cons_val_zero] at this
      omega

/-! ## The staging and scratch memrefs as the pipeline passes them -/

abbrev ms1_0 (t : Fin cfg1.N) : Memref sig .tc .vmem S1024x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x4096 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S32x4096 .f32 := Memref.whole cc1_scratch0

/-- The kernel body at point t, on what the pipeline calls it with. -/
abbrev bodyAt1 (t : Fin cfg1.N) : Prog (TpuEff nD τ sig (Elt F) Λ₀ .tc) PUnit :=
  cc1__scatter_kernel (grid1.coords t) (ms1_0 t) (hs1_0 t) (ms1_1 t) (hs1_1 t) (ms1_2 t) (hs1_2 t) scM1 (Memref.isWhole_whole _)

end Cert.KernelIdeal.Hand

end
-- ==== Proof.KI.Run1A.lean ====
/-
  The scatter kernel's body run once on edge tile 0 (the accumulator is reset, then the tile's product is added; nothing is written out): from the four buffers held whole, it runs to its return with the two
  inputs as they were and the accumulator at the pieces its stores wrote, the node block untouched.
-/
import proofs.«415224_j21672404975784_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun1_A (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : first1 i) (hl : ¬last1 i)
    (x0 : Vec F S1024x1 .i32) (x1 : Vec F S32x1024 .bf16) :
    { LS : List (View.Piece (Elt F) S32x4096 .f32) //
      ∀ (xi : Vec F S32x4096 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds, %fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run1B.lean ====
/-
  The scatter kernel's body run once on an edge tile that is neither the first nor the last (the tile's product is added to the accumulator; nothing is written out): from the four buffers held whole, it runs to its return with the two
  inputs as they were and the accumulator at the pieces its stores wrote, the node block untouched.
-/
import proofs.«415224_j21672404975784_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun1_B (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : ¬last1 i)
    (x0 : Vec F S1024x1 .i32) (x1 : Vec F S32x1024 .bf16) (xs : Vec F S32x4096 .f32) :
    { LS : List (View.Piece (Elt F) S32x4096 .f32) //
      ∀ (xi : Vec F S32x4096 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run1C.lean ====
/-
  The scatter kernel's body run once on edge tile 1563 (the tile's product is added, then the accumulator is written out into the node block): from the four buffers held whole, it runs to its return with the two
  inputs as they were and the accumulator at the pieces its stores wrote, the node block at the piece written out.
-/
import proofs.«415224_j21672404975784_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case; the pieces each written buffer ends with are found by the run itself. -/
noncomputable def kernelRun1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) :
    Σ' (L2 : List (View.Piece (Elt F) S32x4096 .f32)), { LS : List (View.Piece (Elt F) S32x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Hand

end
-- ==== Proof.KI.Def1.lean ====
/-
  The scatter region's proof data.  The accumulator after point t is a recursion on the point: on edge tile 0 the
  tile's product is added to the zero block, on every other edge tile to what the point before left.  The node block
  the body writes out at a point is the accumulator there; it is consulted only after edge tile 1563, where the
  window is written back.  The two input windows hold their blocks throughout.  Between points the region holds the
  accumulator at that recursion's value and the other region's scoped buffers at anything.
-/
import proofs.«415224_j21672404975784_2_alg».proof.Proof.KI.Kit1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (W : (b : Ref sig .tc) → Buf (Elt F) ((c : Thread nD τ).loc b))

/-- Window w's block at point t, read off its array as the region finds it. -/
def iblk1 (w : Fin cfg1.W) (t : Fin cfg1.N) : ((cfg1.win w).xblock (cfg1.grid.coords t)).Idx → Elt F (cfg1.win w).elt :=
  ((cfg1.win w).blk t).view.read (Elt F) (W (Pipeline.arrRef spec1 w))

/-- The accumulator after point n. -/
def acc1 : (n : ℕ) → n < cfg1.N → Vec F S32x4096 .f32
  | 0, hn => k1_pay2 (grid1.coords ⟨0, hn⟩) (iblk1 c W 0 ⟨0, hn⟩) (k1_pay1 (F := F)) (iblk1 c W 1 ⟨0, hn⟩)
  | n + 1, hn => k1_pay2 (grid1.coords ⟨n + 1, hn⟩) (iblk1 c W 0 ⟨n + 1, hn⟩)
      (if (n + 1) % 1564 = 0 then k1_pay1 (F := F) else acc1 n (Nat.lt_of_succ_lt hn)) (iblk1 c W 1 ⟨n + 1, hn⟩)

/-- On edge tile 0 the accumulator starts from the zero block. -/
theorem acc1_first (t : Fin cfg1.N) (h : t.val % 1564 = 0) :
    acc1 c W t.val t.isLt = k1_pay2 (grid1.coords t) (iblk1 c W 0 t) (k1_pay1 (F := F)) (iblk1 c W 1 t) := by
  obtain ⟨n, hn⟩ := t
  cases n with
  | zero => rfl
  | succ n => show k1_pay2 _ _ (if (n + 1) % 1564 = 0 then _ else _) _ = _; rw [if_pos h]

/-- On any other edge tile it continues from what the point before left. -/
theorem acc1_next (t : Fin cfg1.N) (h : ¬t.val % 1564 = 0) :
    acc1 c W t.val t.isLt = k1_pay2 (grid1.coords t) (iblk1 c W 0 t)
      (acc1 c W (t.val - 1) (Nat.lt_of_le_of_lt (Nat.sub_le _ _) t.isLt)) (iblk1 c W 1 t) := by
  obtain ⟨n, hn⟩ := t
  cases n with
  | zero => exact absurd (Nat.zero_mod _) h
  | succ n => show k1_pay2 _ _ (if (n + 1) % 1564 = 0 then _ else _) _ = _; rw [if_neg h]; rfl

/-- The region's scoped buffers it does not stage, with the accumulator's at contents X: the other region's buffers
    ride along at anything. -/
abbrev held1 (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- What the region holds before point n: before the first point every scoped buffer it does not stage at anything;
    afterwards the accumulator at what the point before left, the rest at anything. -/
def PhiS1 : (n : ℕ) → n ≤ cfg1.N → sProp 𝕄
  | 0, _ => Pipeline.scopedRest (Ix := Unit) (Name := ℕ) (U := UR sig nD τ) (Lvl := ℕ) (Val := Elt F) spec1 c
  | n + 1, hn => held1 c (owns (c : Thread nD τ) scM1 fullShare (acc1 c W n hn))

theorem PhiS1_zero (n : ℕ) (h : n ≤ cfg1.N) (hz : n = 0) :
    PhiS1 c W n h = Pipeline.scopedRest (Ix := Unit) (Name := ℕ) (U := UR sig nD τ) (Lvl := ℕ) (Val := Elt F) spec1 c := by
  subst hz; rfl
theorem PhiS1_succ (n : ℕ) (hn : n < cfg1.N) :
    PhiS1 c W (n + 1) hn = held1 c (owns (c : Thread nD τ) scM1 fullShare (acc1 c W n hn)) := rfl
theorem PhiS1_pos (n : ℕ) (h : n ≤ cfg1.N) (hz : n ≠ 0) :
    PhiS1 c W n h = held1 c (owns (c : Thread nD τ) scM1 fullShare (acc1 c W (n - 1) (by omega))) := by
  cases n with
  | zero => exact absurd rfl hz
  | succ n => rfl

/-- Before the first point: the accumulator's buffer at anything beside the rest. -/
theorem rest1_eq :
    (Pipeline.scopedRest (Ix := Unit) (Name := ℕ) (U := UR sig nD τ) (Lvl := ℕ) (Val := Elt F) spec1 c : sProp 𝕄)
      = held1 c (iprop(∃ d, owns (c : Thread nD τ) scM1 fullShare d)) := by
  rw [scopedRest1_eq]; simp only [scM1, owns_whole]; rfl

/-- The region's proof data on core c, from the contents W it finds in the unscoped buffers. -/
def dat1 : Dat τ (Elt F) Unit ℕ (UR sig nD τ) ℕ cfg1 c where
  A w := W (Pipeline.arrRef spec1 w)
  after w t := match w with
    | ⟨0, _⟩ => iblk1 c W 0 t
    | ⟨1, _⟩ => iblk1 c W 1 t
    | ⟨2, _⟩ => acc1 c W t.val t.isLt
  Φ t := PhiS1 c W t.val (Nat.le_of_lt_succ t.isLt)
  q _ := fullShare
  owed _ := 0

theorem A1_eq (w : Fin cfg1.W) : (dat1 c W).A w = W (Pipeline.arrRef spec1 w) := by dsimp only [dat1]
theorem PhiS1_castSucc (t : Fin cfg1.N) : (dat1 c W).Φ t.castSucc = PhiS1 c W t.val (Nat.le_of_lt t.isLt) := by
  dsimp only [dat1]; simp only [Fin.coe_castSucc]
theorem after1_0 (t : Fin cfg1.N) : (dat1 c W).after 0 t = iblk1 c W 0 t := by dsimp only [dat1]
theorem after1_1 (t : Fin cfg1.N) : (dat1 c W).after 1 t = iblk1 c W 1 t := by dsimp only [dat1]
theorem after1_2 (t : Fin cfg1.N) : (dat1 c W).after 2 t = acc1 c W t.val t.isLt := by dsimp only [dat1]

/-- Each input's current staging buffer holds its block at every point, fetched there or not. -/
theorem before1_0 (t : Fin cfg1.N) (d) : (dat1 c W).before 0 t d = iblk1 c W 0 t :=
  ((dat1 c W).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (t : Fin cfg1.N) (d) : (dat1 c W).before 1 t d = iblk1 c W 1 t :=
  ((dat1 c W).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)

end Cert.KernelIdeal.Hand

end
-- ==== Proof.KI.Body1.lean ====
/-
  The scatter region's body obligation.  Each case's run leaves the accumulator's buffer written by pieces; the last
  piece covers the whole buffer, so what is read back is that piece's payload: the tile's product added to what the
  accumulator held (the zero block on edge tile 0, where the first piece is the reset read back by the sum's load).
  On edge tile 1563 the node block is covered by the one piece written out, the accumulator's final value.
  With these the run of each case is the step of the proof data's recursion, and the three cases exhaust the points.
-/
import proofs.«415224_j21672404975784_2_alg».proof.Proof.KI.Run1C
import proofs.«415224_j21672404975784_2_alg».proof.Proof.KI.Def1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

/-! ## What each case's pieces read back as -/

theorem scover1_A (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : first1 i) (hl : ¬last1 i)
    (x0 : Vec F S1024x1 .i32) (x1 : Vec F S32x1024 .bf16) (y : S32x4096.Idx) :
    ∃ pc ∈ (kernelRun1_A c i arg2 harg2 arg3 harg3 arg4 harg4 arg5 harg5 hf hl x0 x1).1, y ∈ pc.1.set :=
  View.cover_of_tiledL (kernelRun1_A c i arg2 harg2 arg3 harg3 arg4 harg4 arg5 harg5 hf hl x0 x1).1 S32x4096.size (by sl_kernel_rfl) y

/-- Edge tile 0: the accumulator ends at the tile's product added to the zero block. -/
theorem sval1_A (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : first1 i) (hl : ¬last1 i)
    (x0 : Vec F S1024x1 .i32) (x1 : Vec F S32x1024 .bf16) (f : arg5.view.ty.Contents (Elt F)) :
    arg5.view.read (Elt F) (arg5.view.writes (Elt F) f (kernelRun1_A c i arg2 harg2 arg3 harg3 arg4 harg4 arg5 harg5 hf hl x0 x1).1)
      = k1_pay2 i x0 (k1_pay1 (F := F)) x1 := by
  rw [View.read_writes_eq_canon _ _ _ (scover1_A c i arg2 harg2 arg3 harg3 arg4 harg4 arg5 harg5 hf hl x0 x1)]
  unfold kernelRun1_A
  dsimp only
  sl_unfold_words
  rw [View.canon_cons_unit_zero (S := S32x4096) hz2', View.readCov_unit_zero (S := S32x4096) _ hz2']
  simp only [View.readAt_eq_ld, harg2.read_unread, harg3.read_unread, View.ld_unit_zero (S := S1024x1) hz2',
    View.ld_unit_zero (S := S32x1024) hz2']

theorem scover1_B (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : ¬last1 i)
    (x0 : Vec F S1024x1 .i32) (x1 : Vec F S32x1024 .bf16) (xs : Vec F S32x4096 .f32) (y : S32x4096.Idx) :
    ∃ pc ∈ (kernelRun1_B c i arg2 harg2 arg3 harg3 arg4 harg4 arg5 harg5 hf hl x0 x1 xs).1, y ∈ pc.1.set :=
  View.cover_of_tiledL (kernelRun1_B c i arg2 harg2 arg3 harg3 arg4 harg4 arg5 harg5 hf hl x0 x1 xs).1 S32x4096.size (by sl_kernel_rfl) y

/-- A middle edge tile: the accumulator ends at the tile's product added to what it held. -/
theorem sval1_B (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : ¬last1 i)
    (x0 : Vec F S1024x1 .i32) (x1 : Vec F S32x1024 .bf16) (xs : Vec F S32x4096 .f32) (f : arg5.view.ty.Contents (Elt F)) :
    arg5.view.read (Elt F) (arg5.view.writes (Elt F) f (kernelRun1_B c i arg2 harg2 arg3 harg3 arg4 harg4 arg5 harg5 hf hl x0 x1 xs).1)
      = k1_pay2 i x0 xs x1 := by
  rw [View.read_writes_eq_canon _ _ _ (scover1_B c i arg2 harg2 arg3 harg3 arg4 harg4 arg5 harg5 hf hl x0 x1 xs)]
  unfold kernelRun1_B
  dsimp only
  rw [View.canon_unit_zero (S := S32x4096) hz2']
  simp only [View.readAt_eq_ld, harg2.read_unread, harg3.read_unread, harg5.read_unread, View.ld_unit_zero (S := S1024x1) hz2',
    View.ld_unit_zero (S := S32x1024) hz2', View.ld_unit_zero (S := S32x4096) hz2']

theorem scover1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (y : S32x4096.Idx) :
    ∃ pc ∈ (kernelRun1_C c i arg2 harg2 arg3 harg3 arg4 harg4 arg5 harg5 hf hl x0 x1 xs).2.1, y ∈ pc.1.set :=
  View.cover_of_tiledL (kernelRun1_C c i arg2 harg2 arg3 harg3 arg4 harg4 arg5 harg5 hf hl x0 x1 xs).2.1 S32x4096.size (by sl_kernel_rfl) y

theorem cover1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (y : S32x4096.Idx) :
    ∃ pc ∈ (kernelRun1_C c i arg2 harg2 arg3 harg3 arg4 harg4 arg5 harg5 hf hl x0 x1 xs).1, y ∈ pc.1.set :=
  View.cover_of_tiledL (kernelRun1_C c i arg2 harg2 arg3 harg3 arg4 harg4 arg5 harg5 hf hl x0 x1 xs).1 S32x4096.size (by sl_kernel_rfl) y

/-- Edge tile 1563: the accumulator ends at the tile's product added to what it held, -/
theorem sval1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (f : arg5.view.ty.Contents (Elt F)) :
    arg5.view.read (Elt F) (arg5.view.writes (Elt F) f (kernelRun1_C c i arg2 harg2 arg3 harg3 arg4 harg4 arg5 harg5 hf hl x0 x1 xs).2.1)
      = k1_pay2 i x0 xs x1 := by
  rw [View.read_writes_eq_canon _ _ _ (scover1_C c i arg2 harg2 arg3 harg3 arg4 harg4 arg5 harg5 hf hl x0 x1 xs)]
  unfold kernelRun1_C
  dsimp only
  sl_unfold_words
  rw [View.canon_unit_zero (S := S32x4096) hz2']
  simp only [View.readAt_eq_ld, harg2.read_unread, harg3.read_unread, harg5.read_unread, View.ld_unit_zero (S := S1024x1) hz2',
    View.ld_unit_zero (S := S32x1024) hz2', View.ld_unit_zero (S := S32x4096) hz2']

/-- and the node block at that value. -/
theorem oval1_C (c : Dev nD) (i : grid1.Coords) (arg2 : Memref sig .tc .vmem S1024x1 .i32) (harg2 : arg2.IsWhole)
    (arg3 : Memref sig .tc .vmem S32x1024 .bf16) (harg3 : arg3.IsWhole) (arg4 : Memref sig .tc .vmem S32x4096 .f32) (harg4 : arg4.IsWhole)
    (arg5 : Memref sig .tc .vmem S32x4096 .f32) (harg5 : arg5.IsWhole) (hf : ¬first1 i) (hl : last1 i)
    (x0 : Vec F S1024x1 .i32) (x1 : Vec F S32x1024 .bf16) (xs : Vec F S32x4096 .f32) (f : arg4.view.ty.Contents (Elt F)) :
    arg4.view.read (Elt F) (arg4.view.writes (Elt F) f (kernelRun1_C c i arg2 harg2 arg3 harg3 arg4 harg4 arg5 harg5 hf hl x0 x1 xs).1)
      = k1_pay2 i x0 xs x1 := by
  rw [View.read_writes_eq_canon _ _ _ (cover1_C c i arg2 harg2 arg3 harg3 arg4 harg4 arg5 harg5 hf hl x0 x1 xs)]
  unfold kernelRun1_C
  dsimp only
  sl_unfold_words
  rw [View.canon_unit_zero (S := S32x4096) hz2', View.readCov_unit_zero (S := S32x4096) _ hz2']
  simp only [View.readAt_eq_ld, harg2.read_unread, harg3.read_unread, harg5.read_unread, View.ld_unit_zero (S := S1024x1) hz2',
    View.ld_unit_zero (S := S32x1024) hz2', View.ld_unit_zero (S := S32x4096) hz2']

variable (c : Dev nD) (W : (b : Ref sig .tc) → Buf (Elt F) ((c : Thread nD τ).loc b))

/-! ## The body obligation, at a generic point -/

/-- What the body is called with at point t, the windows one by one, -/
def bodyPre1 (t : Fin cfg1.N) : sProp 𝕄 :=
  iprop((dat1 c W).Φ t.castSucc ∗ (dat1 c W).owesAt () t.castSucc
    ∗ (∃ d, owns (c : Thread nD τ) (ms1_0 t) fullShare ((dat1 c W).before 0 t d))
    ∗ (∃ d, owns (c : Thread nD τ) (ms1_1 t) fullShare ((dat1 c W).before 1 t d))
    ∗ (∃ d, owns (c : Thread nD τ) (ms1_2 t) fullShare ((dat1 c W).before 2 t d)))

/-- and what it returns. -/
def bodyPost1 (t : Fin cfg1.N) : sProp 𝕄 :=
  iprop((dat1 c W).Φ t.succ ∗ (dat1 c W).owesAt () t.succ
    ∗ (dat1 c W).leavesExact 0 t
    ∗ (dat1 c W).leavesExact 1 t
    ∗ (dat1 c W).leavesExact 2 t)

theorem noflush1_2 (t : Fin cfg1.N) (h : ¬t.val % 1564 = 1563) : (cfg1.win 2).flush t = false := by
  rw [← Bool.not_eq_true]; exact fun hf => h ((flush1_2 t).mp hf)

set_option maxHeartbeats 4800000 in
/-- The body at any point: the inputs' memrefs hold their blocks; the closed forms say which case the point is in; the
    region hands the body the accumulator at what the point before left (at anything on the very first point) and
    takes it back at this point's value; the core owes nothing throughout. -/
theorem sound_body1 (t : Fin cfg1.N) :
    bodyPre1 c W t ⊢ wp frame (wpE (defs₀ (F := F)) Variants.none c none) Set.univ (bodyAt1 t) (fun _ => bodyPost1 c W t) := by
  unfold bodyPre1 bodyPost1 bodyAt1
  simp only [before1_0, before1_1]
  rw [show (dat1 c W).owesAt () t.succ = (dat1 c W).owesAt () t.castSucc from rfl]
  rw [show (dat1 c W).Φ t.succ = PhiS1 c W (t.val + 1) t.isLt from rfl, PhiS1_succ]
  rw [show (dat1 c W).leavesExact 0 t = owns (c : Thread nD τ) (ms1_0 t) fullShare ((dat1 c W).after 0 t) from by
    unfold Dat.leavesExact; rw [live1_0], after1_0]
  rw [show (dat1 c W).leavesExact 1 t = owns (c : Thread nD τ) (ms1_1 t) fullShare ((dat1 c W).after 1 t) from by
    unfold Dat.leavesExact; rw [live1_1], after1_1]
  have hN : t.val < 39100 := lt_of_lt_of_eq t.isLt N1
  by_cases h0 : t.val % 1564 = 0
  · -- edge tile 0
    have hf : first1 (grid1.coords t) := (first1_iff t).mpr h0
    have hl : ¬last1 (grid1.coords t) := fun h => by have := (last1_iff t).mp h; omega
    rw [Dat.leavesExact_idle (dat1 c W) 2 t (idle1_2 _ hl) (noflush1_2 t (by omega))]
    rw [acc1_first c W t h0]
    by_cases hz : t.val = 0
    · rw [PhiS1_castSucc c W t, PhiS1_zero c W _ _ hz, rest1_eq]
      iintro ⟨⟨Ha1, Ha2, Ha3, Ha4, Ha5, Ha6, Ha7, HS⟩, Ho, ⟨%d0, H0⟩, ⟨%d1, H1⟩, ⟨%d2, H2⟩⟩
      iapply ((kernelRun1_A c (grid1.coords t) _ _ _ _ _ _ _ _ hf hl (iblk1 c W 0 t) (iblk1 c W 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_A c _ _ _ _ _ _ _ _ _ hf hl _ _ _
      isplitl [Ho]; · iexact Ho
      isplitl [H0]; · iexact H0
      isplitl [H1]; · iexact H1
      iexists _; iexact H2
    · rw [PhiS1_castSucc c W t, PhiS1_pos c W _ _ hz]
      iintro ⟨⟨Ha1, Ha2, Ha3, Ha4, Ha5, Ha6, Ha7, HS⟩, Ho, ⟨%d0, H0⟩, ⟨%d1, H1⟩, ⟨%d2, H2⟩⟩
      iapply ((kernelRun1_A c (grid1.coords t) _ _ _ _ _ _ _ _ hf hl (iblk1 c W 0 t) (iblk1 c W 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_A c _ _ _ _ _ _ _ _ _ hf hl _ _ _
      isplitl [Ho]; · iexact Ho
      isplitl [H0]; · iexact H0
      isplitl [H1]; · iexact H1
      iexists _; iexact H2
  · have hf : ¬first1 (grid1.coords t) := fun h => h0 ((first1_iff t).mp h)
    have hz : t.val ≠ 0 := fun h => h0 (by rw [h])
    rw [acc1_next c W t h0]
    rw [PhiS1_castSucc c W t, PhiS1_pos c W _ _ hz]
    by_cases h1 : t.val % 1564 = 1563
    · -- edge tile 1563
      have hl : last1 (grid1.coords t) := (last1_iff t).mpr h1
      rw [show (dat1 c W).leavesExact 2 t = owns (c : Thread nD τ) (ms1_2 t) fullShare ((dat1 c W).after 2 t) from by
        unfold Dat.leavesExact; rw [live1_2 _ hl], after1_2, acc1_next c W t h0]
      iintro ⟨⟨Ha1, Ha2, Ha3, Ha4, Ha5, Ha6, Ha7, HS⟩, Ho, ⟨%d0, H0⟩, ⟨%d1, H1⟩, ⟨%d2, H2⟩⟩
      iapply ((kernelRun1_C c (grid1.coords t) _ _ _ _ _ _ _ _ hf hl (iblk1 c W 0 t) (iblk1 c W 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_C c _ _ _ _ _ _ _ _ _ hf hl _ _ _ _
      isplitl [Ho]; · iexact Ho
      isplitl [H0]; · iexact H0
      isplitl [H1]; · iexact H1
      unfold owns; iexists _; isplitr
      swap; · iexact H2
      ipureintro; exact oval1_C c _ _ _ _ _ _ _ _ _ hf hl _ _ _ _
    · -- a middle edge tile
      have hl : ¬last1 (grid1.coords t) := fun h => h1 ((last1_iff t).mp h)
      rw [Dat.leavesExact_idle (dat1 c W) 2 t (idle1_2 _ hl) (noflush1_2 t h1)]
      iintro ⟨⟨Ha1, Ha2, Ha3, Ha4, Ha5, Ha6, Ha7, HS⟩, Ho, ⟨%d0, H0⟩, ⟨%d1, H1⟩, ⟨%d2, H2⟩⟩
      iapply ((kernelRun1_B c (grid1.coords t) _ _ _ _ _ _ _ _ hf hl (iblk1 c W 0 t) (iblk1 c W 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Ha1 Ha2 Ha3 Ha4 Ha5 Ha6 Ha7]
      · isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        unfold owns; iexists _; isplitr
        swap; · iexact HS
        ipureintro; exact sval1_B c _ _ _ _ _ _ _ _ _ hf hl _ _ _ _
      isplitl [Ho]; · iexact Ho
      isplitl [H0]; · iexact H0
      isplitl [H1]; · iexact H1
      iexists _; iexact H2

/-- The body obligation, at every point. -/
theorem body_obligation1 : BodyObligation (dat1 (F := F) c W) (defs₀ (F := F)) Variants.none () Set.univ := fun t => by
  rw [bigSep_W1, bigSep_W1]
  exact sound_body1 c W t

/-- What the region's entry hands over is the invariant before the first point. -/
theorem hin1 : (Pipeline.scopedRest (Ix := Unit) (Name := ℕ) (U := UR sig nD τ) (Lvl := ℕ) (Val := Elt F) spec1 c : sProp 𝕄)
    ⊢ (dat1 c W).Φ 0 := by
  rw [show (dat1 c W).Φ 0 = PhiS1 c W 0 (Nat.zero_le _) from rfl, PhiS1_zero c W 0 _ rfl]
  try exact Idealize.SL.BI.Entails.refl _

/-- After the last point the invariant gives the scoped buffers back, the accumulator's named contents forgotten. -/
theorem hout1 : (dat1 c W).Φ (Fin.last cfg1.N)
    ⊢ (Pipeline.scopedRest (Ix := Unit) (Name := ℕ) (U := UR sig nD τ) (Lvl := ℕ) (Val := Elt F) spec1 c : sProp 𝕄) := by
  have hne : (Fin.last cfg1.N).val ≠ 0 := by rw [Fin.val_last, N1]; decide
  rw [show (dat1 c W).Φ (Fin.last cfg1.N) = PhiS1 c W (Fin.last cfg1.N).val (Nat.le_of_lt_succ (Fin.last cfg1.N).isLt) from rfl,
    PhiS1_pos c W _ _ hne, rest1_eq]
  iintro ⟨Ha1, Ha2, Ha3, Ha4, Ha5, Ha6, Ha7, HS⟩
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  iexists _; iexact HS

end Cert.KernelIdeal.Hand

end
-- ==== Proof.KI.Run.lean ====
/-
  The program's run from launch to return.  Between two items of @main the core holds every unscoped buffer at a
  named valuation: the launch contents, then each host stretch applied in order, then the first region's result array
  at what its write-backs leave, then the second's, then the two host lines that follow.  Each region is entered by
  sorting its three windows' arrays out of those buffers, run by its body obligation, and left by putting the arrays
  back, the result array at the folded write-backs; the accumulator and the other scoped buffers go into the region's
  invariant and come back forgotten; the core owes nothing throughout.  Read against the final state, the last
  valuation gives the result array its name and every argument its launch contents.
-/
import proofs.«415224_j21672404975784_2_alg».proof.Proof.KI.Body0
import proofs.«415224_j21672404975784_2_alg».proof.Proof.KI.Body1
import proofs.«415224_j21672404975784_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' ends -/

/-- Core c's unscoped buffers when the first region is entered, read at a reference. -/
abbrev U7 (c : Dev nD) (b : Ref sig .tc) : Buf (Elt F) ((c : Thread nD τ).loc b) := V7 m c b

/-- What the first region leaves in its result array: its write-backs folded over the entry contents. -/
def out0 (c : Dev nD) : Buf (Elt F) ((c : Thread nD τ).loc main_v7) := (dat0 c (U7 m c)).arrAt 2 cfg0.N

/-- The buffers when the second region is entered: the first region's result array replaced. -/
abbrev W8 (c : Dev nD) : Valuation τ sig (Elt F) := Function.update (V7 m c) main_v7 (out0 m c)
abbrev U8 (c : Dev nD) (b : Ref sig .tc) : Buf (Elt F) ((c : Thread nD τ).loc b) := W8 m c b

/-- What the second region leaves in its result array. -/
def out1 (c : Dev nD) : Buf (Elt F) ((c : Thread nD τ).loc main_v8) := (dat1 c (U8 m c)).arrAt 2 cfg1.N

/-- What the regions leave, as the family the valuations after them are written over. -/
def outsK : Outs (F := F) := fun _ r c =>
  if h7 : r = main_v7 then h7 ▸ out0 m c else if h8 : r = main_v8 then h8 ▸ out1 m c else V7 m c r

theorem outsK_v7 (j : ℕ) (c : Dev nD) : outsK m j main_v7 c = out0 m c := by
  unfold outsK; rw [dif_pos rfl]
theorem outsK_v8 (j : ℕ) (c : Dev nD) : outsK m j main_v8 c = out1 m c := by
  unfold outsK; rw [dif_neg (by decide), dif_pos rfl]

theorem V8_eq (c : Dev nD) : V8 m (outsK m) c = W8 m c := by
  show Function.update _ _ _ = Function.update _ _ _; rw [outsK_v7]
abbrev U9 (c : Dev nD) (b : Ref sig .tc) : Buf (Elt F) ((c : Thread nD τ).loc b) := V9 m (outsK m) c b

/-! ## Each region's arrays at its exit, and the buffers it leaves alone -/

theorem ne_v7_of_not_arr0 (b : Ref sig .tc) (hb : b ∉ Finset.univ.image (Pipeline.arrRef spec0)) : b ≠ main_v7 := fun h =>
  hb (Finset.mem_image.mpr ⟨2, Finset.mem_univ _, h.symm⟩)
theorem ne_v8_of_not_arr1 (b : Ref sig .tc) (hb : b ∉ Finset.univ.image (Pipeline.arrRef spec1)) : b ≠ main_v8 := fun h =>
  hb (Finset.mem_image.mpr ⟨2, Finset.mem_univ _, h.symm⟩)

theorem hF0 (c : Dev nD) : ∀ w : Fin cfg0.W, (dat0 c (U7 m c)).arrAt w cfg0.N = U8 m c (Pipeline.arrRef spec0 w)
  | ⟨0, _⟩ => ((dat0 c (U7 m c)).arrAt_in 0 rfl _).trans ((A0_eq c (U7 m c) 0).trans
      (Function.update_of_ne (StableHlo.devRef_ne_of_ne (by decide)) _ _).symm)
  | ⟨1, _⟩ => ((dat0 c (U7 m c)).arrAt_in 1 rfl _).trans ((A0_eq c (U7 m c) 1).trans
      (Function.update_of_ne (StableHlo.devRef_ne_of_ne (by decide)) _ _).symm)
  | ⟨2, _⟩ => (Function.update_self (β := fun b => Buf (Elt F) ((c : Thread nD τ).1, b)) _ _ _).symm
theorem hrest0 (c : Dev nD) : ∀ b, b ∉ Finset.univ.image (Pipeline.arrRef spec0) → U8 m c b = U7 m c b := fun b hb =>
  Function.update_of_ne (StableHlo.devRef_ne_of_ne (ne_v7_of_not_arr0 b hb)) _ _

theorem hF1 (c : Dev nD) : ∀ w : Fin cfg1.W, (dat1 c (U8 m c)).arrAt w cfg1.N = U9 m c (Pipeline.arrRef spec1 w)
  | ⟨0, _⟩ => ((dat1 c (U8 m c)).arrAt_in 0 rfl _).trans ((A1_eq c (U8 m c) 0).trans
      ((V9_of m (outsK m) c main_v6 (by decide)).trans (congrFun (V8_eq m c) _)).symm)
  | ⟨1, _⟩ => ((dat1 c (U8 m c)).arrAt_in 1 rfl _).trans ((A1_eq c (U8 m c) 1).trans
      ((V9_of m (outsK m) c main_v7 (by decide)).trans (congrFun (V8_eq m c) _)).symm)
  | ⟨2, _⟩ => by
    have h : V9 m (outsK m) c main_v8 = out1 m c :=
      (Function.update_self (β := fun b => Buf (Elt F) ((c : Thread nD τ).1, b)) _ _ _).trans (outsK_v8 m 9 c)
    exact h.symm
theorem hrest1 (c : Dev nD) : ∀ b, b ∉ Finset.univ.image (Pipeline.arrRef spec1) → U9 m c b = U8 m c b := fun b hb =>
  (V9_of m (outsK m) c b (by simp only [List.mem_singleton]; exact ne_v8_of_not_arr1 b hb)).trans (congrFun (V8_eq m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 c (U7 m c)
  | ⟨1, _⟩ => fun c => dat1 c (U8 m c)
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's owing nothing. -/
abbrev R (c : Dev nD) : sProp 𝕄 := iprop(∃ W, owes (c : Thread nD τ) (0 : CellTallies nD τ sig Unit) W)

/-! ## The regions as segments -/

set_option backward.isDefEq.respectTransparency.types false in
/-- The gather region over the thread state: entered from every unscoped buffer at the contents the host prefix
    leaves, left with its result array at the folded write-backs. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 c (U7 m c)).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outsK m) c) ∗ R c)
  X c := iprop(emp)
  Y c := iprop(emp)
  Z c := Pipeline.unscopedRest (Ix := Unit) (Name := ℕ) (U := UR sig nD τ) (Lvl := ℕ) spec0 c (U7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U7 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (dat0 c (U7 m c)).Φ 0 from rfl]
    iintro ⟨-, -, Hr⟩
    iapply (hin0 c (U7 m c))
    iexact Hr
  hout c := by
    rw [Pipeline.ownSems0_none, show (pdats m 0 c).Φ (Fin.last _) = (dat0 c (U7 m c)).Φ (Fin.last cfg0.N) from rfl]
    have hh := hout0 c (U7 m c)
    iintro H
    ihave Hr := hh $$ H
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U7 m c) (U8 m c) ((pdats m 0 c).arrAt · cfg0.N) (hF0 m c) (hrest0 m c)
    rw [Pipeline.unscopedBufs_held] at hjoin
    rw [V8_eq]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The scatter region over the thread state: entered from what the gather region left, left with its own result
    array at the folded write-backs. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 c (U8 m c)).loose
  hwaits := Pipeline.hwaits_of_owed_zero _ _ _ _ L lv 1 fun _ _ => rfl
  pre c := iprop(StableHlo.held (c : Thread nD τ) (Pipeline.ucRefs τ sig) (V8 m (outsK m) c) ∗ R c)
  post c := iprop(StableHlo.held (c : Thread nD τ) (Pipeline.ucRefs τ sig) (V9 m (outsK m) c) ∗ R c)
  X c := iprop(emp)
  Y c := iprop(emp)
  Z c := Pipeline.unscopedRest (Ix := Unit) (Name := ℕ) (U := UR sig nD τ) (Lvl := ℕ) spec1 c (U8 m c)
  hentry c := by
    rw [Pipeline.ownSems0_none, V8_eq]
    have hsplit := Pipeline.arrays_of_unscopedBufs (p := 1) (pcfgs (F := F)) adm (pdats m) launch1.win launch1.arr_whole c
      ((pdats m 1 c).share_full fun _ => rfl) (U8 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 c (U8 m c)).Φ 0 from rfl]
    iintro ⟨-, -, Hr⟩
    iapply (hin1 c (U8 m c))
    iexact Hr
  hout c := by
    rw [Pipeline.ownSems0_none, show (pdats m 1 c).Φ (Fin.last _) = (dat1 c (U8 m c)).Φ (Fin.last cfg1.N) from rfl]
    have hh := hout1 c (U8 m c)
    iintro H
    ihave Hr := hh $$ H
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U8 m c) (U9 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- At the compiled mesh, from any memory with zero counters: every weakly fair execution of @main terminates, nothing
    faulting, and every final state holds the result array at the last valuation's contents and every argument as
    launched. -/
theorem run_named : θ_run defs (onTc (τ := τ) (main (F := F))) ⟨m, fun _ => 0, ρ⟩ (fun r => ∀ c : Dev nD,
      r.2.mem ((c.tc : Thread nD τ).loc main_v10) = V10 m (outsK m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ 𝒱₀ L lv m ρ main
    (segs m (outsK m) 𝒱₀ L lv (fun _ => R) () (pdats m) (reg0 m) (reg1 m))
    (fun c Q => by
      rewrite [main_chain c, Pipeline.Seg.run_eq_chain,
        show (segs m (outsK m) 𝒱₀ L lv (fun _ => R) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outsK m) c))
    (hch := fun c => ⟨.rfl, .rfl, .rfl, .rfl, .rfl, .rfl, .rfl, .rfl, .rfl, .rfl, .rfl⟩)
    (hinit := ?_)
    (QY := fun c s => ∀ b ∈ Pipeline.ucRefs τ sig, s.mem (((c : Thread nD τ)).1, b) = V10 m (outsK m) c b)
    (hfin := fun c s' => ?_)
    (hQ := fun s h c =>
      ⟨h c _ (mem_uc main_v10 (by decide)),
       (h c _ (mem_uc main_arg0 (by decide))).trans (V10_main_arg0 m (outsK m) c),
       (h c _ (mem_uc main_arg1 (by decide))).trans (V10_main_arg1 m (outsK m) c),
       (h c _ (mem_uc main_arg2 (by decide))).trans (V10_main_arg2 m (outsK m) c)⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · iintro ⟨Hh, HSI⟩
    unfold StableHlo.held
    imodintro
    iapply (pointsTo_read_all (Pipeline.ucRefs τ sig) (fun b => (((c : Thread nD τ)).1, b)) (V10 m (outsK m) c) s')
    isplitl [Hh] <;> iassumption

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Hand

end
-- ==== Proof.KI.Val0Pay.lean ====
/-
  The gather stage's arithmetic at one entry, at the exact values.  The body forms, for node tile n, the block whose
  row k and column e hold 1 where the tile's source word e is the number of node k + 1024 n and 0 elsewhere, multiplies
  the table block by it and adds the product to the accumulator.  Read at feature d and edge e this is the accumulator's
  entry plus the sum, over the tile's 1024 nodes, of the table entry times that indicator.  The zero block reads 0
  everywhere and the narrowing to the message format changes nothing.  Last, a fact about sums alone: summing over the
  100 node tiles the sums over each tile's 1024 nodes is summing over all 102400 nodes.
-/
import proofs.«415224_j21672404975784_2_alg».proof.Proof.Gen.KernelIdeal.Skeleton
import Mathlib.Algebra.BigOperators.Fin
import Mathlib.Logic.Equiv.Fin.Basic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.SL.Sem

/-! ## The product's operand indices, axis by axis -/

theorem g0_lhs_ax0 (j : S32x4096.Idx) (k : dot_S32x1024_S1024x4096_S32x4096_1_0_0_1_n_n.contr.Idx) :
    (dot_S32x1024_S1024x4096_S32x4096_1_0_0_1_n_n.lhsIdx j k 0).val = (j 0).val := by
  simp [DotDims.lhsIdx, dot_S32x1024_S1024x4096_S32x4096_1_0_0_1_n_n]
  rfl

theorem g0_lhs_ax1 (j : S32x4096.Idx) (k : dot_S32x1024_S1024x4096_S32x4096_1_0_0_1_n_n.contr.Idx) :
    (dot_S32x1024_S1024x4096_S32x4096_1_0_0_1_n_n.lhsIdx j k 1).val = (k ⟨0, by decide⟩).val :=
  DotDims.lhsIdx_val_of_single _ rfl j k

theorem g0_rhs_ax0 (j : S32x4096.Idx) (k : dot_S32x1024_S1024x4096_S32x4096_1_0_0_1_n_n.contr.Idx) :
    (dot_S32x1024_S1024x4096_S32x4096_1_0_0_1_n_n.rhsIdx j k 0).val = (k ⟨0, by decide⟩).val :=
  DotDims.rhsIdx_val_of_single _ rfl j k

theorem g0_rhs_ax1 (j : S32x4096.Idx) (k : dot_S32x1024_S1024x4096_S32x4096_1_0_0_1_n_n.contr.Idx) :
    (dot_S32x1024_S1024x4096_S32x4096_1_0_0_1_n_n.rhsIdx j k 1).val = (j 1).val := by
  simp [DotDims.rhsIdx, dot_S32x1024_S1024x4096_S32x4096_1_0_0_1_n_n]
  rfl

/-! ## The indicator entry -/

/-- The word "node number k of node tile n": the tile's offset added to the position inside the tile, all below 2³². -/
theorem g0_node_word (n k : ℕ) :
    IntOp.addi (BitVec.ofNat 32 k) (Scalar.muli (BitVec.ofNat 32 n) 1024#32) = BitVec.ofNat 32 (k + 1024 * n) := by
  show BitVec.ofNat 32 k + BitVec.ofNat 32 n * BitVec.ofNat 32 1024 = _
  rw [← BitVec.ofNat_mul, ← BitVec.ofNat_add, Nat.mul_comm n 1024]

/-- The comparison of two words, widened and converted, is 1 where they are equal and 0 elsewhere. -/
theorem g0_eq_word (u v : BitVec 32) :
    (FloatOps.sitofp (F := Ideal) .f32 ((IntOp.cmpi .eq u v).setWidth 32) : EReal) = if v = u then (1 : EReal) else 0 := by
  show (((((BitVec.ofBool (u == v)).setWidth 32).toInt : ℤ) : ℝ) : EReal) = _
  by_cases h : v = u
  · subst h
    rw [if_pos rfl, beq_self_eq_true]
    show ((((1#32 : BitVec 32).toInt : ℤ) : ℝ) : EReal) = 1
    norm_num
  · have h' : (u == v) = false := by
      rw [beq_eq_false_iff_ne]; exact fun e => h e.symm
    rw [if_neg h, h']
    show ((((0#32 : BitVec 32).toInt : ℤ) : ℝ) : EReal) = 0
    norm_num

/-- One entry of the indicator block of node tile n against the tile's source words: row k is node k + 1024 n, column e
    an edge of the tile; the entry is 1 where the edge's source word is that node's number. -/
theorem g0_onehot_apply (n : ℕ) (x0 : Vec Ideal S1x4096 .i32) (k : Fin 1024) (e : Fin 4096) :
    (truncf .bf16 (sitofp (F := Ideal) .f32 (extui 32 (cmpi .eq
        (broadcastTo S1024x4096 (addi (iota .tc S1024x1 32 [0] iota_S1024x1_d0_w32) (broadcast S1024x1 (Scalar.muli (BitVec.ofNat 32 n) 1024#32))) broadcasts_S1024x1_S1024x4096)
        (broadcastTo S1024x4096 x0 broadcasts_S1x4096_S1024x4096)) natLt_1_32)) bitsLt_bf16_f32 : FVec Ideal S1024x4096 .bf16) (ix2 k e)
      = if x0 (ix2 (0 : Fin 1) e) = BitVec.ofNat 32 (k.val + 1024 * n) then (1 : EReal) else 0 := by
  have e1 := broadcastTo_apply (addi (iota .tc S1024x1 32 [0] iota_S1024x1_d0_w32) (broadcast S1024x1 (Scalar.muli (BitVec.ofNat 32 n) 1024#32))) broadcasts_S1024x1_S1024x4096 (ix2 k e) (ix2 k (0 : Fin 1)) (by
    intro a
    match a with
    | ⟨0, _⟩ => rfl
    | ⟨1, _⟩ => rfl)
  have e2 := broadcastTo_apply x0 broadcasts_S1x4096_S1024x4096 (ix2 k e) (ix2 (0 : Fin 1) e) (by
    intro a
    match a with
    | ⟨0, _⟩ => rfl
    | ⟨1, _⟩ => rfl)
  show FloatOps.sitofp (F := Ideal) .f32 ((IntOp.cmpi .eq
      (broadcastTo S1024x4096 (addi (iota .tc S1024x1 32 [0] iota_S1024x1_d0_w32) (broadcast S1024x1 (Scalar.muli (BitVec.ofNat 32 n) 1024#32))) broadcasts_S1024x1_S1024x4096 (ix2 k e))
      (broadcastTo S1024x4096 x0 broadcasts_S1x4096_S1024x4096 (ix2 k e))).setWidth 32) = _
  rw [e1, e2]
  show FloatOps.sitofp (F := Ideal) .f32 ((IntOp.cmpi .eq
      (IntOp.addi (iota .tc S1024x1 32 [0] iota_S1024x1_d0_w32 (ix2 k (0 : Fin 1))) (Scalar.muli (BitVec.ofNat 32 n) 1024#32))
      (x0 (ix2 (0 : Fin 1) e))).setWidth 32) = _
  rw [iota_single_apply]
  show FloatOps.sitofp (F := Ideal) .f32 ((IntOp.cmpi .eq
      (IntOp.addi (BitVec.ofNat 32 k.val) (Scalar.muli (BitVec.ofNat 32 n) 1024#32))
      (x0 (ix2 (0 : Fin 1) e))).setWidth 32) = _
  rw [g0_node_word, g0_eq_word]

/-- The tile product at one entry, at the exact values: what the accumulator held there plus, over the tile's 1024
    nodes, the table entry times the indicator that the edge's source word is the node's number. -/
theorem g0_pay2_apply (i : grid0.Coords) (x0 : Vec Ideal S1x4096 .i32) (a : Vec Ideal S32x4096 .f32) (x1 : Vec Ideal S32x1024 .bf16)
    (d : Fin 32) (e : Fin 4096) :
    k0_pay2 (F := Ideal) i x0 a x1 (ix2 d e)
      = a (ix2 d e) + ∑ k : Fin 1024, x1 (ix2 d k) * (if x0 (ix2 (0 : Fin 1) e) = BitVec.ofNat 32 (k.val + 1024 * (i 1).val) then (1 : EReal) else 0) := by
  unfold k0_pay2
  simp only [shapeCast_self]
  refine congrArg (a (ix2 d e) + ·) ?_
  refine (Ideal.matmul_constant_zero_apply dot_S32x1024_S1024x4096_S32x4096_1_0_0_1_n_n none x1 _ (ix2 d e)).trans ?_
  refine (Equiv.sum_comp (contrEquiv1 dot_S32x1024_S1024x4096_S32x4096_1_0_0_1_n_n 1024 rfl rfl).symm _).symm.trans ?_
  refine Finset.sum_congr rfl fun k _ => ?_
  have hl : dot_S32x1024_S1024x4096_S32x4096_1_0_0_1_n_n.lhsIdx (ix2 d e)
      ((contrEquiv1 dot_S32x1024_S1024x4096_S32x4096_1_0_0_1_n_n 1024 rfl rfl).symm k) = ix2 d k := by
    funext ax
    apply Fin.ext
    match ax with
    | ⟨0, _⟩ => exact g0_lhs_ax0 _ _
    | ⟨1, _⟩ => exact (g0_lhs_ax1 _ _).trans (contrEquiv1_symm_val _ 1024 rfl rfl k)
  have hr : dot_S32x1024_S1024x4096_S32x4096_1_0_0_1_n_n.rhsIdx (ix2 d e)
      ((contrEquiv1 dot_S32x1024_S1024x4096_S32x4096_1_0_0_1_n_n 1024 rfl rfl).symm k) = ix2 k e := by
    funext ax
    apply Fin.ext
    match ax with
    | ⟨0, _⟩ => exact (g0_rhs_ax0 _ _).trans (contrEquiv1_symm_val _ 1024 rfl rfl k)
    | ⟨1, _⟩ => exact g0_rhs_ax1 _ _
  rw [hl, hr]
  exact congrArg (x1 (ix2 d k) * ·) (g0_onehot_apply (i 1).val x0 k e)

/-- The zero block reads 0 at every entry. -/
theorem g0_pay1_apply (j : S32x4096.Idx) : (k0_pay1 (F := Ideal)) j = 0 := by
  unfold k0_pay1
  simp only [shapeCast_self]
  show Ideal.ofBits .f32 0x00000000#32 = 0
  exact Ideal.ofBits_zero_f32

/-- Narrowing the accumulator to the message format keeps every entry. -/
theorem g0_pay3_apply (v : Vec Ideal S32x4096 .f32) (j : S32x4096.Idx) : k0_pay3 (F := Ideal) v j = v j := rfl

/-! ## Tiles of nodes -/

/-- A sum over the 100 node tiles of the sums over each tile's 1024 nodes is the sum over all 102400 nodes, node k of
    tile s being node k + 1024 s. -/
theorem g0_sum_tiles {M : Type*} [AddCommMonoid M] (f : ℕ → M) :
    ∑ s ∈ Finset.range 100, ∑ k : Fin 1024, f (k.val + 1024 * s) = ∑ n : Fin 102400, f n.val := by
  rw [Finset.sum_range]
  have h := Equiv.sum_comp (finProdFinEquiv (m := 100) (n := 1024)) (fun n : Fin (100 * 1024) => f n.val)
  rw [Fintype.sum_prod_type] at h
  exact h

end Cert.KernelIdeal.Hand

end
-- ==== Proof.Forms.lean ====
/-
  The arrays the kernel's program passes between its stages, as functions of the arguments.
  The source and destination words are padded to 1601536 entries with the word -1, laid out as a row and as a
  column; the feature table is transposed (features on the rows) and padded with zeros to 102400 node columns.
  The first stage's message array has, at feature d and edge e, the padded table's row d summed against the
  indicator "the edge's source word is the node number"; the second stage's array has, at feature d and node v,
  the message row d summed against the indicator "the edge's destination word is the node number".  The program's
  result is the second array transposed and cut to the first 100000 nodes.
-/
import Idealize.ShloMosaic.PureOps.Ideal
import Idealize.ShloMosaic.Lib.ValueIdx

noncomputable section

namespace Cert.Gcn.Forms

open Idealize.ShloMosaic Idealize.ShloMosaic.ValueIdx

/-- The source words as the [1 × 1601536] row the first stage reads: the argument's words, then -1. -/
def padRow (s : (⟨1, ![1600000]⟩ : Shape).Idx → BitVec 32) : (⟨2, ![1, 1601536]⟩ : Shape).Idx → BitVec 32 :=
  fun i => if h : (i 1).val < 1600000 then s (ix1 ⟨(i 1).val, h⟩) else 4294967295#32

/-- The destination words as the [1601536 × 1] column the second stage reads: the argument's words, then -1. -/
def padCol (d : (⟨1, ![1600000]⟩ : Shape).Idx → BitVec 32) : (⟨2, ![1601536, 1]⟩ : Shape).Idx → BitVec 32 :=
  fun i => if h : (i 0).val < 1600000 then d (ix1 ⟨(i 0).val, h⟩) else 4294967295#32

/-- The feature table transposed and padded with zero columns to 102400 nodes. -/
def padFeat (x : (⟨2, ![100000, 32]⟩ : Shape).Idx → EReal) : (⟨2, ![32, 102400]⟩ : Shape).Idx → EReal :=
  fun i => if h : (i 1).val < 100000 then x (ix2 ⟨(i 1).val, h⟩ (i 0)) else 0

/-- The message array: at (d, e), row d of the table summed against "edge e's source word is node n". -/
def msgT (src : (⟨2, ![1, 1601536]⟩ : Shape).Idx → BitVec 32) (feat : (⟨2, ![32, 102400]⟩ : Shape).Idx → EReal) :
    (⟨2, ![32, 1601536]⟩ : Shape).Idx → EReal :=
  fun i => ∑ n : Fin 102400, feat (ix2 (i 0) n) * (if src (ix2 (0 : Fin 1) (i 1)) = BitVec.ofNat 32 n.val then (1 : EReal) else 0)

/-- The node array: at (d, v), row d of the messages summed against "edge e's destination word is node v". -/
def nodeT (dst : (⟨2, ![1601536, 1]⟩ : Shape).Idx → BitVec 32) (msg : (⟨2, ![32, 1601536]⟩ : Shape).Idx → EReal) :
    (⟨2, ![32, 102400]⟩ : Shape).Idx → EReal :=
  fun i => ∑ e : Fin 1601536, msg (ix2 (i 0) e) * (if dst (ix2 e (0 : Fin 1)) = BitVec.ofNat 32 (i 1).val then (1 : EReal) else 0)

/-- The program's result: the node array transposed, its first 100000 rows. -/
def result (h : (⟨2, ![32, 102400]⟩ : Shape).Idx → EReal) : (⟨2, ![100000, 32]⟩ : Shape).Idx → EReal :=
  fun i => h (ix2 (i 1) ⟨(i 0).val, by have := (i 0).isLt; simp only [Matrix.cons_val_zero] at this; omega⟩)

end Cert.Gcn.Forms

end
-- ==== Proof.KI.Val0.lean ====
/-
  What the gather region leaves in its result array at the ideal instance, as one function of the arrays it reads:
  the message array of the padded feature table and the row of source words.

  The grid runs over 391 edge tiles of 4096 edges, and inside each over 100 node tiles of 1024 nodes.  At each point the
  body adds to its accumulator, at feature d and edge e of the tile, the sum over the node tile's nodes of the table
  entry times the indicator that the edge's source word is the node's number; node tile 0 starts from zero.  So after
  node tile j the accumulator holds the terms of the nodes of tiles 0 … j (induction on the point), and after node tile
  99, where the message window is written back, those of all 102400 nodes: the message array's entry.  Each block the
  body reads is its array at block index times block size plus the coordinate inside the block, and every column of the
  message array lies in the block written back at node tile 99 of its edge tile; hence the array after the last point.
-/
import proofs.«415224_j21672404975784_2_alg».proof.Proof.KI.Def0
import proofs.«415224_j21672404975784_2_alg».proof.Proof.KI.Val0Pay
import proofs.«415224_j21672404975784_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (c : Dev nD) (W : (b : Ref sig .tc) → Buf (Elt Ideal) ((c : Thread nD τ).loc b))

/-! ## The two arrays the region reads -/

/-- The row of source words as the region finds it. -/
abbrev g0_src : (⟨2, ![1, 1601536]⟩ : Shape).Idx → BitVec 32 := W main_v5
/-- The padded feature table as the region finds it. -/
abbrev g0_feat : (⟨2, ![32, 102400]⟩ : Shape).Idx → EReal := W main_v2

/-- Source word number m of the row (any word past the row's end, where nothing reads it). -/
def g0_srcAt (m : ℕ) : BitVec 32 := if h : m < 1601536 then g0_src c W (ix2 (0 : Fin 1) ⟨m, h⟩) else 0#32
/-- Row d of the table at node n (0 past the table's last column, where nothing reads it). -/
def g0_featAt (d : Fin 32) (n : ℕ) : EReal := if h : n < 102400 then g0_feat c W (ix2 d ⟨n, h⟩) else 0
/-- One term of a message entry: the table's entry at node n times the indicator that the word w is n's number. -/
def g0_term (d : Fin 32) (w : BitVec 32) (n : ℕ) : EReal :=
  g0_featAt c W d n * (if w = BitVec.ofNat 32 n then (1 : EReal) else 0)

/-! ## The input blocks, read where the arrays say -/

/-- The source-word window's block index at point t: block column t / 100. -/
theorem g0_index_0 (t : Fin cfg0.N) : (cfg0.win 0).index t = ![0, t.val / 100] := by
  show cc0_transform_0 (grid0.coords t) = _
  unfold cc0_transform_0
  have h := coord0_e t
  have ht : t.val < 39100 := lt_of_lt_of_eq t.isLt N0
  have hlt : t.val / 100 < 2 ^ 32 := by omega
  funext a
  match a with
  | ⟨0, _⟩ => rfl
  | ⟨1, _⟩ => show (BitVec.ofNat 32 ((grid0.coords t) 0).val).toNat = t.val / 100
              rw [h, BitVec.toNat_ofNat, Nat.mod_eq_of_lt hlt]

/-- The table window's block index at point t: block column t % 100. -/
theorem g0_index_1 (t : Fin cfg0.N) : (cfg0.win 1).index t = ![0, t.val % 100] := by
  show cc0_transform_1 (grid0.coords t) = _
  unfold cc0_transform_1
  have h := coord0_n t
  have hlt : t.val % 100 < 2 ^ 32 := by omega
  funext a
  match a with
  | ⟨0, _⟩ => rfl
  | ⟨1, _⟩ => show (BitVec.ofNat 32 ((grid0.coords t) 1).val).toNat = t.val % 100
              rw [h, BitVec.toNat_ofNat, Nat.mod_eq_of_lt hlt]

/-- Edge e of the source-word block at point t is word 4096 (t / 100) + e of the row. -/
theorem g0_src_blk (t : Fin cfg0.N) (e : Fin 4096) :
    (iblk0 (F := Ideal) c W 0 t : Vec Ideal S1x4096 .i32) (ix2 (0 : Fin 1) e) = g0_srcAt c W (4096 * (t.val / 100) + e.val) := by
  have ht : t.val < 39100 := lt_of_lt_of_eq t.isLt N0
  have hb : 4096 * (t.val / 100) + e.val < 1601536 := by omega
  have h0 : win0_0.index t 0 = 0 := congrFun (g0_index_0 t) 0
  have h1 : win0_0.index t 1 = t.val / 100 := congrFun (g0_index_0 t) 1
  unfold g0_srcAt
  rw [dif_pos hb]
  unfold iblk0
  rw [View.read_apply]
  show (W main_v5 : S1x1601536.Idx → BitVec 32) (((cfg0.win 0).blk t).view.emb (ix2 (0 : Fin 1) e))
    = W main_v5 (ix2 (0 : Fin 1) (⟨4096 * (t.val / 100) + e.val, hb⟩ : Fin 1601536))
  refine congrArg (W main_v5) (funext fun a => Fin.ext ?_)
  match a with
  | ⟨0, _⟩ => show win0_0.index t 0 * 1 + 1 * 0 = 0; rw [h0]
  | ⟨1, _⟩ => show win0_0.index t 1 * 4096 + 1 * e.val = 4096 * (t.val / 100) + e.val; rw [h1]; omega

/-- Node k of the table block at point t is node k + 1024 (t % 100) of the table. -/
theorem g0_feat_blk (t : Fin cfg0.N) (d : Fin 32) (k : Fin 1024) :
    (iblk0 (F := Ideal) c W 1 t : Vec Ideal S32x1024 .bf16) (ix2 d k) = g0_featAt c W d (k.val + 1024 * (t.val % 100)) := by
  have hb : k.val + 1024 * (t.val % 100) < 102400 := by omega
  have h0 : win0_1.index t 0 = 0 := congrFun (g0_index_1 t) 0
  have h1 : win0_1.index t 1 = t.val % 100 := congrFun (g0_index_1 t) 1
  unfold g0_featAt
  rw [dif_pos hb]
  unfold iblk0
  rw [View.read_apply]
  show (W main_v2 : S32x102400.Idx → EReal) (((cfg0.win 1).blk t).view.emb (ix2 d k))
    = W main_v2 (ix2 d (⟨k.val + 1024 * (t.val % 100), hb⟩ : Fin 102400))
  refine congrArg (W main_v2) (funext fun a => Fin.ext ?_)
  match a with
  | ⟨0, _⟩ => show win0_1.index t 0 * 32 + 1 * d.val = d.val; rw [h0]; omega
  | ⟨1, _⟩ => show win0_1.index t 1 * 1024 + 1 * k.val = k.val + 1024 * (t.val % 100); rw [h1]; omega

/-! ## The accumulator, point by point -/

/-- What point t's body leaves at (d, e), over whatever accumulator A it found: A's entry plus node tile t % 100's terms
    for the edge's source word. -/
theorem g0_tile (t : Fin cfg0.N) (A : Vec Ideal S32x4096 .f32) (d : Fin 32) (e : Fin 4096) :
    k0_pay2 (F := Ideal) (grid0.coords t) (iblk0 c W 0 t) A (iblk0 c W 1 t) (ix2 d e)
      = A (ix2 d e) + ∑ k : Fin 1024, g0_term c W d (g0_srcAt c W (4096 * (t.val / 100) + e.val)) (k.val + 1024 * (t.val % 100)) := by
  refine (g0_pay2_apply (grid0.coords t) (iblk0 c W 0 t) A (iblk0 c W 1 t) d e).trans ?_
  refine congrArg (A (ix2 d e) + ·) (Finset.sum_congr rfl fun k _ => ?_)
  rw [coord0_n t, g0_src_blk c W t e, g0_feat_blk c W t d k]
  rfl

/-- THE ACCUMULATOR IN CLOSED FORM: after point n (edge tile n / 100, node tile n % 100) its entry (d, e) is the sum,
    over the node tiles 0 … n % 100 met since the last reset, of each tile's terms for the edge's source word. By
    induction on the point: node tile 0 starts from the zero block, every other adds its terms to what the point before
    left, which belongs to the same edge tile. -/
theorem g0_acc_eq (d : Fin 32) (e : Fin 4096) : ∀ (n : ℕ) (h : n < cfg0.N),
    acc0 (F := Ideal) c W n h (ix2 d e)
      = ∑ s ∈ Finset.range (n % 100 + 1), ∑ k : Fin 1024,
          g0_term c W d (g0_srcAt c W (4096 * (n / 100) + e.val)) (k.val + 1024 * s)
  | 0, h => by
    show k0_pay2 (F := Ideal) (grid0.coords ⟨0, h⟩) (iblk0 c W 0 ⟨0, h⟩) (k0_pay1 (F := Ideal)) (iblk0 c W 1 ⟨0, h⟩) (ix2 d e) = _
    refine (g0_tile c W ⟨0, h⟩ (k0_pay1 (F := Ideal)) d e).trans ?_
    rw [g0_pay1_apply, zero_add]
    exact (Finset.sum_range_one (fun s => ∑ k : Fin 1024,
      g0_term c W d (g0_srcAt c W (4096 * (0 / 100) + e.val)) (k.val + 1024 * s))).symm
  | n + 1, h => by
    show k0_pay2 (F := Ideal) (grid0.coords ⟨n + 1, h⟩) (iblk0 c W 0 ⟨n + 1, h⟩)
      (if (n + 1) % 100 = 0 then k0_pay1 (F := Ideal) else acc0 c W n (Nat.lt_of_succ_lt h)) (iblk0 c W 1 ⟨n + 1, h⟩) (ix2 d e) = _
    refine (g0_tile c W ⟨n + 1, h⟩ _ d e).trans ?_
    show (if (n + 1) % 100 = 0 then k0_pay1 (F := Ideal) else acc0 c W n (Nat.lt_of_succ_lt h)) (ix2 d e)
        + ∑ k : Fin 1024, g0_term c W d (g0_srcAt c W (4096 * ((n + 1) / 100) + e.val)) (k.val + 1024 * ((n + 1) % 100)) = _
    by_cases hr : (n + 1) % 100 = 0
    · rw [if_pos hr, g0_pay1_apply, zero_add, hr]
      exact (Finset.sum_range_one (fun s => ∑ k : Fin 1024,
        g0_term c W d (g0_srcAt c W (4096 * ((n + 1) / 100) + e.val)) (k.val + 1024 * s))).symm
    · rw [if_neg hr, g0_acc_eq d e n (Nat.lt_of_succ_lt h)]
      have h1 : (n + 1) / 100 = n / 100 := by omega
      have h2 : (n + 1) % 100 = n % 100 + 1 := by omega
      rw [h1, h2, Finset.sum_range_succ _ (n % 100 + 1)]

/-! ## From the blocks to the array -/

/-- The message window's block at point t, read off any contents G of the message array: entry (d, e) of the block is
    entry (d, 4096 (t / 100) + e) of the array. -/
theorem g0_msg_blk (G : S32x1601536.Idx → EReal) (t : Fin cfg0.N) (d : Fin 32) (e : Fin 4096)
    (hb : 4096 * (t.val / 100) + e.val < 1601536) :
    ((cfg0.win 2).blk t).view.read (Elt Ideal) G (ix2 d e) = G (ix2 d (⟨4096 * (t.val / 100) + e.val, hb⟩ : Fin 1601536)) := by
  rw [View.read_apply]
  show G (((cfg0.win 2).blk t).view.emb (ix2 d e)) = G (ix2 d (⟨4096 * (t.val / 100) + e.val, hb⟩ : Fin 1601536))
  refine congrArg G (funext fun a => Fin.ext ?_)
  match a with
  | ⟨0, _⟩ => show win0_2.index t 0 * 32 + 1 * d.val = d.val
              rw [show win0_2.index t 0 = 0 from congrFun (index0_2 t) 0]; omega
  | ⟨1, _⟩ => show win0_2.index t 1 * 4096 + 1 * e.val = 4096 * (t.val / 100) + e.val
              rw [show win0_2.index t 1 = t.val / 100 from congrFun (index0_2 t) 1]; omega

/-- The message array at feature d and edge E, written out. -/
theorem g0_msgT_apply (src : (⟨2, ![1, 1601536]⟩ : Shape).Idx → BitVec 32) (feat : (⟨2, ![32, 102400]⟩ : Shape).Idx → EReal)
    (d : Fin 32) (E : Fin 1601536) :
    Cert.Gcn.Forms.msgT src feat (ix2 d E)
      = ∑ n : Fin 102400, feat (ix2 d n) * (if src (ix2 (0 : Fin 1) E) = BitVec.ofNat 32 n.val then (1 : EReal) else 0) := rfl

/-- WHAT A FLUSHING POINT WRITES BACK is its block of the message array: at node tile 99 the accumulator has met all
    100 node tiles of its edge tile, and their terms together are the sum over all 102400 nodes. -/
theorem g0_flushed (t : Fin cfg0.N) (hf : (cfg0.win 2).flush t = true) :
    (dat0 (F := Ideal) c W).flushed 2 t
      = ((cfg0.win 2).blk t).view.read (Elt Ideal) (Cert.Gcn.Forms.msgT (g0_src c W) (g0_feat c W)) := by
  have h99 : t.val % 100 = 99 := (flush0_2 t).mp hf
  have ht : t.val < 39100 := lt_of_lt_of_eq t.isLt N0
  show (cfg0.win 2).cut (grid0.coords t) ((dat0 (F := Ideal) c W).after 2 t) = _
  rw [after0_2]
  funext y
  obtain ⟨d, e, rfl⟩ : ∃ (d : Fin 32) (e : Fin 4096), y = ix2 d e := ⟨y 0, y 1, eq_ix2 y⟩
  have hb : 4096 * (t.val / 100) + e.val < 1601536 := by omega
  refine Eq.trans ?_ (g0_msg_blk (Cert.Gcn.Forms.msgT (g0_src c W) (g0_feat c W)) t d e hb).symm
  show k0_pay3 (F := Ideal) (acc0 c W t.val t.isLt) (ix2 d e) = _
  rw [g0_msgT_apply, g0_pay3_apply, g0_acc_eq c W d e t.val t.isLt, h99]
  refine (g0_sum_tiles (fun n => g0_term c W d (g0_srcAt c W (4096 * (t.val / 100) + e.val)) n)).trans ?_
  refine Finset.sum_congr rfl fun n _ => ?_
  unfold g0_term g0_featAt g0_srcAt
  rw [dif_pos n.isLt, dif_pos hb]

/-- Every entry of the message array lies in the block some flushing point writes back: column E in that of node tile
    99 of edge tile E / 4096. -/
theorem g0_cover (i : S32x1601536.Idx) :
    ∃ t : Fin cfg0.N, (cfg0.win 2).flush t = true ∧ i ∈ ((cfg0.win 2).blk t).view.set := by
  have hi0 : (i 0).val < 32 := (i 0).isLt
  have hi1 : (i 1).val < 1601536 := (i 1).isLt
  have hN : cfg0.N = 39100 := N0
  have hlt : 100 * ((i 1).val / 4096) + 99 < cfg0.N := by rw [hN]; omega
  refine ⟨⟨100 * ((i 1).val / 4096) + 99, hlt⟩, (flush0_2 _).mpr (by show (100 * ((i 1).val / 4096) + 99) % 100 = 99; omega), ?_⟩
  have e0 : win0_2.index ⟨100 * ((i 1).val / 4096) + 99, hlt⟩ 0 = 0 := congrFun (index0_2 _) 0
  have e1 : win0_2.index ⟨100 * ((i 1).val / 4096) + 99, hlt⟩ 1 = (100 * ((i 1).val / 4096) + 99) / 100 := congrFun (index0_2 _) 1
  show i ∈ ((View.whole main_v7).slice (win0_2.rect ⟨100 * ((i 1).val / 4096) + 99, hlt⟩)).set
  rw [View.set_slice_whole, Rect.mem_set_unit]
  intro a
  match a with
  | ⟨0, _⟩ => show win0_2.index ⟨100 * ((i 1).val / 4096) + 99, hlt⟩ 0 * 32 ≤ (i 0).val
                ∧ (i 0).val < win0_2.index ⟨100 * ((i 1).val / 4096) + 99, hlt⟩ 0 * 32 + 32
              rw [e0]; omega
  | ⟨1, _⟩ => show win0_2.index ⟨100 * ((i 1).val / 4096) + 99, hlt⟩ 1 * 4096 ≤ (i 1).val
                ∧ (i 1).val < win0_2.index ⟨100 * ((i 1).val / 4096) + 99, hlt⟩ 1 * 4096 + 4096
              rw [e1]; omega

/-- After the region's last point its result array holds the message array of the arrays it found at its entry. -/
theorem arr0_final : (dat0 (F := Ideal) c W).arrAt 2 cfg0.N = Cert.Gcn.Forms.msgT (W main_v5) (W main_v2) :=
  (dat0 (F := Ideal) c W).arrAt_eq_of_cover 2 (Cert.Gcn.Forms.msgT (g0_src c W) (g0_feat c W)) (g0_flushed c W) g0_cover

end Cert.KernelIdeal.Hand

end
-- ==== Proof.KI.Val1Pay.lean ====
/-
  The scatter stage's tile product read at one entry, at the exact values: the accumulator there plus, over the
  1024 edges of the tile, the message entry times the indicator "the edge's destination word is this node's number".
-/
import proofs.«415224_j21672404975784_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-- A 0/1 word made from the comparison of two words, converted to a number, is the indicator of their equality. -/
theorem g1_indicator_word (a b : BitVec 32) :
    (FloatOps.sitofp (F := Ideal) .f32 ((IntOp.cmpi .eq a b).setWidth 32) : EReal) = if a = b then (1 : EReal) else 0 := by
  by_cases h : a = b
  · rw [if_pos h]
    subst h
    have : IntOp.cmpi .eq a a = 1#1 := by simp [IntOp.cmpi]
    rw [this]
    show (((BitVec.setWidth 32 1#1).toInt : ℝ) : EReal) = 1
    have : (BitVec.setWidth 32 1#1).toInt = 1 := by decide
    rw [this]; simp
  · rw [if_neg h]
    have : IntOp.cmpi .eq a b = 0#1 := by
      show BitVec.ofBool (a == b) = 0#1
      rw [beq_eq_false_iff_ne.mpr h]; rfl
    rw [this]
    show (((BitVec.setWidth 32 0#1).toInt : ℝ) : EReal) = 0
    have : (BitVec.setWidth 32 0#1).toInt = 0 := by decide
    rw [this]; simp

/-! ## The product's operand indices, axis by axis -/

theorem g1_lhs_0 (i : S32x4096.Idx) (q : dot_S32x1024_S1024x4096_S32x4096_1_0_0_1_n_n.contr.Idx) :
    (dot_S32x1024_S1024x4096_S32x4096_1_0_0_1_n_n.lhsIdx i q 0).val = (i 0).val := by
  unfold DotDims.lhsIdx
  rw [dif_neg (show ¬(0 : Fin S32x1024.rank) ∈ dot_S32x1024_S1024x4096_S32x4096_1_0_0_1_n_n.lhsBatch by decide), dif_pos (show (0 : Fin S32x1024.rank) ∈ dot_S32x1024_S1024x4096_S32x4096_1_0_0_1_n_n.lhsNonContracting by decide)]
  rfl
theorem g1_lhs_1 (i : S32x4096.Idx) (q : dot_S32x1024_S1024x4096_S32x4096_1_0_0_1_n_n.contr.Idx) :
    (dot_S32x1024_S1024x4096_S32x4096_1_0_0_1_n_n.lhsIdx i q 1).val = (q ⟨0, by decide⟩).val :=
  dot_S32x1024_S1024x4096_S32x4096_1_0_0_1_n_n.lhsIdx_val_of_single rfl i q
theorem g1_rhs_0 (i : S32x4096.Idx) (q : dot_S32x1024_S1024x4096_S32x4096_1_0_0_1_n_n.contr.Idx) :
    (dot_S32x1024_S1024x4096_S32x4096_1_0_0_1_n_n.rhsIdx i q 0).val = (q ⟨0, by decide⟩).val :=
  dot_S32x1024_S1024x4096_S32x4096_1_0_0_1_n_n.rhsIdx_val_of_single rfl i q
theorem g1_rhs_1 (i : S32x4096.Idx) (q : dot_S32x1024_S1024x4096_S32x4096_1_0_0_1_n_n.contr.Idx) :
    (dot_S32x1024_S1024x4096_S32x4096_1_0_0_1_n_n.rhsIdx i q 1).val = (i 1).val := by
  unfold DotDims.rhsIdx
  rw [dif_neg (show ¬(1 : Fin S1024x4096.rank) ∈ dot_S32x1024_S1024x4096_S32x4096_1_0_0_1_n_n.rhsBatch by decide), dif_pos (show (1 : Fin S1024x4096.rank) ∈ dot_S32x1024_S1024x4096_S32x4096_1_0_0_1_n_n.rhsNonContracting by decide)]
  rfl

/-- The tile product into the zero block, at (d, e): row d of the left operand against column e of the right. -/
theorem g1_prod_apply (l : FVec Ideal S32x1024 .bf16) (r : FVec Ideal S1024x4096 .bf16) (d : Fin 32) (e : Fin 4096) :
    matmul dot_S32x1024_S1024x4096_S32x4096_1_0_0_1_n_n none l r (constant (F := Ideal) S32x4096 .f32 0x00000000#32) (ix2 d e)
      = ∑ k : Fin 1024, l (ix2 d k) * r (ix2 k e) := by
  simp only [matmul]
  rw [Ideal.matmul_constant_zero_apply, ← Equiv.sum_comp (contrEquiv1 dot_S32x1024_S1024x4096_S32x4096_1_0_0_1_n_n 1024 rfl rfl).symm]
  refine Finset.sum_congr rfl fun k _ => ?_
  have hk := contrEquiv1_symm_val dot_S32x1024_S1024x4096_S32x4096_1_0_0_1_n_n 1024 rfl rfl k
  have el : dot_S32x1024_S1024x4096_S32x4096_1_0_0_1_n_n.lhsIdx (ix2 d e) ((contrEquiv1 dot_S32x1024_S1024x4096_S32x4096_1_0_0_1_n_n 1024 rfl rfl).symm k) = ix2 d k := funext fun a => Fin.ext (by
    match a with
    | ⟨0, _⟩ => exact g1_lhs_0 _ _
    | ⟨1, _⟩ => exact (g1_lhs_1 _ _).trans hk)
  have er : dot_S32x1024_S1024x4096_S32x4096_1_0_0_1_n_n.rhsIdx (ix2 d e) ((contrEquiv1 dot_S32x1024_S1024x4096_S32x4096_1_0_0_1_n_n 1024 rfl rfl).symm k) = ix2 k e := funext fun a => Fin.ext (by
    match a with
    | ⟨0, _⟩ => exact (g1_rhs_0 _ _).trans hk
    | ⟨1, _⟩ => exact g1_rhs_1 _ _)
  rw [el, er]

/-- An `[a, 1]` column broadcast to `[a, b]` reads, at `(p, c)`, the operand's row `p`. -/
theorem g1_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The node number a tile's column stands for, as the kernel computes it in 32-bit words: the column's number plus
    4096 times the tile's. -/
theorem g1_node_word (e v : ℕ) :
    IntOp.addi (BitVec.ofNat 32 e) (Scalar.muli (BitVec.ofNat 32 v) 4096#32) = BitVec.ofNat 32 (e + 4096 * v) := by
  show BitVec.ofNat 32 e + BitVec.ofNat 32 v * 4096#32 = _
  rw [show (4096#32 : BitVec 32) = BitVec.ofNat 32 4096 from rfl, ← BitVec.ofNat_mul, ← BitVec.ofNat_add, Nat.mul_comm]

/-- The scatter stage's update at one entry: what the accumulator held there plus, over the tile's 1024 edges, the
    message entry times the indicator that the edge's destination word is the node's number. -/
theorem g1_pay2_apply (i : grid1.Coords) (x0 : Vec Ideal S1024x1 .i32) (a : Vec Ideal S32x4096 .f32) (x1 : Vec Ideal S32x1024 .bf16)
    (d : Fin 32) (e : Fin 4096) :
    k1_pay2 i x0 a x1 (ix2 d e)
      = a (ix2 d e) + ∑ k : Fin 1024, x1 (ix2 d k) * (if x0 (ix2 k (0 : Fin 1)) = BitVec.ofNat 32 (e.val + 4096 * (i 0).val) then (1 : EReal) else 0) := by
  unfold k1_pay2
  dsimp only
  refine (congrFun (shapeCast_self _ _) (ix2 d e)).trans ?_
  refine congrArg (a (ix2 d e) + ·) ?_
  refine (g1_prod_apply _ _ d e).trans ?_
  refine Finset.sum_congr rfl fun k _ => ?_
  have hl : shapeCast S32x1024 x1 shapeCasts_S32x1024_S32x1024 (ix2 d k) = x1 (ix2 d k) := congrFun (shapeCast_self _ _) _
  have h9 : broadcastTo S1024x4096 (shapeCast S1024x1 x0 shapeCasts_S1024x1_S1024x1) broadcasts_S1024x1_S1024x4096 (ix2 k e)
      = x0 (ix2 k (0 : Fin 1)) :=
    (g1_broadcastTo_a1_ab_apply _ _ k e).trans (congrFun (shapeCast_self _ _) _)
  have h10 : broadcastTo S1024x4096 (addi (iota Kind.tc S1x4096 32 [1] iota_S1x4096_d1_w32)
        (broadcast S1x4096 (Scalar.muli (BitVec.ofNat 32 (i 0).val) 4096#32))) broadcasts_S1x4096_S1024x4096 (ix2 k e)
      = BitVec.ofNat 32 (e.val + 4096 * (i 0).val) :=
    (broadcastTo_1b_ab_apply _ _ k e).trans (by
      show IntOp.addi (iota Kind.tc S1x4096 32 [1] iota_S1x4096_d1_w32 (ix2 (0 : Fin 1) e)) (Scalar.muli (BitVec.ofNat 32 (i 0).val) 4096#32) = _
      rw [iota_single_apply]
      exact g1_node_word e.val (i 0).val)
  rw [hl]
  refine congrArg (x1 (ix2 d k) * ·) ?_
  refine Eq.trans ?_ (g1_indicator_word (x0 (ix2 k (0 : Fin 1))) (BitVec.ofNat 32 (e.val + 4096 * (i 0).val)))
  rw [← h9, ← h10]
  rfl

/-- The block the accumulator is reset to is zero at every entry. -/
theorem g1_pay1_apply (j : S32x4096.Idx) : (k1_pay1 (F := Ideal)) j = 0 := by
  unfold k1_pay1
  refine (congrFun (shapeCast_self _ _) j).trans ?_
  show Ideal.ofBits .f32 0x00000000#32 = 0
  exact Ideal.ofBits_zero_f32

end Cert.KernelIdeal.Hand

end
-- ==== Proof.KI.Val1Sum.lean ====
/-
  A sum over the 1601536 edges, cut into 1564 tiles of 1024 consecutive edges.
-/
import Mathlib.Algebra.BigOperators.Fin
import Mathlib.Logic.Equiv.Fin.Basic

namespace Cert.Gcn.G1Tiles

open scoped BigOperators

/-- Edge `k` of tile `s` (the tile number taken below 1564). -/
def edgeOf (s : ℕ) (k : Fin 1024) : Fin 1601536 := ⟨1024 * (s % 1564) + k.val, by have := k.isLt; have := Nat.mod_lt s (show 0 < 1564 by omega); omega⟩

theorem edgeOf_val (s : ℕ) (k : Fin 1024) : (edgeOf s k).val = 1024 * (s % 1564) + k.val := rfl

/-- Summing tile by tile, and inside each tile edge by edge, is summing over all the edges. -/
theorem sum_tiles {M : Type*} [AddCommMonoid M] (f : Fin 1601536 → M) :
    ∑ s ∈ Finset.range 1564, ∑ k : Fin 1024, f (edgeOf s k) = ∑ e : Fin 1601536, f e := by
  have h : 1564 * 1024 = 1601536 := by decide
  rw [Finset.sum_range, ← Equiv.sum_comp (finProdFinEquiv.trans (finCongr h)) f, Fintype.sum_prod_type]
  refine Finset.sum_congr rfl fun j _ => Finset.sum_congr rfl fun k _ => congrArg f (Fin.ext ?_)
  have hj := j.isLt
  show 1024 * (j.val % 1564) + k.val = k.val + 1024 * j.val
  rw [Nat.mod_eq_of_lt hj]; omega

end Cert.Gcn.G1Tiles
-- ==== Proof.KI.Val1.lean ====
/-
  What the scatter region leaves in its result array at the ideal instance, as one function of the arrays it reads:
  the node array of the message array and the column of destination words.

  Point t of the region is node tile t / 1564 and edge tile t % 1564.  At each point the accumulator gains, at (d, e),
  the sum over the edge tile's 1024 edges of the message entry times the indicator "the edge's destination word is
  node 4096 (t / 1564) + e"; it starts from zero on edge tile 0, so after edge tile s it holds the shares of edge tiles
  0 … s (induction on s).  After edge tile 1563 these are all 1601536 edges, tile by tile, which is the node array's
  sum over the edges re-indexed as e = 1024 j + k.  The write-back there puts the accumulator at block column
  t / 1564 of the result, and every node column lies in exactly such a block.
-/
import proofs.«415224_j21672404975784_2_alg».proof.Proof.KI.Def1
import proofs.«415224_j21672404975784_2_alg».proof.Proof.Forms
import proofs.«415224_j21672404975784_2_alg».proof.Proof.KI.Val1Pay
import proofs.«415224_j21672404975784_2_alg».proof.Proof.KI.Val1Sum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn.G1Tiles (edgeOf edgeOf_val sum_tiles)

variable (c : Dev nD) (W : (b : Ref sig .tc) → Buf (Elt Ideal) ((c : Thread nD τ).loc b))

/-- The column of destination words and the message array as the region finds them, at their literal types. -/
abbrev g1_dst : S1601536x1.Idx → BitVec 32 := W main_v6
abbrev g1_msg : S32x1601536.Idx → EReal := W main_v7

/-- The destination window's block index at point t: block row t % 1564. -/
theorem g1_index_0 (t : Fin cfg1.N) : (cfg1.win 0).index t = ![t.val % 1564, 0] := by
  show cc1_transform_0 (grid1.coords t) = _
  unfold cc1_transform_0
  have h := coord1_e t
  have hlt : t.val % 1564 < 2 ^ 32 := by omega
  funext a
  match a with
  | ⟨0, _⟩ => show (BitVec.ofNat 32 ((grid1.coords t) 1).val).toNat = t.val % 1564
              rw [h, BitVec.toNat_ofNat, Nat.mod_eq_of_lt hlt]
  | ⟨1, _⟩ => rfl

/-- The message window's block index at point t: block column t % 1564. -/
theorem g1_index_1 (t : Fin cfg1.N) : (cfg1.win 1).index t = ![0, t.val % 1564] := by
  show cc1_transform_1 (grid1.coords t) = _
  unfold cc1_transform_1
  have h := coord1_e t
  have hlt : t.val % 1564 < 2 ^ 32 := by omega
  funext a
  match a with
  | ⟨0, _⟩ => rfl
  | ⟨1, _⟩ => show (BitVec.ofNat 32 ((grid1.coords t) 1).val).toNat = t.val % 1564
              rw [h, BitVec.toNat_ofNat, Nat.mod_eq_of_lt hlt]

/-- The destination block at point t, read where the array says: edge 1024 (t % 1564) + k. -/
theorem g1_iblk_0_apply (t : Fin cfg1.N) (k : Fin 1024) (j : Fin 1601536) (hj : j.val = 1024 * (t.val % 1564) + k.val) :
    (iblk1 c W 0 t : Vec Ideal S1024x1 .i32) (ix2 k (0 : Fin 1)) = g1_dst c W (ix2 j (0 : Fin 1)) := by
  unfold iblk1
  rw [View.read_apply]
  show W main_v6 _ = W main_v6 _
  congr 1
  funext a
  apply Fin.ext
  have hi0 : (cfg1.win 0).index t 0 = t.val % 1564 := congrFun (g1_index_0 t) 0
  have hi1 : (cfg1.win 0).index t 1 = 0 := congrFun (g1_index_0 t) 1
  match a with
  | ⟨0, _⟩ => show (cfg1.win 0).index t 0 * 1024 + 1 * k.val = j.val
              rw [hi0, hj]; omega
  | ⟨1, _⟩ => show (cfg1.win 0).index t 1 * 1 + 1 * 0 = 0
              rw [hi1]

/-- The message block at point t, read where the array says: row d, edge 1024 (t % 1564) + k. -/
theorem g1_iblk_1_apply (t : Fin cfg1.N) (d : Fin 32) (k : Fin 1024) (j : Fin 1601536) (hj : j.val = 1024 * (t.val % 1564) + k.val) :
    (iblk1 c W 1 t : Vec Ideal S32x1024 .bf16) (ix2 d k) = g1_msg c W (ix2 d j) := by
  unfold iblk1
  rw [View.read_apply]
  show W main_v7 _ = W main_v7 _
  congr 1
  funext a
  apply Fin.ext
  have hi0 : (cfg1.win 1).index t 0 = 0 := congrFun (g1_index_1 t) 0
  have hi1 : (cfg1.win 1).index t 1 = t.val % 1564 := congrFun (g1_index_1 t) 1
  match a with
  | ⟨0, _⟩ => show (cfg1.win 1).index t 0 * 32 + 1 * d.val = d.val
              rw [hi0]; omega
  | ⟨1, _⟩ => show (cfg1.win 1).index t 1 * 1024 + 1 * k.val = j.val
              rw [hi1, hj]; omega

/-! ## The accumulator inside one node tile -/

/-- Edge tile s's share of row d at the node that tile q's column e stands for: over the tile's 1024 edges, the
    message entry times the indicator that the edge's destination word is that node's number. -/
def g1_tile (q s : ℕ) (d : Fin 32) (e : Fin 4096) : EReal :=
  ∑ k : Fin 1024, g1_msg c W (ix2 d (edgeOf s k)) *
    (if g1_dst c W (ix2 (edgeOf s k) (0 : Fin 1)) = BitVec.ofNat 32 (e.val + 4096 * q) then (1 : EReal) else 0)

/-- The share named by a point's own number is the share of its edge tile and its node tile. -/
theorem g1_tile_at (q s : ℕ) (hs : s < 1564) (d : Fin 32) (e : Fin 4096) :
    g1_tile c W ((1564 * q + s) / 1564) (1564 * q + s) d e = g1_tile c W q s d e := by
  have h1 : (1564 * q + s) / 1564 = q := by omega
  have h2 : ∀ k : Fin 1024, edgeOf (1564 * q + s) k = edgeOf s k := fun k => Fin.ext (by
    rw [edgeOf_val, edgeOf_val, Nat.mul_add_mod])
  unfold g1_tile
  rw [h1]
  simp only [h2]

/-- One point's update at an entry: what the accumulator held plus the point's tile share. -/
theorem g1_step (t : Fin cfg1.N) (a : Vec Ideal S32x4096 .f32) (d : Fin 32) (e : Fin 4096) :
    k1_pay2 (grid1.coords t) (iblk1 c W 0 t) a (iblk1 c W 1 t) (ix2 d e)
      = a (ix2 d e) + g1_tile c W (t.val / 1564) t.val d e := by
  refine (g1_pay2_apply (grid1.coords t) (iblk1 c W 0 t) a (iblk1 c W 1 t) d e).trans ?_
  refine congrArg (a (ix2 d e) + ·) ?_
  unfold g1_tile
  refine Finset.sum_congr rfl fun k _ => ?_
  rw [g1_iblk_0_apply c W t k (edgeOf t.val k) rfl, g1_iblk_1_apply c W t d k (edgeOf t.val k) rfl, coord1_v t]

/-- The accumulator depends on the point's number only. -/
theorem g1_acc_congr (n m : ℕ) (hn : n < cfg1.N) (hm : m < cfg1.N) (h : n = m) : acc1 c W n hn = acc1 c W m hm := by
  subst h; rfl

/-- Inside node tile q, after edge tile s the accumulator holds the shares of edge tiles 0 … s. -/
theorem g1_acc_eq (q : ℕ) (d : Fin 32) (e : Fin 4096) : ∀ (s : ℕ) (hs : s < 1564) (h : 1564 * q + s < cfg1.N),
    acc1 c W (1564 * q + s) h (ix2 d e) = ∑ j ∈ Finset.range (s + 1), g1_tile c W q j d e
  | 0, hs, h => by
    have h0 : (⟨1564 * q + 0, h⟩ : Fin cfg1.N).val % 1564 = 0 := by show (1564 * q + 0) % 1564 = 0; omega
    refine (congrFun (acc1_first c W ⟨1564 * q + 0, h⟩ h0) (ix2 d e)).trans ?_
    refine (g1_step c W ⟨1564 * q + 0, h⟩ (k1_pay1 (F := Ideal)) d e).trans ?_
    rw [g1_pay1_apply, zero_add, Finset.sum_range_one]
    exact g1_tile_at c W q 0 hs d e
  | s + 1, hs, h => by
    have hne : ¬(⟨1564 * q + (s + 1), h⟩ : Fin cfg1.N).val % 1564 = 0 := by show ¬(1564 * q + (s + 1)) % 1564 = 0; omega
    have hp : 1564 * q + s < cfg1.N := by omega
    refine (congrFun (acc1_next c W ⟨1564 * q + (s + 1), h⟩ hne) (ix2 d e)).trans ?_
    refine (g1_step c W ⟨1564 * q + (s + 1), h⟩ _ d e).trans ?_
    rw [Finset.sum_range_succ, ← g1_acc_eq q d e s (by omega) hp]
    refine congrArg₂ (· + ·) ?_ (g1_tile_at c W q (s + 1) hs d e)
    exact congrFun (g1_acc_congr c W _ _ _ hp (by show 1564 * q + (s + 1) - 1 = 1564 * q + s; omega)) (ix2 d e)

/-! ## What a write-back writes, and the array after the last point -/

/-- The node array at (d, v), with the coordinates as numbers. -/
theorem g1_nodeT_apply (d : Fin 32) (v : Fin 102400) :
    Cert.Gcn.Forms.nodeT (W main_v6) (W main_v7) (ix2 d v)
      = ∑ e' : Fin 1601536, g1_msg c W (ix2 d e') *
          (if g1_dst c W (ix2 e' (0 : Fin 1)) = BitVec.ofNat 32 v.val then (1 : EReal) else 0) := rfl

/-- After the last edge tile of node tile q, the accumulator at (d, e) is the node array at (d, 4096 q + e). -/
theorem g1_acc_last (t : Fin cfg1.N) (h63 : t.val % 1564 = 1563) (d : Fin 32) (e : Fin 4096) (v : Fin 102400)
    (hv : v.val = 4096 * (t.val / 1564) + e.val) :
    acc1 c W t.val t.isLt (ix2 d e) = Cert.Gcn.Forms.nodeT (W main_v6) (W main_v7) (ix2 d v) := by
  have ht : t.val = 1564 * (t.val / 1564) + 1563 := by omega
  have hlt : 1564 * (t.val / 1564) + 1563 < cfg1.N := ht ▸ t.isLt
  rw [g1_acc_congr c W t.val _ t.isLt hlt ht, g1_acc_eq c W (t.val / 1564) d e 1563 (by omega) hlt, g1_nodeT_apply]
  unfold g1_tile
  rw [sum_tiles (fun e' : Fin 1601536 => g1_msg c W (ix2 d e') *
          (if g1_dst c W (ix2 e' (0 : Fin 1)) = BitVec.ofNat 32 (e.val + 4096 * (t.val / 1564)) then (1 : EReal) else 0))]
  rw [hv, Nat.add_comm]

/-- The write-back takes the staging block whole: its part that moves, at (d, e), is the block at (d, e). -/
theorem g1_cut_apply (t : Fin cfg1.N) (X : Vec Ideal S32x4096 .f32) (d : Fin 32) (e : Fin 4096) :
    (cfg1.win 2).cut (grid1.coords t) X (ix2 d e) = X (ix2 d e) :=
  congrArg X (funext fun a => Fin.ext (by
    match a with
    | ⟨0, _⟩ => rfl
    | ⟨1, _⟩ => rfl))

/-- Block t of an array over the nodes, read at (d, e), is the array at (d, 4096 (t / 1564) + e). -/
theorem g1_blk_read (G : S32x102400.Idx → EReal) (t : Fin cfg1.N) (d : Fin 32) (e : Fin 4096) (v : Fin 102400)
    (hv : v.val = 4096 * (t.val / 1564) + e.val) :
    (((cfg1.win 2).blk t).view.read (Elt Ideal) G : Vec Ideal S32x4096 .f32) (ix2 d e) = G (ix2 d v) := by
  rw [View.read_apply]
  show G _ = G _
  congr 1
  funext a
  apply Fin.ext
  have hi0 : (cfg1.win 2).index t 0 = 0 := congrFun (index1_2 t) 0
  have hi1 : (cfg1.win 2).index t 1 = t.val / 1564 := congrFun (index1_2 t) 1
  match a with
  | ⟨0, _⟩ => show (cfg1.win 2).index t 0 * 32 + 1 * d.val = d.val
              rw [hi0]; omega
  | ⟨1, _⟩ => show (cfg1.win 2).index t 1 * 4096 + 1 * e.val = v.val
              rw [hi1, hv]; omega

/-- What the write-back after edge tile 1563 writes is the node array's block there. -/
theorem g1_flushed_eq (t : Fin cfg1.N) (hf : (cfg1.win 2).flush t = true) :
    (dat1 (F := Ideal) c W).flushed 2 t
      = ((cfg1.win 2).blk t).view.read (Elt Ideal) (Cert.Gcn.Forms.nodeT (W main_v6) (W main_v7)) := by
  have h63 := (flush1_2 t).mp hf
  have hN : cfg1.N = 39100 := N1
  have htl : t.val < 39100 := lt_of_lt_of_eq t.isLt hN
  show (cfg1.win 2).cut (grid1.coords t) ((dat1 c W).after 2 t) = _
  rw [after1_2]
  funext y
  obtain ⟨d, e, rfl⟩ : ∃ (d : Fin 32) (e : Fin 4096), y = ix2 d e := ⟨y 0, y 1, eq_ix2 y⟩
  have hvlt : 4096 * (t.val / 1564) + e.val < 102400 := by have := e.isLt; omega
  refine (g1_cut_apply t (acc1 c W t.val t.isLt) d e).trans ?_
  refine Eq.trans ?_ (g1_blk_read (Cert.Gcn.Forms.nodeT (W main_v6) (W main_v7)) t d e ⟨4096 * (t.val / 1564) + e.val, hvlt⟩ rfl).symm
  exact g1_acc_last c W t h63 d e _ rfl

/-- After the region's last point its result array holds the node array of the arrays it found at its entry. -/
theorem arr1_final : (dat1 (F := Ideal) c W).arrAt 2 cfg1.N = Cert.Gcn.Forms.nodeT (W main_v6) (W main_v7) :=
  (dat1 (F := Ideal) c W).arrAt_eq_of_cover 2 (Cert.Gcn.Forms.nodeT (W main_v6) (W main_v7)) (g1_flushed_eq c W) fun i => by
    have hN : cfg1.N = 39100 := N1
    have h1 : (i 1 : ℕ) < 102400 := (i 1).isLt
    have h0 : (i 0 : ℕ) < 32 := (i 0).isLt
    have htl : 1564 * ((i 1 : ℕ) / 4096) + 1563 < cfg1.N := by rw [hN]; omega
    refine ⟨⟨1564 * ((i 1 : ℕ) / 4096) + 1563, htl⟩, (flush1_2 _).mpr (by show (1564 * ((i 1 : ℕ) / 4096) + 1563) % 1564 = 1563; omega), ?_⟩
    show i ∈ ((View.whole main_v8).slice (win1_2.rect ⟨1564 * ((i 1 : ℕ) / 4096) + 1563, htl⟩)).set
    rw [View.set_slice_whole, Rect.mem_set_unit]
    intro a
    have hi0 : (cfg1.win 2).index ⟨1564 * ((i 1 : ℕ) / 4096) + 1563, htl⟩ 0 = 0 := congrFun (index1_2 _) 0
    have hi1 : (cfg1.win 2).index ⟨1564 * ((i 1 : ℕ) / 4096) + 1563, htl⟩ 1 = (1564 * ((i 1 : ℕ) / 4096) + 1563) / 1564 :=
      congrFun (index1_2 _) 1
    match a with
    | ⟨0, _⟩ => show (cfg1.win 2).index ⟨1564 * ((i 1 : ℕ) / 4096) + 1563, htl⟩ 0 * 32 ≤ (i 0 : ℕ)
                  ∧ (i 0 : ℕ) < (cfg1.win 2).index ⟨1564 * ((i 1 : ℕ) / 4096) + 1563, htl⟩ 0 * 32 + 32
                rw [hi0]; omega
    | ⟨1, _⟩ => show (cfg1.win 2).index ⟨1564 * ((i 1 : ℕ) / 4096) + 1563, htl⟩ 1 * 4096 ≤ (i 1 : ℕ)
                  ∧ (i 1 : ℕ) < (cfg1.win 2).index ⟨1564 * ((i 1 : ℕ) / 4096) + 1563, htl⟩ 1 * 4096 + 4096
                rw [hi1]; omega

end Cert.KernelIdeal.Hand

end
-- ==== Proof.KI.HostVal.lean ====
/-
  What the host lines of the kernel's program compute, at the ideal instance: before the first region the padded
  row of source words, the padded column of destination words and the transposed, zero-padded feature table; after
  the second region the transpose of its result cut to the first 100000 rows.
-/
import proofs.«415224_j21672404975784_2_alg».proof.Proof.Gen.KernelIdeal.Regions
import proofs.«415224_j21672404975784_2_alg».proof.Proof.Forms
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-! ## The four compositions of layout operations, read at an index -/

section Pure
variable {α : Type}

/-- A vector of 1600000 words padded behind to 1601536 reads the vector below 1600000 and the padding value above. -/
theorem hv_pad1_apply (s : (⟨1, ![1600000]⟩ : Shape).Idx → α) {u : Shape} (v : u.Idx → α) (hu : 0 < u.numel)
    (hp : (⟨1, ![1600000]⟩ : Shape).Pads (![0] : Fin 1 → Nat) ![1536] ![0] ⟨1, ![1601536]⟩) (e : Fin 1601536) :
    pad ⟨1, ![1601536]⟩ ![0] ![1536] ![0] s v hp hu (ix1 e)
      = if h : e.val < 1600000 then s (ix1 ⟨e.val, h⟩) else v (Shape.Idx.first hu) := by
  by_cases h : e.val < 1600000
  · rw [dif_pos h]
    exact pad_apply_of_inside _ _ _ s v hp hu (ix1 e) (ix1 ⟨e.val, h⟩) (fun b => match b with
      | ⟨0, _⟩ => by show e.val = 0 + e.val * (0 + 1); omega)
  · rw [dif_neg h]
    exact pad_apply_of_not_inside _ _ _ s v hp hu (ix1 e) (0 : Fin 1) (by
      show ¬(0 ≤ e.val ∧ (e.val - 0) % (0 + 1) = 0 ∧ (e.val - 0) / (0 + 1) < 1600000)
      omega)

/-- The padded source words laid out as a row. -/
theorem hv_padRow_eq (s : (⟨1, ![1600000]⟩ : Shape).Idx → BitVec 32) {u : Shape} (v : u.Idx → BitVec 32) (hu : 0 < u.numel)
    (hv : v (Shape.Idx.first hu) = 4294967295#32)
    (hp : (⟨1, ![1600000]⟩ : Shape).Pads (![0] : Fin 1 → Nat) ![1536] ![0] ⟨1, ![1601536]⟩)
    (hc : (⟨1, ![1601536]⟩ : Shape).ShapeCasts ⟨2, ![1, 1601536]⟩) :
    shapeCast ⟨2, ![1, 1601536]⟩ (pad ⟨1, ![1601536]⟩ ![0] ![1536] ![0] s v hp hu) hc = Cert.Gcn.Forms.padRow s := by
  funext i
  obtain ⟨a, e, rfl⟩ : ∃ (a : Fin 1) (e : Fin 1601536), i = ix2 a e := ⟨i 0, i 1, eq_ix2 i⟩
  rw [shapeCast_a_1a_apply, hv_pad1_apply, hv]
  rfl

/-- The padded destination words laid out as a column. -/
theorem hv_padCol_eq (d : (⟨1, ![1600000]⟩ : Shape).Idx → BitVec 32) {u : Shape} (v : u.Idx → BitVec 32) (hu : 0 < u.numel)
    (hv : v (Shape.Idx.first hu) = 4294967295#32)
    (hp : (⟨1, ![1600000]⟩ : Shape).Pads (![0] : Fin 1 → Nat) ![1536] ![0] ⟨1, ![1601536]⟩)
    (hc : (⟨1, ![1601536]⟩ : Shape).ShapeCasts ⟨2, ![1601536, 1]⟩) :
    shapeCast ⟨2, ![1601536, 1]⟩ (pad ⟨1, ![1601536]⟩ ![0] ![1536] ![0] d v hp hu) hc = Cert.Gcn.Forms.padCol d := by
  funext i
  obtain ⟨e, a, rfl⟩ : ∃ (e : Fin 1601536) (a : Fin 1), i = ix2 e a := ⟨i 0, i 1, eq_ix2 i⟩
  rw [shapeCast_apply _ hc (ix2 e a) (ix1 e) (by
    have ha : a.val = 0 := by omega
    rw [Shape.rowMajor_val_two, Shape.rowMajor_val_one]
    show e.val = e.val * 1 + a.val
    omega), hv_pad1_apply, hv]
  rfl

/-- The transposed feature table padded behind with zeros to 102400 columns. -/
theorem hv_padFeat_eq (x : (⟨2, ![100000, 32]⟩ : Shape).Idx → EReal) {u : Shape} (v : u.Idx → EReal) (hu : 0 < u.numel)
    (hv : v (Shape.Idx.first hu) = 0)
    (ht : (⟨2, ![100000, 32]⟩ : Shape).Transposes [1, 0] ⟨2, ![32, 100000]⟩)
    (hp : (⟨2, ![32, 100000]⟩ : Shape).Pads (![0, 0] : Fin 2 → Nat) ![0, 2400] ![0, 0] ⟨2, ![32, 102400]⟩) :
    pad ⟨2, ![32, 102400]⟩ ![0, 0] ![0, 2400] ![0, 0] (transpose ⟨2, ![32, 100000]⟩ [1, 0] x ht) v hp hu
      = Cert.Gcn.Forms.padFeat x := by
  funext i
  obtain ⟨f, n, rfl⟩ : ∃ (f : Fin 32) (n : Fin 102400), i = ix2 f n := ⟨i 0, i 1, eq_ix2 i⟩
  show _ = if h : n.val < 100000 then x (ix2 ⟨n.val, h⟩ f) else 0
  by_cases h : n.val < 100000
  · rw [dif_pos h, pad_apply_of_inside _ _ _ _ v hp hu (ix2 f n) (ix2 f (⟨n.val, h⟩ : Fin 100000)) (fun b => match b with
      | ⟨0, _⟩ => by show f.val = 0 + f.val * (0 + 1); omega
      | ⟨1, _⟩ => by show n.val = 0 + n.val * (0 + 1); omega)]
    exact transpose_ix2_apply x ht f ⟨n.val, h⟩
  · rw [dif_neg h, pad_apply_of_not_inside _ _ _ _ v hp hu (ix2 f n) (1 : Fin 2) (by
      show ¬(0 ≤ n.val ∧ (n.val - 0) % (0 + 1) = 0 ∧ (n.val - 0) / (0 + 1) < 100000)
      omega)]
    exact hv

/-- The node array transposed and cut to its first 100000 rows. -/
theorem hv_result_eq (y : (⟨2, ![32, 102400]⟩ : Shape).Idx → EReal)
    (ht : (⟨2, ![32, 102400]⟩ : Shape).Transposes [1, 0] ⟨2, ![102400, 32]⟩)
    (hs : (⟨2, ![102400, 32]⟩ : Shape).Slices (![0, 0] : Fin 2 → Nat) ⟨2, ![100000, 32]⟩) :
    extractStridedSlice ⟨2, ![100000, 32]⟩ ![0, 0] (transpose ⟨2, ![102400, 32]⟩ [1, 0] y ht) hs
      = Cert.Gcn.Forms.result y := by
  funext i
  obtain ⟨r, f, rfl⟩ : ∃ (r : Fin 100000) (f : Fin 32), i = ix2 r f := ⟨i 0, i 1, eq_ix2 i⟩
  have hr : r.val < 102400 := by have := r.isLt; omega
  rw [slice2_axis0_apply 0 _ hs r f (⟨r.val, hr⟩ : Fin 102400) (by show r.val = 0 + r.val; omega),
    transpose_ix2_apply y ht ⟨r.val, hr⟩ f]
  rfl

end Pure

variable (m : (ℓ : Loc nD τ sig) → Buf (Elt Ideal) ℓ) (outs : Outs (F := Ideal)) (c : Dev nD)

/-- When the first region is entered the source-word row holds the padded argument. -/
theorem V7_v5 : V7 m c main_v5 = Cert.Gcn.Forms.padRow (m ((c : Thread nD τ).loc main_arg1)) := by
  have key := hv_padRow_eq (m ((c : Thread nD τ).loc main_arg1)) (constantI S_ 32 4294967295#32) h_S_ rfl
    pads_S1600000_S1601536_015360 shapeCasts_S1601536_S1x1601536
  refine Eq.trans ?_ key
  show StableHlo.after hostOps0_6 (V6 m c) (Proc.devRef .tc main_v5) = _
  after_results
  simp only [StableHlo.TRef.ofBuf, StableHlo.TRef.toBuf, cast_eq, id_eq]
  rfl
/-- The destination-word column holds the padded argument (no region writes it). -/
theorem V7_v6 : V7 m c main_v6 = Cert.Gcn.Forms.padCol (m ((c : Thread nD τ).loc main_arg2)) := by
  have key := hv_padCol_eq (m ((c : Thread nD τ).loc main_arg2)) (constantI S_ 32 4294967295#32) h_S_ rfl
    pads_S1600000_S1601536_015360 shapeCasts_S1601536_S1601536x1
  refine Eq.trans ?_ key
  show StableHlo.after hostOps0_6 (V6 m c) (Proc.devRef .tc main_v6) = _
  after_results
  simp only [StableHlo.TRef.ofBuf, StableHlo.TRef.toBuf, cast_eq, id_eq]
  rfl
/-- The table the first region reads is the argument transposed and zero-padded (a change of float format is the
    identity at the ideal instance; the padding value is the integer 0 converted). -/
theorem V7_v2 : V7 m c main_v2 = Cert.Gcn.Forms.padFeat (m ((c : Thread nD τ).loc main_arg0)) := by
  have key := hv_padFeat_eq (m ((c : Thread nD τ).loc main_arg0)) (sitofp (F := Ideal) .bf16 (constantI S_ 32 0#32)) h_S_
    (sitofp_zero (φ := .bf16)) transposes_S100000x32_S32x100000_1_0 pads_S32x100000_S32x102400_000_024000
  refine Eq.trans ?_ key
  rw [V7_of m c main_v2 (by decide), V6_of m c main_v2 (by decide), V5_of m c main_v2 (by decide),
    V4_of m c main_v2 (by decide), V3_of m c main_v2 (by decide)]
  show StableHlo.after hostOps0_1 (V1 m c) (Proc.devRef .tc main_v2) = _
  after_results
  simp only [StableHlo.TRef.ofBuf, StableHlo.TRef.toBuf, cast_eq, id_eq]
  rfl
/-- After the two host lines that follow the second region the result holds the transposed, cut node array. -/
theorem V10_v10 : V10 m outs c main_v10 = Cert.Gcn.Forms.result (outs 9 main_v8 c) := by
  have key := hv_result_eq (outs 9 main_v8 c) transposes_S32x102400_S102400x32_1_0 slices_S102400x32_S100000x32_0_0
  refine Eq.trans ?_ key
  show StableHlo.after hostOps2 (V9 m outs c) (Proc.devRef .tc main_v10) = _
  after_results
  rw [show V9 m outs c (Proc.devRef .tc main_v8) = outs 9 main_v8 c from Function.update_self _ _ _]

end Cert.KernelIdeal.Hand

end
-- ==== Proof.Spec.lean ====
/-
  What both programs compute, as one function of the three arguments: node r, feature column c of the result is the
  sum, over the edges p whose destination word reads r as a signed integer, of column c of the feature row the
  edge's source word names.  The source word is taken as a natural number below the number of rows (for words in
  range this is the word itself); a destination word that reads no row number contributes to no node.
-/
import Idealize.ShloMosaic.PureOps.Ideal
import Idealize.ShloMosaic.Lib.ValueIdx

noncomputable section

namespace Cert.Gcn.Spec

open Idealize.ShloMosaic Idealize.ShloMosaic.ValueIdx

/-- The feature row an edge's source word names: the word as a natural number, kept below the number of rows. -/
def srcRow (s : (⟨1, ![1600000]⟩ : Shape).Idx → BitVec 32) (p : Fin 1600000) : Fin 100000 :=
  ⟨(s (ix1 p)).toNat % 100000, Nat.mod_lt _ (by norm_num)⟩

/-- A source word below the number of rows names the row of that number. -/
theorem srcRow_val (s : (⟨1, ![1600000]⟩ : Shape).Idx → BitVec 32) (p : Fin 1600000) (h : (s (ix1 p)).toNat < 100000) :
    (srcRow s p).val = (s (ix1 p)).toNat := Nat.mod_eq_of_lt h

/-- The message-passing sum: at (r, c), column c of the source rows of the edges that end at node r. -/
def G (x : (⟨2, ![100000, 32]⟩ : Shape).Idx → EReal) (s d : (⟨1, ![1600000]⟩ : Shape).Idx → BitVec 32) :
    (⟨2, ![100000, 32]⟩ : Shape).Idx → EReal :=
  fun i => ∑ p : Fin 1600000, if (d (ix1 p)).toInt = (((i 0).val : ℕ) : Int) then x (ix2 (srcRow s p) (i 1)) else 0

end Cert.Gcn.Spec

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.Bridge.lean ====
/-
  The two-stage form of the kernel's program is the message-passing sum: with every source word a row number, the
  indicator sum over node numbers picks that row of the table (a padded edge, whose words are -1, picks nothing), and
  the indicator sum over edges keeps the edges whose destination word is the node's number.
-/
import proofs.«415224_j21672404975784_2_alg».proof.Proof.Forms
import proofs.«415224_j21672404975784_2_alg».proof.Proof.Spec
import proofs.«415224_j21672404975784_2_alg».proof.Proof.LibWordArith
import Mathlib.Algebra.BigOperators.Fin

noncomputable section

namespace Cert.Gcn.Bridge

open Idealize.ShloMosaic Idealize.ShloMosaic.ValueIdx Cert.Gcn.Forms

/-- A sum over the first n numbers whose terms vanish from a on is the sum over the first a numbers. -/
theorem sum_fin_of_le {M : Type*} [AddCommMonoid M] {a n : ℕ} (h : a ≤ n) (f : Fin n → M)
    (hz : ∀ e : Fin n, a ≤ e.val → f e = 0) : ∑ e : Fin n, f e = ∑ p : Fin a, f (Fin.castLE h p) := by
  obtain ⟨b, rfl⟩ := Nat.exists_eq_add_of_le h
  rw [Fin.sum_univ_add]
  have h2 : ∑ i : Fin b, f (Fin.natAdd a i) = 0 :=
    Finset.sum_eq_zero fun i _ => hz _ (by simp only [Fin.coe_natAdd]; omega)
  rw [h2, add_zero]
  rfl

/-- A word is the word of a number below 2³¹ exactly when it reads that number as a signed integer. -/
theorem eq_ofNat_iff_toInt (w : BitVec 32) (r : ℕ) (hr : r < 2 ^ 31) : w = BitVec.ofNat 32 r ↔ w.toInt = (r : Int) := by
  constructor
  · intro h
    rw [h]
    exact Cert.Gcn.WordArith.toInt_ofNat_small r hr
  · intro h
    apply BitVec.eq_of_toInt_eq
    rw [h, Cert.Gcn.WordArith.toInt_ofNat_small r hr]

/-- A word is the word of a number below 2³² exactly when that number is its value. -/
theorem eq_ofNat_iff_toNat (w : BitVec 32) (n : ℕ) (hn : n < 2 ^ 32) : w = BitVec.ofNat 32 n ↔ w.toNat = n := by
  constructor
  · intro h
    rw [h, BitVec.toNat_ofNat]
    exact Nat.mod_eq_of_lt hn
  · intro h
    apply BitVec.eq_of_toNat_eq
    rw [h, BitVec.toNat_ofNat]
    exact (Nat.mod_eq_of_lt hn).symm

/-- The message of a real edge is the feature row its source word names: exactly one node number meets the word. -/
theorem msg_apply (x : (⟨2, ![100000, 32]⟩ : Shape).Idx → EReal) (s : (⟨1, ![1600000]⟩ : Shape).Idx → BitVec 32)
    (hs : ∀ p : Fin 1600000, (s (ix1 p)).toNat < 100000) (c : Fin 32) (p : Fin 1600000) :
    msgT (padRow s) (padFeat x) (ix2 c (Fin.castLE (by norm_num) p)) = x (ix2 (Cert.Gcn.Spec.srcRow s p) c) := by
  have hp := hs p
  have hrow : padRow s (ix2 (0 : Fin 1) (Fin.castLE (by norm_num : 1600000 ≤ 1601536) p)) = s (ix1 p) :=
    dif_pos (show (Fin.castLE (by norm_num : 1600000 ≤ 1601536) p).val < 1600000 from p.isLt)
  show ∑ n : Fin 102400, padFeat x (ix2 c n) *
      (if padRow s (ix2 (0 : Fin 1) (Fin.castLE (by norm_num : 1600000 ≤ 1601536) p)) = BitVec.ofNat 32 n.val
        then (1 : EReal) else 0) = _
  rw [hrow]
  rw [Finset.sum_eq_single (⟨(s (ix1 p)).toNat, by omega⟩ : Fin 102400)]
  · rw [if_pos ((eq_ofNat_iff_toNat _ _ (by omega)).mpr rfl), mul_one]
    have hfeat : padFeat x (ix2 c (⟨(s (ix1 p)).toNat, by omega⟩ : Fin 102400))
        = x (ix2 ⟨(s (ix1 p)).toNat, hp⟩ c) := dif_pos hp
    rw [hfeat]
    congr 2
    exact Fin.ext (Cert.Gcn.Spec.srcRow_val s p hp).symm
  · intro n _ hn
    have hne : ¬ s (ix1 p) = BitVec.ofNat 32 n.val := by
      intro h
      apply hn
      apply Fin.ext
      have hlt : n.val < 2 ^ 32 := by have := n.isLt; omega
      exact ((eq_ofNat_iff_toNat _ _ hlt).mp h).symm
    rw [if_neg hne, mul_zero]
  · intro h
    exact absurd (Finset.mem_univ _) h

/-- The program's result in its two-stage form is the specification's sum. -/
theorem result_eq_G (x : (⟨2, ![100000, 32]⟩ : Shape).Idx → EReal) (s d : (⟨1, ![1600000]⟩ : Shape).Idx → BitVec 32)
    (hs : ∀ p : Fin 1600000, (s (ix1 p)).toNat < 100000) :
    result (nodeT (padCol d) (msgT (padRow s) (padFeat x))) = Cert.Gcn.Spec.G x s d := by
  funext i
  rw [eq_ix2 i]
  generalize i 0 = r
  generalize i 1 = c
  have hr : r.val < 100000 := r.isLt
  show ∑ e : Fin 1601536, msgT (padRow s) (padFeat x) (ix2 c e) *
      (if padCol d (ix2 e (0 : Fin 1)) = BitVec.ofNat 32 r.val then (1 : EReal) else 0)
    = ∑ p : Fin 1600000, if (d (ix1 p)).toInt = ((r.val : ℕ) : Int) then x (ix2 (Cert.Gcn.Spec.srcRow s p) c) else 0
  rw [sum_fin_of_le (by norm_num : 1600000 ≤ 1601536)]
  · apply Finset.sum_congr rfl
    intro p _
    have hcol : padCol d (ix2 (Fin.castLE (by norm_num : 1600000 ≤ 1601536) p) (0 : Fin 1)) = d (ix1 p) :=
      dif_pos (show (Fin.castLE (by norm_num : 1600000 ≤ 1601536) p).val < 1600000 from p.isLt)
    rw [hcol, msg_apply x s hs c p]
    by_cases h : (d (ix1 p)).toInt = ((r.val : ℕ) : Int)
    · rw [if_pos h, if_pos ((eq_ofNat_iff_toInt _ _ (by omega)).mpr h), mul_one]
    · rw [if_neg h, if_neg (fun h' => h ((eq_ofNat_iff_toInt _ _ (by omega)).mp h')), mul_zero]
  · intro e he
    have hcol : padCol d (ix2 e (0 : Fin 1)) = 4294967295#32 :=
      dif_neg (show ¬ e.val < 1600000 by omega)
    have hne : ¬ (4294967295#32 : BitVec 32) = BitVec.ofNat 32 r.val := by
      intro h
      have h2 := (eq_ofNat_iff_toNat _ _ (by omega)).mp h
      have h3 : (4294967295#32 : BitVec 32).toNat = 4294967295 := by decide
      omega
    rw [hcol, if_neg hne, mul_zero]

end Cert.Gcn.Bridge

end
-- ==== Proof.KI.Value.lean ====
/-
  The idealized kernel's run with its result named by the specification: the last valuation's result array is the
  transposed, cut node array; the node array is the second region's result over the padded destination column and
  the first region's message array; the message array is the first region's result over the padded source row and
  the padded, transposed feature table; and that two-stage form is the message-passing sum when every source word is
  a row number.
-/
import proofs.«415224_j21672404975784_2_alg».proof.Proof.KI.Run
import proofs.«415224_j21672404975784_2_alg».proof.Proof.KI.Val0
import proofs.«415224_j21672404975784_2_alg».proof.Proof.KI.Val1
import proofs.«415224_j21672404975784_2_alg».proof.Proof.KI.HostVal
import proofs.«415224_j21672404975784_2_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The message array the first region leaves, over the arguments. -/
theorem out0_eq (c : Dev nD) : out0 m c = Cert.Gcn.Forms.msgT (Cert.Gcn.Forms.padRow (m ((c : Thread nD τ).loc main_arg1)))
    (Cert.Gcn.Forms.padFeat (m ((c : Thread nD τ).loc main_arg0))) := by
  unfold out0
  rw [arr0_final c (U7 m c)]
  show Cert.Gcn.Forms.msgT (V7 m c main_v5) (V7 m c main_v2) = _
  rw [V7_v5, V7_v2]

/-- The node array the second region leaves, over the arguments. -/
theorem out1_eq (c : Dev nD) : out1 m c = Cert.Gcn.Forms.nodeT (Cert.Gcn.Forms.padCol (m ((c : Thread nD τ).loc main_arg2)))
    (Cert.Gcn.Forms.msgT (Cert.Gcn.Forms.padRow (m ((c : Thread nD τ).loc main_arg1)))
      (Cert.Gcn.Forms.padFeat (m ((c : Thread nD τ).loc main_arg0)))) := by
  unfold out1
  rw [arr1_final c (U8 m c)]
  have h6 : U8 m c main_v6 = V7 m c main_v6 := Function.update_of_ne (StableHlo.devRef_ne_of_ne (by decide)) _ _
  have h7 : U8 m c main_v7 = out0 m c := Function.update_self (β := fun b => Buf (Elt Ideal) ((c : Thread nD τ).1, b)) _ _ _
  rw [h6, h7, V7_v6, out0_eq]

/-- The result array's final contents are the specification's sum of the arguments. -/
theorem value_eq (c : Dev nD) (hs : ∀ p : Fin 1600000, ((m ((c : Thread nD τ).loc main_arg1)) (ix1 p)).toNat < 100000) :
    V10 m (outsK m) c main_v10
      = Cert.Gcn.Spec.G (m ((c : Thread nD τ).loc main_arg0)) (m ((c : Thread nD τ).loc main_arg1)) (m ((c : Thread nD τ).loc main_arg2)) := by
  rw [V10_v10, outsK_v8, out1_eq]
  exact Cert.Gcn.Bridge.result_eq_G _ _ _ hs

/-- The idealized kernel's run, named: the result array ends at the specification's sum, the arguments unchanged. -/
theorem run_G (hs : ∀ (c : Dev nD) (p : Fin 1600000), ((m ((c.tc : Thread nD τ).loc main_arg1)) (ix1 p)).toNat < 100000) :
    θ_run (defs (F := Ideal)) (onTc (τ := τ) (main (F := Ideal))) ⟨m, fun _ => 0, ρ⟩ (fun r => ∀ c : Dev nD,
      r.2.mem ((c.tc : Thread nD τ).loc main_v10)
          = Cert.Gcn.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (value_eq m c (hs c)), (h c).2⟩) (run_named m ρ)

end Cert.KernelIdeal.Hand

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.RefValue.lean ====
/-
  The reference at the ideal instance: its result is the message-passing sum of the specification, provided every
  source word is a row number (then wrapping negative words and clamping do nothing to it).
-/
import proofs.«415224_j21672404975784_2_alg».proof.Proof.Gen.ReferenceIdeal.Run
import proofs.«415224_j21672404975784_2_alg».proof.Proof.Gen.ReferenceIdeal.Read
import proofs.«415224_j21672404975784_2_alg».proof.Proof.LibIndexMaps
import proofs.«415224_j21672404975784_2_alg».proof.Proof.LibWordArith
import proofs.«415224_j21672404975784_2_alg».proof.Proof.Spec
import Idealize.ShloMosaic.PureOps.Ideal.Laws

noncomputable section

namespace Cert.ReferenceIdeal.RefValue

open Idealize.ShloMosaic Idealize.ShloMosaic.ValueIdx Idealize.ShloMosaic.TcCoe Idealize.SL.Sem
open Cert.ReferenceIdeal Cert.ReferenceIdeal.Gen

/-! ## The operations of the reference, read at one index -/

/-- A vector laid out as a column: entry (p, 0) of the column is entry p of the vector. -/
theorem column_apply {α : Type} (v : (⟨1, ![1600000]⟩ : Shape).Idx → α) (p : Fin 1600000) :
    broadcastInDim S1600000x1 ![0] Facts₀.bcast_S1600000_S1600000x1_0 v (ix2 p (0 : Fin 1)) = v (ix1 p) := by
  unfold broadcastInDim
  refine congrArg v (funext fun a => ?_)
  match a with
  | ⟨0, _⟩ => rfl

/-- A source word that is a row number is not negative, so the wrap-around leaves it as it is. -/
theorem wrapped_apply (s : IVec S1600000 32) (p : Fin 1600000) (hp : (s (ix1 p)).toNat < 100000) :
    select (cmpi .slt s (broadcastInDim S1600000 ![] Facts₀.bcast_S_S1600000 (constantI S_ 32 0#32)))
        (addi s (broadcastInDim S1600000 ![] Facts₀.bcast_S_S1600000 (constantI S_ 32 100000#32))) s (ix1 p)
      = s (ix1 p) := by
  show Scalar.select (IntOp.cmpi .slt (s (ix1 p)) 0#32) (IntOp.addi (s (ix1 p)) 100000#32) (s (ix1 p)) = s (ix1 p)
  exact Cert.Gcn.WordArith.select_slt_zero_small _ (by omega)

/-- At the ideal instance the accumulating scatter is the exact sum. -/
theorem scatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl

/-- The array the scatter adds into is zero everywhere. -/
theorem zeros_apply (j : S100000x32.Idx) :
    broadcastInDim S100000x32 ![] Facts₀.bcast_S_S100000x32 (constant (F := Ideal) S_ .f32 0x00000000#32) j = (0 : EReal) := by
  unfold broadcastInDim
  show Ideal.ofBits .f32 0x00000000#32 = 0
  exact Ideal.ofBits_zero_f32

/-- The specification's sum at (r, c), written out. -/
theorem G_apply (x : (⟨2, ![100000, 32]⟩ : Shape).Idx → EReal) (s d : (⟨1, ![1600000]⟩ : Shape).Idx → BitVec 32)
    (r : Fin 100000) (c : Fin 32) :
    Cert.Gcn.Spec.G x s d (ix2 r c)
      = ∑ p : Fin 1600000, if (d (ix1 p)).toInt = ((r.val : ℕ) : Int) then x (ix2 (Cert.Gcn.Spec.srcRow s p) c) else 0 := rfl

/-! ## The composed term is the specification -/

/-- The reference's composed term is the specification's sum: the scatter adds into zeros, at (r, c), column c of the
    gathered row of every edge whose destination word reads r; the gathered row of edge p is the feature row its
    source word names, because that word is a row number: not negative, so not wrapped, and in range, so not clamped. -/
theorem term_eq_G (x : FVec Ideal S100000x32 .f32) (s d : IVec S1600000 32)
    (hs : ∀ p : Fin 1600000, (s (ix1 p)).toNat < 100000) :
    Host.scatterAdd (F := Ideal) scatter_S100000x32_S1600000x1_S1600000x32_1_0_0_1
        (broadcastInDim S100000x32 ![] Facts₀.bcast_S_S100000x32 (constant (F := Ideal) S_ .f32 0x00000000#32))
        (broadcastInDim S1600000x1 ![0] Facts₀.bcast_S1600000_S1600000x1_0 d)
        (Host.gather gather_S100000x32_S1600000x1_S1600000x32_1_0_n_n_0_1_132 x
          (broadcastInDim S1600000x1 ![0] Facts₀.bcast_S1600000_S1600000x1_0
            (select (cmpi .slt s (broadcastInDim S1600000 ![] Facts₀.bcast_S_S1600000 (constantI S_ 32 0#32)))
              (addi s (broadcastInDim S1600000 ![] Facts₀.bcast_S_S1600000 (constantI S_ 32 100000#32))) s)))
      = Cert.Gcn.Spec.G x s d := by
  funext i
  obtain ⟨r, c, rfl⟩ : ∃ (r : Fin 100000) (c : Fin 32), i = ix2 r c := ⟨i 0, i 1, eq_ix2 i⟩
  rw [scatterAdd_ideal, G_apply]
  -- the scatter at (r, c): the operand's entry plus column c of the update rows whose index word reads r
  rw [Cert.Gcn.IndexMaps.hostScatterAdd2_apply (n := 100000) (f := 32) (e := 1600000) _ rfl rfl rfl rfl]
  rw [zeros_apply, zero_add]
  refine Finset.sum_congr rfl (fun p _ => ?_)
  -- the index word of update row p is the destination word of edge p
  rw [column_apply d p]
  -- the start index of gathered row p is the source word of edge p, a row number
  have hk : (s (ix1 p)).toNat < 100000 := hs p
  have hidx : (broadcastInDim S1600000x1 ![0] Facts₀.bcast_S1600000_S1600000x1_0
            (select (cmpi .slt s (broadcastInDim S1600000 ![] Facts₀.bcast_S_S1600000 (constantI S_ 32 0#32)))
              (addi s (broadcastInDim S1600000 ![] Facts₀.bcast_S_S1600000 (constantI S_ 32 100000#32))) s)
            (ix2 p (0 : Fin 1))).toInt = (((s (ix1 p)).toNat : ℕ) : Int) := by
    rw [column_apply, wrapped_apply s p hk]
    exact Cert.Gcn.WordArith.toInt_of_small (by omega)
  rw [Cert.Gcn.IndexMaps.gather2_ix_apply (n := 100000) (f := 32) (e := 1600000) _ rfl rfl rfl rfl rfl x _ p c _ hk hidx]
  have hrow : (⟨(s (ix1 p)).toNat, hk⟩ : Fin 100000) = Cert.Gcn.Spec.srcRow s p :=
    Fin.ext (Cert.Gcn.Spec.srcRow_val s p hk).symm
  rw [hrow]

/-! ## The run -/

/-- The reference's run, named: the result array ends at the specification's sum of the launch arguments, and the
    arguments end unchanged. -/
theorem run_G (m : (ℓ : Loc nD τ sig) → Buf (Elt Ideal) ℓ) (ρ : Dev nD → PrngReg)
    (hs : ∀ (c : Dev nD) (p : Fin 1600000), ((m ((c.tc : Thread nD τ).loc main_arg1)) (ix1 p)).toNat < 100000) :
    θ_run (defs (F := Ideal)) (onTc (τ := τ) (main (F := Ideal))) ⟨m, fun _ => 0, ρ⟩ (fun r => ∀ c : Dev nD,
      r.2.mem ((c.tc : Thread nD τ).loc main_v9)
          = Cert.Gcn.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun _ h c => ⟨(h c).1.trans ?_, (h c).2⟩)
    (Cert.ReferenceIdeal.Value.run (F := Ideal) m ρ)
  exact term_eq_G (m ((c.tc : Thread nD τ).loc main_arg0)) (m ((c.tc : Thread nD τ).loc main_arg1))
    (m ((c.tc : Thread nD τ).loc main_arg2)) (hs c)

end Cert.ReferenceIdeal.RefValue

end
-- ==== Proof.PreFacts.lean ====
/-
  What the precondition says of the arguments, read off the printed predicate: every source word is a row number of
  the feature table (at least 0 and below 100000 as a signed integer, hence below 100000 as a natural number).
-/
import proofs.«415224_j21672404975784_2_alg».proof.Pre_finite_inputs
import proofs.«415224_j21672404975784_2_alg».proof.Proof.Gen.Pre_finite_inputs
import Idealize.ShloMosaic.Lib.ReduceAll
import Idealize.ShloMosaic.Lib.StableHlo.Predicate
import Idealize.ShloMosaic.Lib.ValueIdx

noncomputable section

namespace Cert.Gcn.PreFacts

open Idealize.ShloMosaic Idealize.ShloMosaic.ValueIdx

variable {F : FTy → Type} [FloatOps F]

/-- A word that reads at least 0 and below 100000 as a signed integer is below 100000 as a natural number: a signed
    reading that is not negative is the unsigned one. -/
theorem toNat_lt_of_signed (a : BitVec 32) (h0 : IntOp.cmpi .sge a 0#32 = 1#1) (h1 : IntOp.cmpi .slt a 100000#32 = 1#1) :
    a.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have := BitVec.toInt_eq_toNat_cond a
  split at this <;> omega

/-- Under the precondition every source word is below the number of rows. -/
theorem src_lt (x : FVec F Cert.Pre_finite_inputs.S100000x32 .f32) (s d : IVec Cert.Pre_finite_inputs.S1600000 32)
    (h : Cert.Pre_finite_inputs.fn (F := F) x s d = fun _ => 1#1) (p : Fin 1600000) : (s (ix1 p)).toNat < 100000 := by
  -- the result has one index only
  haveI : Subsingleton Cert.Pre_finite_inputs.S_.Idx := ⟨fun a b => funext fun d => d.elim0⟩
  -- the predicate's one word is the conjunction of three "all" reductions
  have h0 := congrFun h ix0
  dsimp only [Cert.Pre_finite_inputs.fn] at h0
  obtain ⟨h01, h2⟩ := IntOp.andi_eq_one.1 h0
  obtain ⟨_, h1⟩ := IntOp.andi_eq_one.1 h01
  -- each reduction that came out 1 had a 1 at every position: position p of the two comparisons of the source words
  have e1 := Host.reduce_andi_all _ _ _ _ ix0 h1 (ix1 p)
  have e2 := Host.reduce_andi_all _ _ _ _ ix0 h2 (ix1 p)
  exact toNat_lt_of_signed _ e1 e2

end Cert.Gcn.PreFacts

end
-- ==== Proof.lean ====
/-
  The claim: the kernel's two one-hot products — a gather of feature rows by source word, then a scatter-add by
  destination word, each accumulated tile by tile in a scratch buffer — compute the reference's message-passing sum
  over the extended reals when every source word is a row number of the feature table.
  Each program runs to its end, faults nowhere and leaves its arguments unchanged (the two kernel programs by the
  same run, written once for any float instance; the reference by its host operations read back).  The idealization
  rewrote nothing.  At the ideal instance both result arrays are the specification's sum of the arguments.
-/
import proofs.«415224_j21672404975784_2_alg».proof.Defs
import proofs.«415224_j21672404975784_2_alg».proof.Proof.Gen.Kernel
import proofs.«415224_j21672404975784_2_alg».proof.Proof.Gen.KernelIdeal
import proofs.«415224_j21672404975784_2_alg».proof.Proof.Gen.ReferenceIdeal
import proofs.«415224_j21672404975784_2_alg».proof.Proof.Gen.Pre_finite_inputs
import proofs.«415224_j21672404975784_2_alg».proof.Proof.K.Run
import proofs.«415224_j21672404975784_2_alg».proof.Proof.KI.Value
import proofs.«415224_j21672404975784_2_alg».proof.Proof.RefValue
import proofs.«415224_j21672404975784_2_alg».proof.Proof.PreFacts

noncomputable section

namespace Cert.Proof

open Idealize.ShloMosaic Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the specification's sum. -/
theorem algebraic : Cert.algebraic_KernelIdeal_ReferenceIdeal := by
  intro m ρ m' ρ' hpre hagree
  have hs : ∀ (c : Dev Cert.KernelIdeal.nD) (p : Fin 1600000),
      ((m ((c.tc : Thread Cert.KernelIdeal.nD Cert.KernelIdeal.τ).loc Cert.KernelIdeal.main_arg1)) (ix1 p)).toNat < 100000 :=
    fun c p => Cert.Gcn.PreFacts.src_lt _ _ _ (hpre c) p
  have hs' : ∀ (c : Dev Cert.ReferenceIdeal.nD) (p : Fin 1600000),
      ((m' ((c.tc : Thread Cert.ReferenceIdeal.nD Cert.ReferenceIdeal.τ).loc Cert.ReferenceIdeal.main_arg1)) (ix1 p)).toNat < 100000 :=
    fun c p => by rw [(hagree c).2.1]; exact hs c p
  refine ⟨fun c => Cert.Gcn.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_G m ρ hs, ?_⟩
  refine (θ_run Cert.ReferenceIdeal.defs _ _).mono (fun _ h c => ⟨(h c).1.trans ?_, (h c).2⟩)
    (Cert.ReferenceIdeal.RefValue.run_G m' ρ' hs')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
